-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v65)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v65) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v69) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x256 : Shape := ⟨2, ![100000, 256]⟩
abbrev S2x1600000 : Shape := ⟨2, ![2, 1600000]⟩
abbrev S1600000 : Shape := ⟨1, ![1600000]⟩
abbrev S256x64 : Shape := ⟨2, ![256, 64]⟩
abbrev S64 : Shape := ⟨1, ![64]⟩
abbrev S64x40 : Shape := ⟨2, ![64, 40]⟩
abbrev S40 : Shape := ⟨1, ![40]⟩
abbrev S_ : Shape := ⟨0, ![]⟩

class Facts : Prop where
  bcast_S_S100000x256 : S_.BroadcastsInDim S100000x256 (![] : Fin 0 → Fin S100000x256.rank)
  reducesTo_S100000x256_S_d0_1 : S100000x256.ReducesTo [0, 1] S_
  h_S_ : 0 < S_.numel
  bcast_S_S1600000 : S_.BroadcastsInDim S1600000 (![] : Fin 0 → Fin S1600000.rank)
  reducesTo_S1600000_S_d0 : S1600000.ReducesTo [0] S_
  bcast_S_S256x64 : S_.BroadcastsInDim S256x64 (![] : Fin 0 → Fin S256x64.rank)
  reducesTo_S256x64_S_d0_1 : S256x64.ReducesTo [0, 1] S_
  bcast_S_S64 : S_.BroadcastsInDim S64 (![] : Fin 0 → Fin S64.rank)
  reducesTo_S64_S_d0 : S64.ReducesTo [0] S_
  bcast_S_S64x40 : S_.BroadcastsInDim S64x40 (![] : Fin 0 → Fin S64x40.rank)
  reducesTo_S64x40_S_d0_1 : S64x40.ReducesTo [0, 1] S_
  bcast_S_S40 : S_.BroadcastsInDim S40 (![] : Fin 0 → Fin S40.rank)
  reducesTo_S40_S_d0 : S40.ReducesTo [0] S_

variable [Facts]

def fn_part1 {F : FTy → Type} [FloatOps F] (main_arg5 : FVec F S64x40 .f32) (main_arg6 : FVec F S40 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x40 .f32 := Host.absf main_arg5
  let main_cst_6 : FVec F S_ .f32 := constant S_ .f32 0x7F800000#32
  let main_v20 : FVec F S64x40 .f32 := broadcastInDim S64x40 ![] bcast_S_S64x40 main_cst_6
  let main_v21 : IVec S64x40 1 := cmpf .olt main_v19 main_v20
  let main_c_7 : IVec S_ 1 := constantI S_ 1 1#1
  let main_v22 : IVec S_ 1 := (fun x v => Host.reduce IntOp.andi x v reducesTo_S64x40_S_d0_1 h_S_) main_v21 main_c_7
  let main_v23 : IVec S_ 1 := andi main_v18 main_v22
  let main_v24 : FVec F S40 .f32 := Host.absf main_arg6
  let main_cst_8 : FVec F S_ .f32 := constant S_ .f32 0x7F800000#32
  let main_v25 : FVec F S40 .f32 := broadcastInDim S40 ![] bcast_S_S40 main_cst_8
  let main_v26 : IVec S40 1 := cmpf .olt main_v24 main_v25
  let main_c_9 : IVec S_ 1 := constantI S_ 1 1#1
  let main_v27 : IVec S_ 1 := (fun x v => Host.reduce IntOp.andi x v reducesTo_S40_S_d0 h_S_) main_v26 main_c_9
  let main_v28 : IVec S_ 1 := andi main_v23 main_v27
  main_v28

def fn {F : FTy → Type} [FloatOps F] (main_arg0 : FVec F S100000x256 .f32) (main_arg1 : IVec S2x1600000 32) (main_arg2 : FVec F S1600000 .f32) (main_arg3 : FVec F S256x64 .f32) (main_arg4 : FVec F S64 .f32) (main_arg5 : FVec F S64x40 .f32) (main_arg6 : FVec F S40 .f32) : IVec S_ 1 :=
  let main_v0 : FVec F S100000x256 .f32 := Host.absf main_arg0
  let main_cst : FVec F S_ .f32 := constant S_ .f32 0x7F800000#32
  let main_v1 : FVec F S100000x256 .f32 := broadcastInDim S100000x256 ![] bcast_S_S100000x256 main_cst
  let main_v2 : IVec S100000x256 1 := cmpf .olt main_v0 main_v1
  let main_c : IVec S_ 1 := constantI S_ 1 1#1
  let main_v3 : IVec S_ 1 := (fun x v => Host.reduce IntOp.andi x v reducesTo_S100000x256_S_d0_1 h_S_) main_v2 main_c
  let main_v4 : FVec F S1600000 .f32 := Host.absf main_arg2
  let main_cst_0 : FVec F S_ .f32 := constant S_ .f32 0x7F800000#32
  let main_v5 : FVec F S1600000 .f32 := broadcastInDim S1600000 ![] bcast_S_S1600000 main_cst_0
  let main_v6 : IVec S1600000 1 := cmpf .olt main_v4 main_v5
  let main_c_1 : IVec S_ 1 := constantI S_ 1 1#1
  let main_v7 : IVec S_ 1 := (fun x v => Host.reduce IntOp.andi x v reducesTo_S1600000_S_d0 h_S_) main_v6 main_c_1
  let main_v8 : IVec S_ 1 := andi main_v3 main_v7
  let main_v9 : FVec F S256x64 .f32 := Host.absf main_arg3
  let main_cst_2 : FVec F S_ .f32 := constant S_ .f32 0x7F800000#32
  let main_v10 : FVec F S256x64 .f32 := broadcastInDim S256x64 ![] bcast_S_S256x64 main_cst_2
  let main_v11 : IVec S256x64 1 := cmpf .olt main_v9 main_v10
  let main_c_3 : IVec S_ 1 := constantI S_ 1 1#1
  let main_v12 : IVec S_ 1 := (fun x v => Host.reduce IntOp.andi x v reducesTo_S256x64_S_d0_1 h_S_) main_v11 main_c_3
  let main_v13 : IVec S_ 1 := andi main_v8 main_v12
  let main_v14 : FVec F S64 .f32 := Host.absf main_arg4
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg5 main_arg6 main_v13 main_v16
-- ==== Kernel.lean ====
abbrev S100000x256 : Shape := ⟨2, ![100000, 256]⟩
abbrev S2x1600000 : Shape := ⟨2, ![2, 1600000]⟩
abbrev S1600000 : Shape := ⟨1, ![1600000]⟩
abbrev S256x64 : Shape := ⟨2, ![256, 64]⟩
abbrev S64 : Shape := ⟨1, ![64]⟩
abbrev S64x40 : Shape := ⟨2, ![64, 40]⟩
abbrev S40 : Shape := ⟨1, ![40]⟩
abbrev S100000 : Shape := ⟨1, ![100000]⟩
abbrev S1x1600000 : Shape := ⟨2, ![1, 1600000]⟩
abbrev S1700000 : Shape := ⟨1, ![1700000]⟩
abbrev S_ : Shape := ⟨0, ![]⟩
abbrev S1700000x1 : Shape := ⟨2, ![1700000, 1]⟩
abbrev S100000x64 : Shape := ⟨2, ![100000, 64]⟩
abbrev S5000x256 : Shape := ⟨2, ![5000, 256]⟩
abbrev S5000x64 : Shape := ⟨2, ![5000, 64]⟩
abbrev S1700000x64 : Shape := ⟨2, ![1700000, 64]⟩
abbrev S1x64 : Shape := ⟨2, ![1, 64]⟩
abbrev S100000x40 : Shape := ⟨2, ![100000, 40]⟩
abbrev S5000x40 : Shape := ⟨2, ![5000, 40]⟩
abbrev S1700000x40 : Shape := ⟨2, ![1700000, 40]⟩
abbrev S1x40 : Shape := ⟨2, ![1, 40]⟩
abbrev S5000 : Shape := ⟨1, ![5000]⟩
abbrev S5000x1 : Shape := ⟨2, ![5000, 1]⟩

abbrev nBuf : Space → Nat
  | .hbm => 90
  | .vmem => 20
  | .smem => 0
  | _ => 0

abbrev bufTy : (tb : Table) → Fin (tcTables nBuf tb) → BufTy
  | .hbm, ⟨0, _⟩ => ⟨S100000x256, .f32⟩
  | .hbm, ⟨1, _⟩ => ⟨S2x1600000, .i32⟩
  | .hbm, ⟨2, _⟩ => ⟨S1600000, .f32⟩
  | .hbm, ⟨3, _⟩ => ⟨S256x64, .f32⟩
  | .hbm, ⟨4, _⟩ => ⟨S64, .f32⟩
  | .hbm, ⟨5, _⟩ => ⟨S64x40, .f32⟩
  | .hbm, ⟨6, _⟩ => ⟨S40, .f32⟩
  | .hbm, ⟨7, _⟩ => ⟨S100000, .i32⟩
  | .hbm, ⟨8, _⟩ => ⟨S1x1600000, .i32⟩
  | .hbm, ⟨9, _⟩ => ⟨S1600000, .i32⟩
  | .hbm, ⟨10, _⟩ => ⟨S1700000, .i32⟩
  | .hbm, ⟨11, _⟩ => ⟨S1x1600000, .i32⟩
  | .hbm, ⟨12, _⟩ => ⟨S1600000, .i32⟩
  | .hbm, ⟨13, _⟩ => ⟨S1700000, .i32⟩
  | .hbm, ⟨14, _⟩ => ⟨S_, .f32⟩
  | .hbm, ⟨15, _⟩ => ⟨S100000, .f32⟩
  | .hbm, ⟨16, _⟩ => ⟨S1700000, .f32⟩
  | .hbm, ⟨17, _⟩ => ⟨S_, .f32⟩
  | .hbm, ⟨18, _⟩ => ⟨S100000, .f32⟩
  | .hbm, ⟨19, _⟩ => ⟨S1700000x1, .i32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .i1⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S100000, .f32⟩
  | .hbm, ⟨28, _⟩ => ⟨S_, .f32⟩
  | .hbm, ⟨29, _⟩ => ⟨S_, .f32⟩
  | .hbm, ⟨30, _⟩ => ⟨S100000, .f32⟩
  | .hbm, ⟨31, _⟩ => ⟨S100000, .f32⟩
  | .hbm, ⟨32, _⟩ => ⟨S_, .i32⟩
  | .hbm, ⟨33, _⟩ => ⟨S1700000, .i32⟩
  | .hbm, ⟨34, _⟩ => ⟨S1700000, .i1⟩
  | .hbm, ⟨35, _⟩ => ⟨S_, .i32⟩
  | .hbm, ⟨36, _⟩ => ⟨S1700000, .i32⟩
  | .hbm, ⟨37, _⟩ => ⟨S1700000, .i32⟩
  | .hbm, ⟨38, _⟩ => ⟨S1700000, .i32⟩
  | .hbm, ⟨39, _⟩ => ⟨S1700000x1, .i32⟩
  | .hbm, ⟨40, _⟩ => ⟨S1700000, .f32⟩
  | .hbm, ⟨41, _⟩ => ⟨S1700000, .f32⟩
  | .hbm, ⟨42, _⟩ => ⟨S_, .i32⟩
  | .hbm, ⟨43, _⟩ => ⟨S1700000, .i32⟩
  | .hbm, ⟨44, _⟩ => ⟨S1700000, .i1⟩
  | .hbm, ⟨45, _⟩ => ⟨S_, .i32⟩
  | .hbm, ⟨46, _⟩ => ⟨S1700000, .i32⟩
  | .hbm, ⟨47, _⟩ => ⟨S1700000, .i32⟩
  | .hbm, ⟨48, _⟩ => ⟨S1700000, .i32⟩
  | .hbm, ⟨49, _⟩ => ⟨S1700000x1, .i32⟩
  | .hbm, ⟨50, _⟩ => ⟨S1700000, .f32⟩
  | .hbm, ⟨51, _⟩ => ⟨S1700000, .f32⟩
  | .hbm, ⟨52, _⟩ => ⟨S100000x64, .f32⟩
  | .hbm, ⟨53, _⟩ => ⟨S_, .i32⟩
  | .hbm, ⟨54, _⟩ => ⟨S1700000, .i32⟩
  | .hbm, ⟨55, _⟩ => ⟨S1700000, .i1⟩
  | .hbm, ⟨56, _⟩ => ⟨S_, .i32⟩
  | .hbm, ⟨57, _⟩ => ⟨S1700000, .i32⟩
  | .hbm, ⟨58, _⟩ => ⟨S1700000, .i32⟩
  | .hbm, ⟨59, _⟩ => ⟨S1700000, .i32⟩
  | .hbm, ⟨60, _⟩ => ⟨S1700000x1, .i32⟩
  | .hbm, ⟨61, _⟩ => ⟨S1700000x64, .f32⟩
  | .hbm, ⟨62, _⟩ => ⟨S1700000x1, .f32⟩
  | .hbm, ⟨63, _⟩ => ⟨S1700000x64, .f32⟩
  | .hbm, ⟨64, _⟩ => ⟨S1700000x64, .f32⟩
  | .hbm, ⟨65, _⟩ => ⟨S_, .f32⟩
  | .hbm, ⟨66, _⟩ => ⟨S100000x64, .f32⟩
  | .hbm, ⟨67, _⟩ => ⟨S1700000x1, .i32⟩
  | .hbm, ⟨68, _⟩ => ⟨S100000x64, .f32⟩
  | .hbm, ⟨69, _⟩ => ⟨S1x64, .f32⟩
  | .hbm, ⟨70, _⟩ => ⟨S100000x64, .f32⟩
  | .hbm, ⟨71, _⟩ => ⟨S100000x40, .f32⟩
  | .hbm, ⟨72, _⟩ => ⟨S_, .i32⟩
  | .hbm, ⟨73, _⟩ => ⟨S1700000, .i32⟩
  | .hbm, ⟨74, _⟩ => ⟨S1700000, .i1⟩
  | .hbm, ⟨75, _⟩ => ⟨S_, .i32⟩
  | .hbm, ⟨76, _⟩ => ⟨S1700000, .i32⟩
  | .hbm, ⟨77, _⟩ => ⟨S1700000, .i32⟩
  | .hbm, ⟨78, _⟩ => ⟨S1700000, .i32⟩
  | .hbm, ⟨79, _⟩ => ⟨S1700000x1, .i32⟩
  | .hbm, ⟨80, _⟩ => ⟨S1700000x40, .f32⟩
  | .hbm, ⟨81, _⟩ => ⟨S1700000x1, .f32⟩
  | .hbm, ⟨82, _⟩ => ⟨S1700000x40, .f32⟩
  | .hbm, ⟨83, _⟩ => ⟨S1700000x40, .f32⟩
  | .hbm, ⟨84, _⟩ => ⟨S_, .f32⟩
  | .hbm, ⟨85, _⟩ => ⟨S100000x40, .f32⟩
  | .hbm, ⟨86, _⟩ => ⟨S1700000x1, .i32⟩
  | .hbm, ⟨87, _⟩ => ⟨S100000x40, .f32⟩
  | .hbm, ⟨88, _⟩ => ⟨S1x40, .f32⟩
  | .hbm, ⟨89, _⟩ => ⟨S100000x40, .f32⟩
  | .local _ .vmem, ⟨0, _⟩ => ⟨S5000x256, .f32⟩
  | .local _ .vmem, ⟨1, _⟩ => ⟨S5000x256, .f32⟩
  | .local _ .vmem, ⟨2, _⟩ => ⟨S256x64, .f32⟩
  | .local _ .vmem, ⟨3, _⟩ => ⟨S5000x64, .f32⟩
  | .local _ .vmem, ⟨4, _⟩ => ⟨S5000x64, .f32⟩
  | .local _ .vmem, ⟨5, _⟩ => ⟨S5000x64, .f32⟩
  | .local _ .vmem, ⟨6, _⟩ => ⟨S5000x64, .f32⟩
  | .local _ .vmem, ⟨7, _⟩ => ⟨S1x64, .f32⟩
  | .local _ .vmem, ⟨8, _⟩ => ⟨S5000x64, .f32⟩
  | .local _ .vmem, ⟨9, _⟩ => ⟨S5000x64, .f32⟩
  | .local _ .vmem, ⟨10, _⟩ => ⟨S5000x64, .f32⟩
  | .local _ .vmem, ⟨11, _⟩ => ⟨S5000x64, .f32⟩
  | .local _ .vmem, ⟨12, _⟩ => ⟨S64x40, .f32⟩
  | .local _ .vmem, ⟨13, _⟩ => ⟨S5000x40, .f32⟩
  | .local _ .vmem, ⟨14, _⟩ => ⟨S5000x40, .f32⟩
  | .local _ .vmem, ⟨15, _⟩ => ⟨S5000x40, .f32⟩
  | .local _ .vmem, ⟨16, _⟩ => ⟨S5000x40, .f32⟩
  | .local _ .vmem, ⟨17, _⟩ => ⟨S1x40, .f32⟩
  | .local _ .vmem, ⟨18, _⟩ => ⟨S5000x40, .f32⟩
  | .local _ .vmem, ⟨19, _⟩ => ⟨S5000x40, .f32⟩
  | _, _ => ⟨S100000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_v8 : Ref sig .tc := ⟨.hbm, 16, rfl⟩
abbrev main_cst_0 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_1 : Ref sig .tc := ⟨.hbm, 21, rfl⟩
abbrev main_v12 : Ref sig .tc := ⟨.hbm, 22, rfl⟩
abbrev main_v13 : Ref sig .tc := ⟨.hbm, 23, rfl⟩
abbrev main_cst_2 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_3 : Ref sig .tc := ⟨.hbm, 28, rfl⟩
abbrev main_call0_v0 : Ref sig .tc := ⟨.hbm, 29, rfl⟩
abbrev main_call0_v1 : Ref sig .tc := ⟨.hbm, 30, rfl⟩
abbrev main_v17 : Ref sig .tc := ⟨.hbm, 31, rfl⟩
abbrev main_c : Ref sig .tc := ⟨.hbm, 32, rfl⟩
abbrev main_v18 : Ref sig .tc := ⟨.hbm, 33, rfl⟩
abbrev main_v19 : Ref sig .tc := ⟨.hbm, 34, rfl⟩
abbrev main_c_4 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_c_5 : Ref sig .tc := ⟨.hbm, 42, rfl⟩
abbrev main_v26 : Ref sig .tc := ⟨.hbm, 43, rfl⟩
abbrev main_v27 : Ref sig .tc := ⟨.hbm, 44, rfl⟩
abbrev main_c_6 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_c_7 : Ref sig .tc := ⟨.hbm, 53, rfl⟩
abbrev main_v35 : Ref sig .tc := ⟨.hbm, 54, rfl⟩
abbrev main_v36 : Ref sig .tc := ⟨.hbm, 55, rfl⟩
abbrev main_c_8 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_cst_9 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_c_10 : Ref sig .tc := ⟨.hbm, 72, rfl⟩
abbrev main_v51 : Ref sig .tc := ⟨.hbm, 73, rfl⟩
abbrev main_v52 : Ref sig .tc := ⟨.hbm, 74, rfl⟩
abbrev main_c_11 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_cst_12 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S64x40 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x40 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x40 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x40 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S5000x40 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S100000 : S_.BroadcastsInDim S100000 (![] : Fin 0 → Fin S100000.rank)
  bcast_S1700000_S1700000x1_0 : S1700000.BroadcastsInDim S1700000x1 (![0] : Fin 1 → Fin S1700000x1.rank)
  bcast_S_S1700000 : S_.BroadcastsInDim S1700000 (![] : Fin 0 → Fin S1700000.rank)
  inb_S5000x256_S5000x256_0_0 : ∀ a, (![0, 0] : Fin 2 → Nat) a + S5000x256.size a ≤ S5000x256.size a
  h_S5000x256 : 0 < S5000x256.numel
  bitsLt_bf16_f32 : FTy.bits .bf16 < FTy.bits .f32
  inb_S256x64_S256x64_0_0 : ∀ a, (![0, 0] : Fin 2 → Nat) a + S256x64.size a ≤ S256x64.size a
  h_S256x64 : 0 < S256x64.numel
  inb_S5000x64_S5000x64_0_0 : ∀ a, (![0, 0] : Fin 2 → Nat) a + S5000x64.size a ≤ S5000x64.size a
  h_S5000x64 : 0 < S5000x64.numel
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  shapeCasts_S64_S1x64 : S64.ShapeCasts S1x64
  shapeCasts_S5000x64_S5000x64 : S5000x64.ShapeCasts S5000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S64x40_S64x40_0_0 : ∀ a, (![0, 0] : Fin 2 → Nat) a + S64x40.size a ≤ S64x40.size a
  h_S64x40 : 0 < S64x40.numel
  inb_S5000x40_S5000x40_0_0 : ∀ a, (![0, 0] : Fin 2 → Nat) a + S5000x40.size a ≤ S5000x40.size a
  h_S5000x40 : 0 < S5000x40.numel
  bcast_S1700000x1_S1700000x40_0_1 : S1700000x1.BroadcastsInDim S1700000x40 (![0, 1] : Fin 2 → Fin S1700000x40.rank)
  bcast_S_S100000x40 : S_.BroadcastsInDim S100000x40 (![] : Fin 0 → Fin S100000x40.rank)
  shapeCasts_S40_S1x40 : S40.ShapeCasts S1x40
  shapeCasts_S5000x40_S5000x40 : S5000x40.ShapeCasts S5000x40
  inb_S1x40_S1x40_0_0 : ∀ a, (![0, 0] : Fin 2 → Nat) a + S1x40.size a ≤ S1x40.size a
  h_S1x40 : 0 < S1x40.numel
  shapeCasts_S1x40_S1x40 : S1x40.ShapeCasts S1x40
  broadcasts_S1x40_S5000x40 : S1x40.Broadcasts S5000x40
  reduces_S5000x40_S5000 : S5000x40.Reduces [1] S5000
  shapeCasts_S5000_S5000x1 : S5000.ShapeCasts S5000x1
  broadcasts_S5000x1_S5000x40 : S5000x1.Broadcasts S5000x40
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S5000x256_S256x64_S5000x64_1_0_0_1_n_n_wf : DotDims.WF S5000x256 S256x64 S5000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S5000x64_S64x40_S5000x40_1_0_0_1_n_n_wf : DotDims.WF S5000x64 S64x40 S5000x40 [1] [0] [0] [1] [] []
  gather_S100000x40_S1700000x1_S1700000x40_1_0_n_n_0_1_140_wf : GatherDims.WF S100000x40 S1700000x1 S1700000x40 [1] [0] [] [0] [] 1 ![1, 40]
  scatter_S100000x40_S1700000x1_S1700000x40_1_0_0_1_wf : ScatterDims.WF S100000x40 S1700000x1 S1700000x40 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x256.size a ≤ S100000x256.size a
  hwx0_0 : ∀ i : grid0.Coords, EltTy.bits .f32 = 32 ∨ (Rect.block (s := S100000x256) S5000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x64.size a ≤ S256x64.size a
  hwx0_1 : ∀ i : grid0.Coords, EltTy.bits .f32 = 32 ∨ (Rect.block (s := S256x64) S256x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x64.size a ≤ S100000x64.size a
  hwx0_2 : ∀ i : grid0.Coords, EltTy.bits .f32 = 32 ∨ (Rect.block (s := S100000x64) S5000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x64.size a ≤ S1x64.size a
  hwx1_1 : ∀ i : grid1.Coords, EltTy.bits .f32 = 32 ∨ (Rect.block (s := S1x64) S1x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x64.size a ≤ S100000x64.size a
  hwx1_2 : ∀ i : grid1.Coords, EltTy.bits .f32 = 32 ∨ (Rect.block (s := S100000x64) S5000x64.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S100000x64.size a
  hwx2_0 : ∀ i : grid2.Coords, EltTy.bits .f32 = 32 ∨ (Rect.block (s := S100000x64) S5000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64x40.size a ≤ S64x40.size a
  hwx2_1 : ∀ i : grid2.Coords, EltTy.bits .f32 = 32 ∨ (Rect.block (s := S64x40) S64x40.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x40.size a ≤ S100000x40.size a
  hwx2_2 : ∀ i : grid2.Coords, EltTy.bits .f32 = 32 ∨ (Rect.block (s := S100000x40) S5000x40.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x40.size a ≤ S100000x40.size a
  hwx3_0 : ∀ i : grid3.Coords, EltTy.bits .f32 = 32 ∨ (Rect.block (s := S100000x40) S5000x40.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x40.size a ≤ S1x40.size a
  hwx3_1 : ∀ i : grid3.Coords, EltTy.bits .f32 = 32 ∨ (Rect.block (s := S1x40) S1x40.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x40.size a ≤ S100000x40.size a
  hwx3_2 : ∀ i : grid3.Coords, EltTy.bits .f32 = 32 ∨ (Rect.block (s := S100000x40) S5000x40.size (cc3_transform_2 i) (hinb3_2 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S5000x256_S256x64_S5000x64_1_0_0_1_n_n : DotDims S5000x256 S256x64 S5000x64 where
  lhsContracting := [1]
  rhsContracting := [0]
  lhsNonContracting := [0]
  rhsNonContracting := [1]
  lhsBatch := []
  rhsBatch := []
  wf := dot_S5000x256_S256x64_S5000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S5000x64_S64x40_S5000x40_1_0_0_1_n_n : DotDims S5000x64 S64x40 S5000x40 where
  lhsContracting := [1]
  rhsContracting := [0]
  lhsNonContracting := [0]
  rhsNonContracting := [1]
  lhsBatch := []
  rhsBatch := []
  wf := dot_S5000x64_S64x40_S5000x40_1_0_0_1_n_n_wf
def gather_S100000x40_S1700000x1_S1700000x40_1_0_n_n_0_1_140 : GatherDims S100000x40 S1700000x1 S1700000x40 where
  offsetDims := [1]
  collapsedSliceDims := [0]
  operandBatchingDims := []
  startIndicesBatchingDims := []
  startIndexMap := [0]
  indexVectorDim := 1
  sliceSizes := ![1, 40]
  wf := gather_S100000x40_S1700000x1_S1700000x40_1_0_n_n_0_1_140_wf
def scatter_S100000x40_S1700000x1_S1700000x40_1_0_0_1 : ScatterDims S100000x40 S1700000x1 S1700000x40 where
  updateWindowDims := [1]
  insertedWindowDims := [0]
  scatterDimsToOperandDims := [0]
  indexVectorDim := 1
  wf := scatter_S100000x40_S1700000x1_S1700000x40_1_0_0_1_wf

abbrev win0_0 : Pipeline.Window sig grid0 :=
  Pipeline.Window.ofSpec (Memref.whole main_arg0) S5000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S256x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v34) S5000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v47) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v48) S1x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v49) S5000x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v49) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg5) S64x40.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v50) S5000x40.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v63) S5000x40.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v64) S1x40.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v65) S5000x40.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

class Facts : Prop extends Facts₀ where

variable [Facts]
-- ==== ReferenceIdeal.lean ====
abbrev S100000x256 : Shape := ⟨2, ![100000, 256]⟩
abbrev S2x1600000 : Shape := ⟨2, ![2, 1600000]⟩
abbrev S1600000 : Shape := ⟨1, ![1600000]⟩
abbrev S256x64 : Shape := ⟨2, ![256, 64]⟩
abbrev S64 : Shape := ⟨1, ![64]⟩
abbrev S64x40 : Shape := ⟨2, ![64, 40]⟩
abbrev S40 : Shape := ⟨1, ![40]⟩
abbrev S100000 : Shape := ⟨1, ![100000]⟩
abbrev S1x1600000 : Shape := ⟨2, ![1, 1600000]⟩
abbrev S1700000 : Shape := ⟨1, ![1700000]⟩
abbrev S_ : Shape := ⟨0, ![]⟩
abbrev S1700000x1 : Shape := ⟨2, ![1700000, 1]⟩
abbrev S100000x64 : Shape := ⟨2, ![100000, 64]⟩
abbrev S1700000x64 : Shape := ⟨2, ![1700000, 64]⟩
abbrev S1x64 : Shape := ⟨2, ![1, 64]⟩
abbrev S100000x40 : Shape := ⟨2, ![100000, 40]⟩
abbrev S1700000x40 : Shape := ⟨2, ![1700000, 40]⟩
abbrev S1x40 : Shape := ⟨2, ![1, 40]⟩
abbrev S100000x1 : Shape := ⟨2, ![100000, 1]⟩

abbrev nBuf : Space → Nat
  | .hbm => 110
  | .vmem => 0
  | .smem => 0
  | _ => 0

abbrev bufTy : (tb : Table) → Fin (tcTables nBuf tb) → BufTy
  | .hbm, ⟨0, _⟩ => ⟨S100000x256, .f32⟩
  | .hbm, ⟨1, _⟩ => ⟨S2x1600000, .i32⟩
  | .hbm, ⟨2, _⟩ => ⟨S1600000, .f32⟩
  | .hbm, ⟨3, _⟩ => ⟨S256x64, .f32⟩
  | .hbm, ⟨4, _⟩ => ⟨S64, .f32⟩
  | .hbm, ⟨5, _⟩ => ⟨S64x40, .f32⟩
  | .hbm, ⟨6, _⟩ => ⟨S40, .f32⟩
  | .hbm, ⟨7, _⟩ => ⟨S100000, .i32⟩
  | .hbm, ⟨8, _⟩ => ⟨S1x1600000, .i32⟩
  | .hbm, ⟨9, _⟩ => ⟨S1600000, .i32⟩
  | .hbm, ⟨10, _⟩ => ⟨S1700000, .i32⟩
  | .hbm, ⟨11, _⟩ => ⟨S1x1600000, .i32⟩
  | .hbm, ⟨12, _⟩ => ⟨S1600000, .i32⟩
  | .hbm, ⟨13, _⟩ => ⟨S1700000, .i32⟩
  | .hbm, ⟨14, _⟩ => ⟨S_, .f32⟩
  | .hbm, ⟨15, _⟩ => ⟨S100000, .f32⟩
  | .hbm, ⟨16, _⟩ => ⟨S1700000, .f32⟩
  | .hbm, ⟨17, _⟩ => ⟨S_, .f32⟩
  | .hbm, ⟨18, _⟩ => ⟨S100000, .f32⟩
  | .hbm, ⟨19, _⟩ => ⟨S1700000x1, .i32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .i1⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S100000, .f32⟩
  | .hbm, ⟨28, _⟩ => ⟨S_, .f32⟩
  | .hbm, ⟨29, _⟩ => ⟨S_, .f32⟩
  | .hbm, ⟨30, _⟩ => ⟨S100000, .f32⟩
  | .hbm, ⟨31, _⟩ => ⟨S100000, .f32⟩
  | .hbm, ⟨32, _⟩ => ⟨S_, .i32⟩
  | .hbm, ⟨33, _⟩ => ⟨S1700000, .i32⟩
  | .hbm, ⟨34, _⟩ => ⟨S1700000, .i1⟩
  | .hbm, ⟨35, _⟩ => ⟨S_, .i32⟩
  | .hbm, ⟨36, _⟩ => ⟨S1700000, .i32⟩
  | .hbm, ⟨37, _⟩ => ⟨S1700000, .i32⟩
  | .hbm, ⟨38, _⟩ => ⟨S1700000, .i32⟩
  | .hbm, ⟨39, _⟩ => ⟨S1700000x1, .i32⟩
  | .hbm, ⟨40, _⟩ => ⟨S1700000, .f32⟩
  | .hbm, ⟨41, _⟩ => ⟨S1700000, .f32⟩
  | .hbm, ⟨42, _⟩ => ⟨S_, .i32⟩
  | .hbm, ⟨43, _⟩ => ⟨S1700000, .i32⟩
  | .hbm, ⟨44, _⟩ => ⟨S1700000, .i1⟩
  | .hbm, ⟨45, _⟩ => ⟨S_, .i32⟩
  | .hbm, ⟨46, _⟩ => ⟨S1700000, .i32⟩
  | .hbm, ⟨47, _⟩ => ⟨S1700000, .i32⟩
  | .hbm, ⟨48, _⟩ => ⟨S1700000, .i32⟩
  | .hbm, ⟨49, _⟩ => ⟨S1700000x1, .i32⟩
  | .hbm, ⟨50, _⟩ => ⟨S1700000, .f32⟩
  | .hbm, ⟨51, _⟩ => ⟨S1700000, .f32⟩
  | .hbm, ⟨52, _⟩ => ⟨S100000x64, .f32⟩
  | .hbm, ⟨53, _⟩ => ⟨S_, .i32⟩
  | .hbm, ⟨54, _⟩ => ⟨S1700000, .i32⟩
  | .hbm, ⟨55, _⟩ => ⟨S1700000, .i1⟩
  | .hbm, ⟨56, _⟩ => ⟨S_, .i32⟩
  | .hbm, ⟨57, _⟩ => ⟨S1700000, .i32⟩
  | .hbm, ⟨58, _⟩ => ⟨S1700000, .i32⟩
  | .hbm, ⟨59, _⟩ => ⟨S1700000, .i32⟩
  | .hbm, ⟨60, _⟩ => ⟨S1700000x1, .i32⟩
  | .hbm, ⟨61, _⟩ => ⟨S1700000x64, .f32⟩
  | .hbm, ⟨62, _⟩ => ⟨S1700000x1, .f32⟩
  | .hbm, ⟨63, _⟩ => ⟨S1700000x64, .f32⟩
  | .hbm, ⟨64, _⟩ => ⟨S1700000x64, .f32⟩
  | .hbm, ⟨65, _⟩ => ⟨S_, .f32⟩
  | .hbm, ⟨66, _⟩ => ⟨S100000x64, .f32⟩
  | .hbm, ⟨67, _⟩ => ⟨S1700000x1, .i32⟩
  | .hbm, ⟨68, _⟩ => ⟨S100000x64, .f32⟩
  | .hbm, ⟨69, _⟩ => ⟨S1x64, .f32⟩
  | .hbm, ⟨70, _⟩ => ⟨S100000x64, .f32⟩
  | .hbm, ⟨71, _⟩ => ⟨S100000x64, .f32⟩
  | .hbm, ⟨72, _⟩ => ⟨S_, .f32⟩
  | .hbm, ⟨73, _⟩ => ⟨S100000x64, .f32⟩
  | .hbm, ⟨74, _⟩ => ⟨S100000x64, .f32⟩
  | .hbm, ⟨75, _⟩ => ⟨S100000x40, .f32⟩
  | .hbm, ⟨76, _⟩ => ⟨S_, .i32⟩
  | .hbm, ⟨77, _⟩ => ⟨S1700000, .i32⟩
  | .hbm, ⟨78, _⟩ => ⟨S1700000, .i1⟩
  | .hbm, ⟨79, _⟩ => ⟨S_, .i32⟩
  | .hbm, ⟨80, _⟩ => ⟨S1700000, .i32⟩
  | .hbm, ⟨81, _⟩ => ⟨S1700000, .i32⟩
  | .hbm, ⟨82, _⟩ => ⟨S1700000, .i32⟩
  | .hbm, ⟨83, _⟩ => ⟨S1700000x1, .i32⟩
  | .hbm, ⟨84, _⟩ => ⟨S1700000x40, .f32⟩
  | .hbm, ⟨85, _⟩ => ⟨S1700000x1, .f32⟩
  | .hbm, ⟨86, _⟩ => ⟨S1700000x40, .f32⟩
  | .hbm, ⟨87, _⟩ => ⟨S1700000x40, .f32⟩
  | .hbm, ⟨88, _⟩ => ⟨S_, .f32⟩
  | .hbm, ⟨89, _⟩ => ⟨S100000x40, .f32⟩
  | .hbm, ⟨90, _⟩ => ⟨S1700000x1, .i32⟩
  | .hbm, ⟨91, _⟩ => ⟨S100000x40, .f32⟩
  | .hbm, ⟨92, _⟩ => ⟨S1x40, .f32⟩
  | .hbm, ⟨93, _⟩ => ⟨S100000x40, .f32⟩
  | .hbm, ⟨94, _⟩ => ⟨S100000x40, .f32⟩
  | .hbm, ⟨95, _⟩ => ⟨S_, .f32⟩
  | .hbm, ⟨96, _⟩ => ⟨S100000, .f32⟩
  | .hbm, ⟨97, _⟩ => ⟨S_, .f32⟩
  | .hbm, ⟨98, _⟩ => ⟨S100000, .f32⟩
  | .hbm, ⟨99, _⟩ => ⟨S100000, .f32⟩
  | .hbm, ⟨100, _⟩ => ⟨S100000x1, .f32⟩
  | .hbm, ⟨101, _⟩ => ⟨S100000x40, .f32⟩
  | .hbm, ⟨102, _⟩ => ⟨S100000x40, .f32⟩
  | .hbm, ⟨103, _⟩ => ⟨S100000x40, .f32⟩
  | .hbm, ⟨104, _⟩ => ⟨S_, .f32⟩
  | .hbm, ⟨105, _⟩ => ⟨S100000, .f32⟩
  | .hbm, ⟨106, _⟩ => ⟨S100000x1, .f32⟩
  | .hbm, ⟨107, _⟩ => ⟨S100000x1, .f32⟩
  | .hbm, ⟨108, _⟩ => ⟨S100000x40, .f32⟩
  | .hbm, ⟨109, _⟩ => ⟨S100000x40, .f32⟩
  | _, _ => ⟨S100000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_v8 : Ref sig .tc := ⟨.hbm, 16, rfl⟩
abbrev main_cst_0 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_1 : Ref sig .tc := ⟨.hbm, 21, rfl⟩
abbrev main_v12 : Ref sig .tc := ⟨.hbm, 22, rfl⟩
abbrev main_v13 : Ref sig .tc := ⟨.hbm, 23, rfl⟩
abbrev main_cst_2 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_3 : Ref sig .tc := ⟨.hbm, 28, rfl⟩
abbrev main_call0_v0 : Ref sig .tc := ⟨.hbm, 29, rfl⟩
abbrev main_call0_v1 : Ref sig .tc := ⟨.hbm, 30, rfl⟩
abbrev main_v17 : Ref sig .tc := ⟨.hbm, 31, rfl⟩
abbrev main_c : Ref sig .tc := ⟨.hbm, 32, rfl⟩
abbrev main_v18 : Ref sig .tc := ⟨.hbm, 33, rfl⟩
abbrev main_v19 : Ref sig .tc := ⟨.hbm, 34, rfl⟩
abbrev main_c_4 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_c_5 : Ref sig .tc := ⟨.hbm, 42, rfl⟩
abbrev main_v26 : Ref sig .tc := ⟨.hbm, 43, rfl⟩
abbrev main_v27 : Ref sig .tc := ⟨.hbm, 44, rfl⟩
abbrev main_c_6 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_c_7 : Ref sig .tc := ⟨.hbm, 53, rfl⟩
abbrev main_v35 : Ref sig .tc := ⟨.hbm, 54, rfl⟩
abbrev main_v36 : Ref sig .tc := ⟨.hbm, 55, rfl⟩
abbrev main_c_8 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_cst_9 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_call1_cst : Ref sig .tc := ⟨.hbm, 72, rfl⟩
abbrev main_call1_v0 : Ref sig .tc := ⟨.hbm, 73, rfl⟩
abbrev main_v51 : Ref sig .tc := ⟨.hbm, 74, rfl⟩
abbrev main_v52 : Ref sig .tc := ⟨.hbm, 75, rfl⟩
abbrev main_c_10 : Ref sig .tc := ⟨.hbm, 76, rfl⟩
abbrev main_v53 : Ref sig .tc := ⟨.hbm, 77, rfl⟩
abbrev main_v54 : Ref sig .tc := ⟨.hbm, 78, rfl⟩
abbrev main_c_11 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_cst_12 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_call2_cst : Ref sig .tc := ⟨.hbm, 95, rfl⟩
abbrev main_call2_v0 : Ref sig .tc := ⟨.hbm, 96, rfl⟩
abbrev main_call2_cst_0 : Ref sig .tc := ⟨.hbm, 97, rfl⟩
abbrev main_call2_v1 : Ref sig .tc := ⟨.hbm, 98, rfl⟩
abbrev main_call2_v2 : Ref sig .tc := ⟨.hbm, 99, rfl⟩
abbrev main_call2_v3 : Ref sig .tc := ⟨.hbm, 100, rfl⟩
abbrev main_call2_v4 : Ref sig .tc := ⟨.hbm, 101, rfl⟩
abbrev main_call2_v5 : Ref sig .tc := ⟨.hbm, 102, rfl⟩
abbrev main_call2_v6 : Ref sig .tc := ⟨.hbm, 103, rfl⟩
abbrev main_call2_cst_1 : Ref sig .tc := ⟨.hbm, 104, rfl⟩
abbrev main_call2_v7 : Ref sig .tc := ⟨.hbm, 105, rfl⟩
abbrev main_call2_v8 : Ref sig .tc := ⟨.hbm, 106, rfl⟩
abbrev main_call2_v9 : Ref sig .tc := ⟨.hbm, 107, rfl⟩
abbrev main_call2_v10 : Ref sig .tc := ⟨.hbm, 108, rfl⟩
abbrev main_v69 : Ref sig .tc := ⟨.hbm, 109, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S100000 : S_.BroadcastsInDim S100000 (![] : Fin 0 → Fin S100000.rank)
  bcast_S1700000_S1700000x1_0 : S1700000.BroadcastsInDim S1700000x1 (![0] : Fin 1 → Fin S1700000x1.rank)
  bcast_S_S1700000 : S_.BroadcastsInDim S1700000 (![] : Fin 0 → Fin S1700000.rank)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S1700000x1_S1700000x40_0_1 : S1700000x1.BroadcastsInDim S1700000x40 (![0, 1] : Fin 2 → Fin S1700000x40.rank)
  bcast_S_S100000x40 : S_.BroadcastsInDim S100000x40 (![] : Fin 0 → Fin S100000x40.rank)
  bcast_S40_S1x40_1 : S40.BroadcastsInDim S1x40 (![1] : Fin 1 → Fin S1x40.rank)
  bcast_S1x40_S100000x40_0_1 : S1x40.BroadcastsInDim S100000x40 (![0, 1] : Fin 2 → Fin S100000x40.rank)
  reducesTo_S100000x40_S100000_d1 : S100000x40.ReducesTo [1] S100000
  h_S_ : 0 < S_.numel
  bcast_S100000_S100000x1_0 : S100000.BroadcastsInDim S100000x1 (![0] : Fin 1 → Fin S100000x1.rank)
  bcast_S100000x1_S100000x40_0_1 : S100000x1.BroadcastsInDim S100000x40 (![0, 1] : Fin 2 → Fin S100000x40.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x256_S256x64_S100000x64_1_0_0_1_n_n_wf : DotDims.WF S100000x256 S256x64 S100000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S100000x64_S64x40_S100000x40_1_0_0_1_n_n_wf : DotDims.WF S100000x64 S64x40 S100000x40 [1] [0] [0] [1] [] []
  gather_S100000x40_S1700000x1_S1700000x40_1_0_n_n_0_1_140_wf : GatherDims.WF S100000x40 S1700000x1 S1700000x40 [1] [0] [] [0] [] 1 ![1, 40]
  scatter_S100000x40_S1700000x1_S1700000x40_1_0_0_1_wf : ScatterDims.WF S100000x40 S1700000x1 S1700000x40 [1] [0] [0] 1

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x256_S256x64_S100000x64_1_0_0_1_n_n : DotDims S100000x256 S256x64 S100000x64 where
  lhsContracting := [1]
  rhsContracting := [0]
  lhsNonContracting := [0]
  rhsNonContracting := [1]
  lhsBatch := []
  rhsBatch := []
  wf := dot_S100000x256_S256x64_S100000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S100000x64_S64x40_S100000x40_1_0_0_1_n_n : DotDims S100000x64 S64x40 S100000x40 where
  lhsContracting := [1]
  rhsContracting := [0]
  lhsNonContracting := [0]
  rhsNonContracting := [1]
  lhsBatch := []
  rhsBatch := []
  wf := dot_S100000x64_S64x40_S100000x40_1_0_0_1_n_n_wf
def gather_S100000x40_S1700000x1_S1700000x40_1_0_n_n_0_1_140 : GatherDims S100000x40 S1700000x1 S1700000x40 where
  offsetDims := [1]
  collapsedSliceDims := [0]
  operandBatchingDims := []
  startIndicesBatchingDims := []
  startIndexMap := [0]
  indexVectorDim := 1
  sliceSizes := ![1, 40]
  wf := gather_S100000x40_S1700000x1_S1700000x40_1_0_n_n_0_1_140_wf
def scatter_S100000x40_S1700000x1_S1700000x40_1_0_0_1 : ScatterDims S100000x40 S1700000x1 S1700000x40 where
  updateWindowDims := [1]
  insertedWindowDims := [0]
  scatterDimsToOperandDims := [0]
  indexVectorDim := 1
  wf := scatter_S100000x40_S1700000x1_S1700000x40_1_0_0_1_wf

class Facts : Prop extends Facts₀ where

variable [Facts]
-- ==== Proof.Spec.lean ====
/-
  The host chains that the kernel's program and the reference share, as named functions.

  Both programs build, on the host, the edge lists with one self-loop per node appended (sources, targets,
  weights), the degrees as a scatter-add of the weights onto the targets, the symmetric normalisation
  `norm[e] = dinv[src e] · w[e] · dinv[dst e]` with `dinv = (deg > 0) ? rsqrt (max deg tiny) : 0`, and twice a
  message-passing step: gather the rows of a node array at the sources, scale row `e` by `norm[e]`, scatter-add the
  rows onto the targets. Naming these chains once lets the two programs be compared without ever opening a gather
  or a scatter: each side is shown to apply THE SAME function to values already known equal.
  (Indices: jnp's indexing first adds the extent to a negative index — `wrapCol` — and hands the gather a column.)
-/
import proofs.«107888_j11776800326009_1_alg».proof.Proof.Gen.ReferenceIdeal

noncomputable section

namespace Cert.Spec

open Cert.ReferenceIdeal Cert.ReferenceIdeal.Gen Idealize.ShloMosaic

variable {F : FTy → Type} [FloatOps F]

/-- The sources: row 0 of the edge list, then every node once (the self-loops). -/
def srcOf (e : IVec S2x1600000 32) : IVec S1700000 32 :=
  concatenate S1700000 0 [⟨S1600000, shapeCast S1600000 (extractStridedSlice S1x1600000 ![0, 0] e slices_S2x1600000_S1x1600000_0_0) shapeCasts_S1x1600000_S1600000⟩, ⟨S100000, iotaInDim S100000 32 0⟩] concatenates_S1600000_S100000_S1700000_d0

/-- The targets: row 1 of the edge list, then every node once. -/
def dstOf (e : IVec S2x1600000 32) : IVec S1700000 32 :=
  concatenate S1700000 0 [⟨S1600000, shapeCast S1600000 (extractStridedSlice S1x1600000 ![1, 0] e slices_S2x1600000_S1x1600000_1_0) shapeCasts_S1x1600000_S1600000⟩, ⟨S100000, iotaInDim S100000 32 0⟩] concatenates_S1600000_S100000_S1700000_d0

/-- The weights: the edge weights, then a one per self-loop. -/
def wtsOf (a : FVec F S1600000 .f32) : FVec F S1700000 .f32 :=
  concatenate S1700000 0 [⟨S1600000, a⟩, ⟨S100000, broadcastInDim S100000 ![] bcast_S_S100000 (constant S_ .f32 0x3F800000#32)⟩] concatenates_S1600000_S100000_S1700000_d0

/-- An index list as the column a gather takes, a negative index first moved up by the extent. -/
def wrapCol (s : IVec S1700000 32) : IVec S1700000x1 32 :=
  broadcastInDim S1700000x1 ![0] bcast_S1700000_S1700000x1_0
    (select (cmpi .slt s (broadcastInDim S1700000 ![] bcast_S_S1700000 (constantI S_ 32 0#32)))
      (addi s (broadcastInDim S1700000 ![] bcast_S_S1700000 (constantI S_ 32 100000#32))) s)

/-- The degrees: the weights added up at their targets. -/
def degOf (d : IVec S1700000 32) (w : FVec F S1700000 .f32) : FVec F S100000 .f32 :=
  Host.scatterAdd scatter_S100000_S1700000x1_S1700000_n_0_0_1
    (broadcastInDim S100000 ![] bcast_S_S100000 (constant S_ .f32 0x00000000#32))
    (broadcastInDim S1700000x1 ![0] bcast_S1700000_S1700000x1_0 d) w

/-- The inverse square roots of the degrees, zero where the degree is not positive. -/
def dinvOf (g : FVec F S100000 .f32) : FVec F S100000 .f32 :=
  select (cmpf .ogt g (broadcastInDim S100000 ![] bcast_S_S100000 (constant S_ .f32 0x00000000#32)))
    (Host.rsqrt (maximumf g (broadcastInDim S100000 ![] bcast_S_S100000 (constant S_ .f32 0x0DA24260#32))))
    (broadcastInDim S100000 ![] bcast_S_S100000 (id (constant S_ .f32 0x00000000#32)))

/-- The edges' normalisation. -/
def normOf (s d : IVec S1700000 32) (w : FVec F S1700000 .f32) : FVec F S1700000 .f32 :=
  mulf (mulf (Host.gather gather_S100000_S1700000x1_S1700000_n_0_n_n_0_1_1 (dinvOf (degOf d w)) (wrapCol s)) w)
    (Host.gather gather_S100000_S1700000x1_S1700000_n_0_n_n_0_1_1 (dinvOf (degOf d w)) (wrapCol d))

/-- One message-passing step on 64 columns: gather at the sources, scale by the edge's normalisation, add up at
    the targets. -/
def pass64 (h : FVec F S100000x64 .f32) (s d : IVec S1700000 32) (n : FVec F S1700000 .f32) : FVec F S100000x64 .f32 :=
  Host.scatterAdd scatter_S100000x64_S1700000x1_S1700000x64_1_0_0_1
    (broadcastInDim S100000x64 ![] bcast_S_S100000x64 (constant S_ .f32 0x00000000#32))
    (broadcastInDim S1700000x1 ![0] bcast_S1700000_S1700000x1_0 d)
    (mulf (Host.gather gather_S100000x64_S1700000x1_S1700000x64_1_0_n_n_0_1_164 h (wrapCol s))
      (broadcastInDim S1700000x64 ![0, 1] bcast_S1700000x1_S1700000x64_0_1 (broadcastInDim S1700000x1 ![0] bcast_S1700000_S1700000x1_0 n)))

/-- The same step on 40 columns. -/
def pass40 (h : FVec F S100000x40 .f32) (s d : IVec S1700000 32) (n : FVec F S1700000 .f32) : FVec F S100000x40 .f32 :=
  Host.scatterAdd scatter_S100000x40_S1700000x1_S1700000x40_1_0_0_1
    (broadcastInDim S100000x40 ![] bcast_S_S100000x40 (constant S_ .f32 0x00000000#32))
    (broadcastInDim S1700000x1 ![0] bcast_S1700000_S1700000x1_0 d)
    (mulf (Host.gather gather_S100000x40_S1700000x1_S1700000x40_1_0_n_n_0_1_140 h (wrapCol s))
      (broadcastInDim S1700000x40 ![0, 1] bcast_S1700000x1_S1700000x40_0_1 (broadcastInDim S1700000x1 ![0] bcast_S1700000_S1700000x1_0 n)))

end Cert.Spec

end
-- ==== Proof.KStretch.lean ====
/-
  The kernel program's host stretches, read as named functions.

  Between its four regions the kernel's program runs, on the host, five straight lines of array operations. From
  ANY contents of the buffers, and for ANY float family, what each line leaves is a named function of what it found:
  the first line builds the edge lists with one self-loop per node appended (sources, targets, weights), adds the
  weights up at their targets into the degrees, and takes where the degree is positive and the inverse square root
  of the degree kept above a tiny constant; the next two select between that inverse square root and zero and form
  the edges' normalisation `dinv[src e] · w[e] · dinv[dst e]`; the last two each gather the rows of a node array at
  the sources, scale row `e` by the normalisation, add the rows up at the targets, and reshape a bias to a row.
  Each line also leaves untouched the buffers it does not write. The right-hand sides are the functions named once
  for both programs; the two programs' shape records are the same literal data, so each equation is by unfolding.
-/
import proofs.«107888_j11776800326009_1_alg».proof.Proof.Gen.KernelIdeal.Frame
import proofs.«107888_j11776800326009_1_alg».proof.Proof.Spec
import Idealize.ShloMosaic.Lib.StableHlo.Run

set_option maxRecDepth 16384

noncomputable section

namespace Cert.KernelIdeal.KStretch

open Cert.KernelIdeal Cert.KernelIdeal.Gen Idealize.ShloMosaic Idealize.ShloMosaic.TcCoe Idealize.SL.Sem
open Idealize.ShloMosaic.StableHlo

variable {F : FTy → Type} [FloatOps F] (W : Valuation τ sig (Elt F))

/-! ## The first stretch: the edge lists with their self-loops, the degrees, the inverse square roots -/

/-- The sources the first stretch leaves: row 0 of the edge list followed by every node once. -/
theorem ops0_v3 : after hostOps0 W (Proc.devRef .tc main_v3) = Cert.Spec.srcOf (W (Proc.devRef .tc main_arg1)) := by
  dsimp only [hostOps0]
  after_results
  rfl

/-- The targets: row 1 of the edge list followed by every node once. -/
theorem ops0_v6 : after hostOps0 W (Proc.devRef .tc main_v6) = Cert.Spec.dstOf (W (Proc.devRef .tc main_arg1)) := by
  dsimp only [hostOps0]
  after_results
  rfl

/-- The weights: the edge weights followed by a one per self-loop. -/
theorem ops0_v8 : after hostOps0 W (Proc.devRef .tc main_v8) = Cert.Spec.wtsOf (W (Proc.devRef .tc main_arg2)) := by
  dsimp only [hostOps0]
  after_results
  rfl

/-- Where the degree (the weights added up at their targets) is positive. -/
theorem ops0_v13 : after hostOps0 W (Proc.devRef .tc main_v13) = cmpf .ogt (Cert.Spec.degOf (Cert.Spec.dstOf (W (Proc.devRef .tc main_arg1))) (Cert.Spec.wtsOf (W (Proc.devRef .tc main_arg2)))) (broadcastInDim Cert.ReferenceIdeal.S100000 ![] Cert.ReferenceIdeal.Facts₀.bcast_S_S100000 (constant Cert.ReferenceIdeal.S_ .f32 0x00000000#32)) := by
  dsimp only [hostOps0]
  after_results
  rfl

/-- The inverse square root of the degree kept away from zero by a tiny positive constant. -/
theorem ops0_v16 : after hostOps0 W (Proc.devRef .tc main_v16) = Host.rsqrt (maximumf (Cert.Spec.degOf (Cert.Spec.dstOf (W (Proc.devRef .tc main_arg1))) (Cert.Spec.wtsOf (W (Proc.devRef .tc main_arg2)))) (broadcastInDim Cert.ReferenceIdeal.S100000 ![] Cert.ReferenceIdeal.Facts₀.bcast_S_S100000 (constant Cert.ReferenceIdeal.S_ .f32 0x0DA24260#32))) := by
  dsimp only [hostOps0]
  after_results
  rfl

/-- The scalar zero the selection falls back to. -/
theorem ops0_cst3 : after hostOps0 W (Proc.devRef .tc main_cst_3) = constant Cert.ReferenceIdeal.S_ .f32 0x00000000#32 := by
  dsimp only [hostOps0]
  after_results

/-! The first stretch writes none of the features, weights or biases. -/

theorem ops0_arg0 : after hostOps0 W (Proc.devRef .tc main_arg0) = W (Proc.devRef .tc main_arg0) := by
  dsimp only [hostOps0]
  after_results

theorem ops0_arg3 : after hostOps0 W (Proc.devRef .tc main_arg3) = W (Proc.devRef .tc main_arg3) := by
  dsimp only [hostOps0]
  after_results

theorem ops0_arg4 : after hostOps0 W (Proc.devRef .tc main_arg4) = W (Proc.devRef .tc main_arg4) := by
  dsimp only [hostOps0]
  after_results

theorem ops0_arg5 : after hostOps0 W (Proc.devRef .tc main_arg5) = W (Proc.devRef .tc main_arg5) := by
  dsimp only [hostOps0]
  after_results

theorem ops0_arg6 : after hostOps0 W (Proc.devRef .tc main_arg6) = W (Proc.devRef .tc main_arg6) := by
  dsimp only [hostOps0]
  after_results

/-! ## The selection of the inverse square roots, then the edges' normalisation -/

/-- The normalisation of edge `e`: the selected inverse square root at its source, times its weight, times the
    selected inverse square root at its target; a negative index first moved up by the number of nodes. -/
theorem ops012_v33 : after hostOps0_2 (after hostOps0_1 W) (Proc.devRef .tc main_v33) =
    mulf (mulf (Host.gather Cert.ReferenceIdeal.gather_S100000_S1700000x1_S1700000_n_0_n_n_0_1_1 (select (W (Proc.devRef .tc main_v13)) (W (Proc.devRef .tc main_v16)) (broadcastInDim Cert.ReferenceIdeal.S100000 ![] Cert.ReferenceIdeal.Facts₀.bcast_S_S100000 (id (W (Proc.devRef .tc main_cst_3))))) (Cert.Spec.wrapCol (W (Proc.devRef .tc main_v3)))) (W (Proc.devRef .tc main_v8)))
      (Host.gather Cert.ReferenceIdeal.gather_S100000_S1700000x1_S1700000_n_0_n_n_0_1_1 (select (W (Proc.devRef .tc main_v13)) (W (Proc.devRef .tc main_v16)) (broadcastInDim Cert.ReferenceIdeal.S100000 ![] Cert.ReferenceIdeal.Facts₀.bcast_S_S100000 (id (W (Proc.devRef .tc main_cst_3))))) (Cert.Spec.wrapCol (W (Proc.devRef .tc main_v6)))) := by
  dsimp only [hostOps0_1, hostOps0_2]
  after_results_simp
  rfl

/-! These two stretches write neither the edge lists nor the features, weights or biases. -/

theorem ops012_v3 : after hostOps0_2 (after hostOps0_1 W) (Proc.devRef .tc main_v3) = W (Proc.devRef .tc main_v3) := by
  dsimp only [hostOps0_2, hostOps0_1]
  after_results_simp

theorem ops012_v6 : after hostOps0_2 (after hostOps0_1 W) (Proc.devRef .tc main_v6) = W (Proc.devRef .tc main_v6) := by
  dsimp only [hostOps0_2, hostOps0_1]
  after_results_simp

theorem ops012_arg0 : after hostOps0_2 (after hostOps0_1 W) (Proc.devRef .tc main_arg0) = W (Proc.devRef .tc main_arg0) := by
  dsimp only [hostOps0_2, hostOps0_1]
  after_results_simp

theorem ops012_arg3 : after hostOps0_2 (after hostOps0_1 W) (Proc.devRef .tc main_arg3) = W (Proc.devRef .tc main_arg3) := by
  dsimp only [hostOps0_2, hostOps0_1]
  after_results_simp

theorem ops012_arg4 : after hostOps0_2 (after hostOps0_1 W) (Proc.devRef .tc main_arg4) = W (Proc.devRef .tc main_arg4) := by
  dsimp only [hostOps0_2, hostOps0_1]
  after_results_simp

theorem ops012_arg5 : after hostOps0_2 (after hostOps0_1 W) (Proc.devRef .tc main_arg5) = W (Proc.devRef .tc main_arg5) := by
  dsimp only [hostOps0_2, hostOps0_1]
  after_results_simp

theorem ops012_arg6 : after hostOps0_2 (after hostOps0_1 W) (Proc.devRef .tc main_arg6) = W (Proc.devRef .tc main_arg6) := by
  dsimp only [hostOps0_2, hostOps0_1]
  after_results_simp

/-! ## The message-passing step on 64 columns, and the first bias as a row -/

/-- Gather the rows at the sources, scale row `e` by the edge's normalisation, add the rows up at the targets. -/
theorem ops1_v47 : after hostOps1 W (Proc.devRef .tc main_v47) = Cert.Spec.pass64 (W (Proc.devRef .tc main_v34)) (W (Proc.devRef .tc main_v3)) (W (Proc.devRef .tc main_v6)) (W (Proc.devRef .tc main_v33)) := by
  dsimp only [hostOps1]
  after_results_simp
  rfl

/-- The 64 biases as a 1 × 64 row. -/
theorem ops1_v48 : after hostOps1 W (Proc.devRef .tc main_v48) = shapeCast S1x64 (W (Proc.devRef .tc main_arg4)) shapeCasts_S64_S1x64 := by
  dsimp only [hostOps1]
  after_results_simp
  rfl

/-! This stretch writes neither the edge lists, nor the normalisation, nor the second layer's weight and bias. -/

theorem ops1_v3 : after hostOps1 W (Proc.devRef .tc main_v3) = W (Proc.devRef .tc main_v3) := by
  dsimp only [hostOps1]
  after_results_simp

theorem ops1_v6 : after hostOps1 W (Proc.devRef .tc main_v6) = W (Proc.devRef .tc main_v6) := by
  dsimp only [hostOps1]
  after_results_simp

theorem ops1_v33 : after hostOps1 W (Proc.devRef .tc main_v33) = W (Proc.devRef .tc main_v33) := by
  dsimp only [hostOps1]
  after_results_simp

theorem ops1_arg5 : after hostOps1 W (Proc.devRef .tc main_arg5) = W (Proc.devRef .tc main_arg5) := by
  dsimp only [hostOps1]
  after_results_simp

theorem ops1_arg6 : after hostOps1 W (Proc.devRef .tc main_arg6) = W (Proc.devRef .tc main_arg6) := by
  dsimp only [hostOps1]
  after_results_simp

/-! ## The message-passing step on 40 columns, and the second bias as a row -/

/-- The same step on 40 columns. -/
theorem ops3_v63 : after hostOps3 W (Proc.devRef .tc main_v63) = Cert.Spec.pass40 (W (Proc.devRef .tc main_v50)) (W (Proc.devRef .tc main_v3)) (W (Proc.devRef .tc main_v6)) (W (Proc.devRef .tc main_v33)) := by
  dsimp only [hostOps3]
  after_results_simp
  rfl

/-- The 40 biases as a 1 × 40 row. -/
theorem ops3_v64 : after hostOps3 W (Proc.devRef .tc main_v64) = shapeCast S1x40 (W (Proc.devRef .tc main_arg6)) shapeCasts_S40_S1x40 := by
  dsimp only [hostOps3]
  after_results_simp
  rfl

end Cert.KernelIdeal.KStretch

end
-- ==== Proof.Region0.lean ====
/-
  The first dense product, as ONE function of the arrays its region finds.

  The region walks the 100000 rows in 20 blocks of 5000; at each block the body multiplies the block's
  5000 × 256 rows by the whole 256 × 64 weight into a zero accumulator (the narrowing of both factors to
  bf16 before the product is the identity on extended reals). Row `r` of block `t` is row `5000·t + r` of
  the array, the blocks tile the rows, so the array the region leaves is, index by index,
  `out[i, j] = ∑ k, x[i, k] · w[k, j]`.
-/
import proofs.«107888_j11776800326009_1_alg».proof.Proof.Gen.KernelIdeal.Frame
import Idealize.ShloMosaic.Lib.Pipeline.Value
import Idealize.ShloMosaic.Lib.ValueIdx
import Idealize.ShloMosaic.PureOps.Ideal.Laws

set_option maxRecDepth 16384

noncomputable section

namespace Cert.KernelIdeal.Region0

open Cert.KernelIdeal Cert.KernelIdeal.Gen Idealize.ShloMosaic Idealize.ShloMosaic.TcCoe Idealize.SL.Sem
open Idealize.ShloMosaic.ValueIdx

/-- The product of a 100000 × 256 array with a 256 × 64 array, entry by entry. -/
def prod (a : S100000x256.Idx → EReal) (w : S256x64.Idx → EReal) : S100000x64.Idx → EReal :=
  fun i => ∑ k : Fin 256, a (ix2 (i 0) k) * w (ix2 k (i 1))

theorem prod_apply (a : S100000x256.Idx → EReal) (w : S256x64.Idx → EReal) (r : Fin 100000) (q : Fin 64) :
    prod a w (ix2 r q) = ∑ k : Fin 256, a (ix2 r k) * w (ix2 k q) := rfl

/-! ## One block's product, entry by entry -/

theorem lhs_0 (i : S5000x64.Idx) (q : dot_S5000x256_S256x64_S5000x64_1_0_0_1_n_n.contr.Idx) :
    (dot_S5000x256_S256x64_S5000x64_1_0_0_1_n_n.lhsIdx i q 0).val = (i 0).val := by
  unfold DotDims.lhsIdx
  rw [dif_neg (show ¬(0 : Fin S5000x256.rank) ∈ dot_S5000x256_S256x64_S5000x64_1_0_0_1_n_n.lhsBatch by decide), dif_pos (show (0 : Fin S5000x256.rank) ∈ dot_S5000x256_S256x64_S5000x64_1_0_0_1_n_n.lhsNonContracting by decide)]
  rfl
theorem lhs_1 (i : S5000x64.Idx) (q : dot_S5000x256_S256x64_S5000x64_1_0_0_1_n_n.contr.Idx) :
    (dot_S5000x256_S256x64_S5000x64_1_0_0_1_n_n.lhsIdx i q 1).val = (q ⟨0, by decide⟩).val :=
  dot_S5000x256_S256x64_S5000x64_1_0_0_1_n_n.lhsIdx_val_of_single rfl i q
theorem rhs_0 (i : S5000x64.Idx) (q : dot_S5000x256_S256x64_S5000x64_1_0_0_1_n_n.contr.Idx) :
    (dot_S5000x256_S256x64_S5000x64_1_0_0_1_n_n.rhsIdx i q 0).val = (q ⟨0, by decide⟩).val :=
  dot_S5000x256_S256x64_S5000x64_1_0_0_1_n_n.rhsIdx_val_of_single rfl i q
theorem rhs_1 (i : S5000x64.Idx) (q : dot_S5000x256_S256x64_S5000x64_1_0_0_1_n_n.contr.Idx) :
    (dot_S5000x256_S256x64_S5000x64_1_0_0_1_n_n.rhsIdx i q 1).val = (i 1).val := by
  unfold DotDims.rhsIdx
  rw [dif_neg (show ¬(1 : Fin S256x64.rank) ∈ dot_S5000x256_S256x64_S5000x64_1_0_0_1_n_n.rhsBatch by decide), dif_pos (show (1 : Fin S256x64.rank) ∈ dot_S5000x256_S256x64_S5000x64_1_0_0_1_n_n.rhsNonContracting by decide)]
  rfl

/-- The body's stored value at row `p`, column `q` of the block: the inner product of the block's row `p`
    with the weight's column `q`. -/
theorem block_prod (x0 : Vec Ideal S5000x256 .f32) (x1 : Vec Ideal S256x64 .f32) (p : Fin 5000) (q : Fin 64) :
    k0_pay1 x0 x1 (ix2 p q) = ∑ k : Fin 256, x0 (ix2 p k) * x1 (ix2 k q) := by
  unfold k0_pay1
  refine (Ideal.matmul_constant_zero_apply dot_S5000x256_S256x64_S5000x64_1_0_0_1_n_n none _ _ (ix2 p q)).trans ?_
  rw [← Equiv.sum_comp (ValueIdx.contrEquiv1 dot_S5000x256_S256x64_S5000x64_1_0_0_1_n_n 256 rfl rfl).symm]
  refine Finset.sum_congr rfl fun k _ => ?_
  have hk := ValueIdx.contrEquiv1_symm_val dot_S5000x256_S256x64_S5000x64_1_0_0_1_n_n 256 rfl rfl k
  have el : dot_S5000x256_S256x64_S5000x64_1_0_0_1_n_n.lhsIdx (ix2 p q) ((ValueIdx.contrEquiv1 dot_S5000x256_S256x64_S5000x64_1_0_0_1_n_n 256 rfl rfl).symm k) = ix2 p k := funext fun a => Fin.ext (by
    match a with
    | ⟨0, _⟩ => exact lhs_0 _ _
    | ⟨1, _⟩ => exact (lhs_1 _ _).trans hk)
  have er : dot_S5000x256_S256x64_S5000x64_1_0_0_1_n_n.rhsIdx (ix2 p q) ((ValueIdx.contrEquiv1 dot_S5000x256_S256x64_S5000x64_1_0_0_1_n_n 256 rfl rfl).symm k) = ix2 k q := funext fun a => Fin.ext (by
    match a with
    | ⟨0, _⟩ => exact (rhs_0 _ _).trans hk
    | ⟨1, _⟩ => exact rhs_1 _ _)
  rw [el, er]
  rfl

/-! ## From the blocks to the array -/

variable (V : (c : Dev nD) → (b : Ref sig .tc) → Buf (Elt Ideal) ((c : Thread nD τ).loc b))

theorem zero_offsets : (![0, 0] : Fin 2 → Nat) = fun _ => 0 := funext fun a => by fin_cases a <;> rfl

/-- The block index maps over the 20 points: the rows' block moves with the point, on the input and on the
    output alike; the weight is always its one block. -/
theorem block_indices : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point `t` writes back is block `t` of the product of the arrays the region finds: row `p` of the block is
    row `5000·t + p` of the array, on the left factor and on the result. -/
theorem flushed_eq (c : Dev nD) (t : Fin cfg0.N) :
    (dat0 V c).flushed 2 t = ((cfg0.win 2).blk t).view.read (Elt Ideal) (prod (V c main_arg0) (V c main_arg3)) := by
  show (cfg0.win 2).cut (grid0.coords t) ((dat0 V c).after 2 t) = _
  rw [after0_2]
  unfold out0_2
  rw [View.canon_unit_zero zero_offsets]
  simp only [View.ld_unit_zero (S := S5000x256) zero_offsets, View.ld_unit_zero (S := S256x64) zero_offsets]
  obtain ⟨e0, e1, e2, e3, e4, e5⟩ := block_indices t
  have ht : t.val < 20 := lt_of_lt_of_eq t.isLt N_0
  funext j
  obtain ⟨p, q, rfl⟩ : ∃ (p : Fin 5000) (q : Fin 64), j = ix2 p q := ⟨j 0, j 1, eq_ix2 j⟩
  have hr : t.val * 5000 + p.val < 100000 := by have := p.isLt; omega
  show k0_pay1 (iblk0 V c 0 t) (iblk0 V c 1 t) (ix2 p q) = prod (V c main_arg0) (V c main_arg3) (((cfg0.win 2).blk t).view.emb (ix2 p q))
  have h2 : ((cfg0.win 2).blk t).view.emb (ix2 p q) = ix2 (⟨t.val * 5000 + p.val, hr⟩ : Fin 100000) q := by
    funext a; apply Fin.ext
    match a with
    | ⟨0, _⟩ => show win0_2.index t (0 : Fin 2) * 5000 + 1 * p.val = t.val * 5000 + p.val; omega
    | ⟨1, _⟩ => show win0_2.index t (1 : Fin 2) * 64 + 1 * q.val = q.val; omega
  rw [h2, prod_apply]
  refine (block_prod (iblk0 V c 0 t) (iblk0 V c 1 t) p q).trans ?_
  refine Finset.sum_congr rfl fun k _ => ?_
  have h0 : iblk0 V c 0 t (ix2 p k) = V c main_arg0 (ix2 (⟨t.val * 5000 + p.val, hr⟩ : Fin 100000) k) := by
    show V c main_arg0 (((cfg0.win 0).blk t).view.emb (ix2 p k)) = _
    refine congrArg (V c main_arg0) ?_
    funext a; apply Fin.ext
    match a with
    | ⟨0, _⟩ => show win0_0.index t (0 : Fin 2) * 5000 + 1 * p.val = t.val * 5000 + p.val; omega
    | ⟨1, _⟩ => show win0_0.index t (1 : Fin 2) * 256 + 1 * k.val = k.val; omega
  have h1 : iblk0 V c 1 t (ix2 k q) = V c main_arg3 (ix2 k q) := by
    show V c main_arg3 (((cfg0.win 1).blk t).view.emb (ix2 k q)) = _
    refine congrArg (V c main_arg3) ?_
    funext a; apply Fin.ext
    match a with
    | ⟨0, _⟩ => show win0_1.index t (0 : Fin 2) * 256 + 1 * k.val = k.val; omega
    | ⟨1, _⟩ => show win0_1.index t (1 : Fin 2) * 64 + 1 * q.val = q.val; omega
  rw [h0, h1]

/-- An index of the array lies in point `t`'s block iff each coordinate lies in the block's range on its axis. -/
theorem mem_block (t : Fin cfg0.N) (i : S100000x64.Idx) :
    i ∈ ((cfg0.win 2).blk t).view.set ↔ ∀ a : Fin 2, win0_2.index t a * S5000x64.size a ≤ (i a).val ∧ (i a).val < win0_2.index t a * S5000x64.size a + S5000x64.size a := by
  show i ∈ ((View.whole main_v34).slice (win0_2.rect t)).set ↔ _
  rw [View.set_slice_whole, Rect.mem_set_unit]
  exact Iff.rfl

/-- The 20 blocks of 5000 rows tile the 100000 rows: row `r` lies in block `r / 5000`. -/
theorem covered (i : S100000x64.Idx) :
    ∃ t : Fin cfg0.N, (cfg0.win 2).flush t = true ∧ i ∈ ((cfg0.win 2).blk t).view.set := by
  have hi0 : (i 0).val < 100000 := (i 0).isLt
  have hi1 : (i 1).val < 64 := (i 1).isLt
  have hN : (i 0).val / 5000 < cfg0.N := lt_of_lt_of_eq (by omega) N_0.symm
  refine ⟨⟨(i 0).val / 5000, hN⟩, flush0_2 _, ?_⟩
  rw [mem_block]
  obtain ⟨e0, e1, e2, e3, e4, e5⟩ := block_indices ⟨(i 0).val / 5000, hN⟩
  intro a
  match a with
  | ⟨0, _⟩ => show win0_2.index ⟨(i 0).val / 5000, hN⟩ (0 : Fin 2) * 5000 ≤ (i 0).val ∧ (i 0).val < win0_2.index ⟨(i 0).val / 5000, hN⟩ (0 : Fin 2) * 5000 + 5000; simp only [] at e4; omega
  | ⟨1, _⟩ => show win0_2.index ⟨(i 0).val / 5000, hN⟩ (1 : Fin 2) * 64 ≤ (i 1).val ∧ (i 1).val < win0_2.index ⟨(i 0).val / 5000, hN⟩ (1 : Fin 2) * 64 + 64; omega

/-- The array the region leaves: the product of the two arrays it finds. -/
theorem final0 (c : Dev nD) : (dat0 V c).arrAt 2 cfg0.N = prod (V c main_arg0) (V c main_arg3) :=
  (dat0 V c).arrAt_eq_of_cover 2 (prod (V c main_arg0) (V c main_arg3)) (fun t _ => flushed_eq V c t) covered

end Cert.KernelIdeal.Region0

end
-- ==== Proof.Region1.lean ====
/-
  The bias-and-rectify step, as ONE function of the arrays its region finds.

  The region walks the 100000 rows in 20 blocks of 5000; at each block the body adds the one 64-entry bias
  row to every row of the block (the row is broadcast down the block's 5000 rows) and takes the maximum
  with zero, entry by entry. Row `r` of block `t` is row `5000·t + r` of the array, the bias is always
  its one block, and the blocks tile the rows, so the array the region leaves is, index by index,
  `out[i, j] = max (z[i, j] + b[0, j]) 0`.
-/
import proofs.«107888_j11776800326009_1_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Region1

open Cert.KernelIdeal Cert.KernelIdeal.Gen Idealize.ShloMosaic Idealize.ShloMosaic.TcCoe Idealize.SL.Sem
open Idealize.ShloMosaic.ValueIdx

/-- A 100000 × 64 array plus a 1 × 64 row added to each of its rows, then cut below at zero, entry by entry.
    The zero is kept as the extended real that the all-zero 32-bit word encodes. -/
def biasRelu (z : S100000x64.Idx → EReal) (b : S1x64.Idx → EReal) : S100000x64.Idx → EReal :=
  fun i => max (z i + b (ix2 (0 : Fin 1) (i 1))) (Ideal.ofBits .f32 0x00000000#32)

theorem biasRelu_apply (z : S100000x64.Idx → EReal) (b : S1x64.Idx → EReal) (r : Fin 100000) (q : Fin 64) :
    biasRelu z b (ix2 r q) = max (z (ix2 r q) + b (ix2 (0 : Fin 1) q)) (Ideal.ofBits .f32 0x00000000#32) := rfl

/-! ## One block's value, entry by entry -/

/-- The body's stored value at row `p`, column `q` of the block: the block's entry there plus the bias
    row's entry at column `q`, cut below at zero. The two casts to the same shape are identities; the row
    broadcast reads the row's entry of the same column whatever the row `p`; sum and maximum act entrywise;
    the splat of the zero scalar reads that scalar everywhere. -/
theorem block_biasRelu (x0 : Vec Ideal S5000x64 .f32) (x1 : Vec Ideal S1x64 .f32) (p : Fin 5000) (q : Fin 64) :
    k1_pay1 x0 x1 (ix2 p q) = max (x0 (ix2 p q) + x1 (ix2 (0 : Fin 1) q)) (Ideal.ofBits .f32 0x00000000#32) := by
  unfold k1_pay1
  rw [shapeCast_self, shapeCast_self, shapeCast_self]
  refine (maximumf_apply _ _ (ix2 p q)).trans ?_
  refine congrArg₂ max ?_ rfl
  refine (addf_apply _ _ (ix2 p q)).trans ?_
  refine congrArg₂ (· + ·) rfl ?_
  exact broadcastTo_1b_ab_apply x1 broadcasts_S1x64_S5000x64 p q

/-! ## From the blocks to the array -/

variable (V : (c : Dev nD) → (b : Ref sig .tc) → Buf (Elt Ideal) ((c : Thread nD τ).loc b))

theorem zero_offsets : (![0, 0] : Fin 2 → Nat) = fun _ => 0 := funext fun a => by fin_cases a <;> rfl

/-- The block index maps over the 20 points: the rows' block moves with the point, on the input and on the
    output alike; the bias row is always its one block. -/
theorem block_indices : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- What point `t` writes back is block `t` of the biased, rectified array built from the arrays the region
    finds: row `p` of the block is row `5000·t + p` of the array, on the input and on the result; the bias
    block is the whole row. -/
theorem flushed_eq (c : Dev nD) (t : Fin cfg1.N) :
    (dat1 V c).flushed 2 t = ((cfg1.win 2).blk t).view.read (Elt Ideal) (biasRelu (V c main_v47) (V c main_v48)) := by
  show (cfg1.win 2).cut (grid1.coords t) ((dat1 V c).after 2 t) = _
  rw [after1_2]
  unfold out1_2
  rw [View.canon_unit_zero zero_offsets]
  simp only [View.ld_unit_zero (S := S5000x64) zero_offsets, View.ld_unit_zero (S := S1x64) zero_offsets]
  obtain ⟨e0, e1, e2, e3, e4, e5⟩ := block_indices t
  have ht : t.val < 20 := lt_of_lt_of_eq t.isLt N_1
  funext j
  obtain ⟨p, q, rfl⟩ : ∃ (p : Fin 5000) (q : Fin 64), j = ix2 p q := ⟨j 0, j 1, eq_ix2 j⟩
  have hr : t.val * 5000 + p.val < 100000 := by have := p.isLt; omega
  show k1_pay1 (iblk1 V c 0 t) (iblk1 V c 1 t) (ix2 p q) = biasRelu (V c main_v47) (V c main_v48) (((cfg1.win 2).blk t).view.emb (ix2 p q))
  have h2 : ((cfg1.win 2).blk t).view.emb (ix2 p q) = ix2 (⟨t.val * 5000 + p.val, hr⟩ : Fin 100000) q := by
    funext a; apply Fin.ext
    match a with
    | ⟨0, _⟩ => show win1_2.index t (0 : Fin 2) * 5000 + 1 * p.val = t.val * 5000 + p.val; omega
    | ⟨1, _⟩ => show win1_2.index t (1 : Fin 2) * 64 + 1 * q.val = q.val; omega
  rw [h2, biasRelu_apply]
  refine (block_biasRelu (iblk1 V c 0 t) (iblk1 V c 1 t) p q).trans ?_
  have h0 : iblk1 V c 0 t (ix2 p q) = V c main_v47 (ix2 (⟨t.val * 5000 + p.val, hr⟩ : Fin 100000) q) := by
    show V c main_v47 (((cfg1.win 0).blk t).view.emb (ix2 p q)) = _
    refine congrArg (V c main_v47) ?_
    funext a; apply Fin.ext
    match a with
    | ⟨0, _⟩ => show win1_0.index t (0 : Fin 2) * 5000 + 1 * p.val = t.val * 5000 + p.val; omega
    | ⟨1, _⟩ => show win1_0.index t (1 : Fin 2) * 64 + 1 * q.val = q.val; omega
  have h1 : iblk1 V c 1 t (ix2 (0 : Fin 1) q) = V c main_v48 (ix2 (0 : Fin 1) q) := by
    show V c main_v48 (((cfg1.win 1).blk t).view.emb (ix2 (0 : Fin 1) q)) = _
    refine congrArg (V c main_v48) ?_
    funext a; apply Fin.ext
    match a with
    | ⟨0, _⟩ => show win1_1.index t (0 : Fin 2) * 1 + 1 * (0 : Fin 1).val = (0 : Fin 1).val; omega
    | ⟨1, _⟩ => show win1_1.index t (1 : Fin 2) * 64 + 1 * q.val = q.val; omega
  rw [h0, h1]

/-- An index of the array lies in point `t`'s block iff each coordinate lies in the block's range on its axis. -/
theorem mem_block (t : Fin cfg1.N) (i : S100000x64.Idx) :
    i ∈ ((cfg1.win 2).blk t).view.set ↔ ∀ a : Fin 2, win1_2.index t a * S5000x64.size a ≤ (i a).val ∧ (i a).val < win1_2.index t a * S5000x64.size a + S5000x64.size a := by
  show i ∈ ((View.whole main_v49).slice (win1_2.rect t)).set ↔ _
  rw [View.set_slice_whole, Rect.mem_set_unit]
  exact Iff.rfl

/-- The 20 blocks of 5000 rows tile the 100000 rows: row `r` lies in block `r / 5000`. -/
theorem covered (i : S100000x64.Idx) :
    ∃ t : Fin cfg1.N, (cfg1.win 2).flush t = true ∧ i ∈ ((cfg1.win 2).blk t).view.set := by
  have hi0 : (i 0).val < 100000 := (i 0).isLt
  have hi1 : (i 1).val < 64 := (i 1).isLt
  have hN : (i 0).val / 5000 < cfg1.N := lt_of_lt_of_eq (by omega) N_1.symm
  refine ⟨⟨(i 0).val / 5000, hN⟩, flush1_2 _, ?_⟩
  rw [mem_block]
  obtain ⟨e0, e1, e2, e3, e4, e5⟩ := block_indices ⟨(i 0).val / 5000, hN⟩
  intro a
  match a with
  | ⟨0, _⟩ => show win1_2.index ⟨(i 0).val / 5000, hN⟩ (0 : Fin 2) * 5000 ≤ (i 0).val ∧ (i 0).val < win1_2.index ⟨(i 0).val / 5000, hN⟩ (0 : Fin 2) * 5000 + 5000; simp only [] at e4; omega
  | ⟨1, _⟩ => show win1_2.index ⟨(i 0).val / 5000, hN⟩ (1 : Fin 2) * 64 ≤ (i 1).val ∧ (i 1).val < win1_2.index ⟨(i 0).val / 5000, hN⟩ (1 : Fin 2) * 64 + 64; omega

/-- The array the region leaves: the input array with the bias row added to each row, cut below at zero. -/
theorem final1 (c : Dev nD) : (dat1 V c).arrAt 2 cfg1.N = biasRelu (V c main_v47) (V c main_v48) :=
  (dat1 V c).arrAt_eq_of_cover 2 (biasRelu (V c main_v47) (V c main_v48)) (fun t _ => flushed_eq V c t) covered

end Cert.KernelIdeal.Region1

end
-- ==== Proof.Region2.lean ====
/-
  The second dense product, as ONE function of the arrays its region finds.

  The region walks the 100000 rows of its left factor in 20 blocks of 5000. At each block the body takes the
  block's 5000 × 64 rows (first through a cast to their own shape, which changes nothing, then narrowed to bf16,
  which on extended reals is the identity), the whole 64 × 40 weight (narrowed likewise), and multiplies them into
  a zero accumulator. Row `p` of block `t` is row `5000·t + p` of the array, and the 20 blocks tile the
  100000 rows, so the array the region leaves is, index by index,
  `out[i, j] = ∑ k, a[i, k] · w[k, j]` with `k` over the 64 contracted positions.
-/
import proofs.«107888_j11776800326009_1_alg».proof.Proof.Gen.KernelIdeal.Frame
import Idealize.ShloMosaic.Lib.Pipeline.Value
import Idealize.ShloMosaic.Lib.ValueIdx
import Idealize.ShloMosaic.PureOps.Ideal.Laws

set_option maxRecDepth 16384

noncomputable section

namespace Cert.KernelIdeal.Region2

open Cert.KernelIdeal Cert.KernelIdeal.Gen Idealize.ShloMosaic Idealize.ShloMosaic.TcCoe Idealize.SL.Sem
open Idealize.ShloMosaic.ValueIdx

/-- The product of a 100000 × 64 array with a 64 × 40 array, entry by entry. -/
def prod (a : S100000x64.Idx → EReal) (w : S64x40.Idx → EReal) : S100000x40.Idx → EReal :=
  fun i => ∑ k : Fin 64, a (ix2 (i 0) k) * w (ix2 k (i 1))

theorem prod_apply (a : S100000x64.Idx → EReal) (w : S64x40.Idx → EReal) (r : Fin 100000) (q : Fin 40) :
    prod a w (ix2 r q) = ∑ k : Fin 64, a (ix2 r k) * w (ix2 k q) := rfl

/-! ## Where the contraction reads its two factors

  The contraction pairs axis 1 of the left factor with axis 0 of the right one; the result's axis 0 is the left
  factor's free axis 0 and its axis 1 the right factor's free axis 1. So at result index `i` and contracted
  position `s` the left factor is read at `(i 0, s)` and the right factor at `(s, i 1)`. -/

/-- Left factor, row coordinate: the result's row. -/
theorem left_row (i : S5000x40.Idx) (s : dot_S5000x64_S64x40_S5000x40_1_0_0_1_n_n.contr.Idx) :
    (dot_S5000x64_S64x40_S5000x40_1_0_0_1_n_n.lhsIdx i s 0).val = (i 0).val := by
  unfold DotDims.lhsIdx
  rw [dif_neg (show ¬(0 : Fin S5000x64.rank) ∈ dot_S5000x64_S64x40_S5000x40_1_0_0_1_n_n.lhsBatch by decide), dif_pos (show (0 : Fin S5000x64.rank) ∈ dot_S5000x64_S64x40_S5000x40_1_0_0_1_n_n.lhsNonContracting by decide)]
  rfl
/-- Left factor, column coordinate: the contracted position. -/
theorem left_col (i : S5000x40.Idx) (s : dot_S5000x64_S64x40_S5000x40_1_0_0_1_n_n.contr.Idx) :
    (dot_S5000x64_S64x40_S5000x40_1_0_0_1_n_n.lhsIdx i s 1).val = (s ⟨0, by decide⟩).val :=
  dot_S5000x64_S64x40_S5000x40_1_0_0_1_n_n.lhsIdx_val_of_single rfl i s
/-- Right factor, row coordinate: the contracted position. -/
theorem right_row (i : S5000x40.Idx) (s : dot_S5000x64_S64x40_S5000x40_1_0_0_1_n_n.contr.Idx) :
    (dot_S5000x64_S64x40_S5000x40_1_0_0_1_n_n.rhsIdx i s 0).val = (s ⟨0, by decide⟩).val :=
  dot_S5000x64_S64x40_S5000x40_1_0_0_1_n_n.rhsIdx_val_of_single rfl i s
/-- Right factor, column coordinate: the result's column. -/
theorem right_col (i : S5000x40.Idx) (s : dot_S5000x64_S64x40_S5000x40_1_0_0_1_n_n.contr.Idx) :
    (dot_S5000x64_S64x40_S5000x40_1_0_0_1_n_n.rhsIdx i s 1).val = (i 1).val := by
  unfold DotDims.rhsIdx
  rw [dif_neg (show ¬(1 : Fin S64x40.rank) ∈ dot_S5000x64_S64x40_S5000x40_1_0_0_1_n_n.rhsBatch by decide), dif_pos (show (1 : Fin S64x40.rank) ∈ dot_S5000x64_S64x40_S5000x40_1_0_0_1_n_n.rhsNonContracting by decide)]
  rfl

/-! ## One block's product, entry by entry -/

/-- The cast of a 5000 × 64 block to its own shape reads every entry where it was. -/
theorem same_shape_cast (x : Vec Ideal S5000x64 .f32) (j : S5000x64.Idx) :
    shapeCast S5000x64 x shapeCasts_S5000x64_S5000x64 j = x j :=
  congrFun (shapeCast_self x shapeCasts_S5000x64_S5000x64) j

/-- The body's stored value at row `p`, column `q` of the block: the inner product, over the 64 contracted
    positions, of the block's row `p` with the weight's column `q`. The accumulator is zero; the same-shape cast
    and the two narrowings leave each factor's entries as they are. -/
theorem block_prod (x0 : Vec Ideal S5000x64 .f32) (x1 : Vec Ideal S64x40 .f32) (p : Fin 5000) (q : Fin 40) :
    k2_pay1 x0 x1 (ix2 p q) = ∑ k : Fin 64, x0 (ix2 p k) * x1 (ix2 k q) := by
  unfold k2_pay1
  refine (Ideal.matmul_constant_zero_apply dot_S5000x64_S64x40_S5000x40_1_0_0_1_n_n none _ _ (ix2 p q)).trans ?_
  rw [← Equiv.sum_comp (ValueIdx.contrEquiv1 dot_S5000x64_S64x40_S5000x40_1_0_0_1_n_n 64 rfl rfl).symm]
  refine Finset.sum_congr rfl fun k _ => ?_
  have hk := ValueIdx.contrEquiv1_symm_val dot_S5000x64_S64x40_S5000x40_1_0_0_1_n_n 64 rfl rfl k
  have eleft : dot_S5000x64_S64x40_S5000x40_1_0_0_1_n_n.lhsIdx (ix2 p q) ((ValueIdx.contrEquiv1 dot_S5000x64_S64x40_S5000x40_1_0_0_1_n_n 64 rfl rfl).symm k) = ix2 p k := funext fun a => Fin.ext (by
    match a with
    | ⟨0, _⟩ => exact left_row _ _
    | ⟨1, _⟩ => exact (left_col _ _).trans hk)
  have eright : dot_S5000x64_S64x40_S5000x40_1_0_0_1_n_n.rhsIdx (ix2 p q) ((ValueIdx.contrEquiv1 dot_S5000x64_S64x40_S5000x40_1_0_0_1_n_n 64 rfl rfl).symm k) = ix2 k q := funext fun a => Fin.ext (by
    match a with
    | ⟨0, _⟩ => exact (right_row _ _).trans hk
    | ⟨1, _⟩ => exact right_col _ _)
  rw [eleft, eright]
  exact congrArg (fun z : EReal => z * x1 (ix2 k q)) (same_shape_cast x0 (ix2 p k))

/-! ## From the blocks to the array -/

variable (V : (c : Dev nD) → (b : Ref sig .tc) → Buf (Elt Ideal) ((c : Thread nD τ).loc b))

/-- The body reads and writes each staging buffer from its corner. -/
theorem corner_offsets : (![0, 0] : Fin 2 → Nat) = fun _ => 0 := funext fun a => by fin_cases a <;> rfl

/-- The block index maps over the 20 points: the row block moves with the point, on the left factor and on the
    result alike, and stays at column block 0; the weight is always its one block. -/
theorem block_indices : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- What point `t` writes back is block `t` of the product of the two arrays the region finds: row `p` of the
    block is row `5000·t + p` of the array, on the left factor and on the result; the weight is read whole. -/
theorem flushed_eq (c : Dev nD) (t : Fin cfg2.N) :
    (dat2 V c).flushed 2 t = ((cfg2.win 2).blk t).view.read (Elt Ideal) (prod (V c main_v49) (V c main_arg5)) := by
  show (cfg2.win 2).cut (grid2.coords t) ((dat2 V c).after 2 t) = _
  rw [after2_2]
  unfold out2_2
  rw [View.canon_unit_zero corner_offsets]
  simp only [View.ld_unit_zero (S := S5000x64) corner_offsets, View.ld_unit_zero (S := S64x40) corner_offsets]
  obtain ⟨e0, e1, e2, e3, e4, e5⟩ := block_indices t
  have ht : t.val < 20 := lt_of_lt_of_eq t.isLt N_2
  funext j
  obtain ⟨p, q, rfl⟩ : ∃ (p : Fin 5000) (q : Fin 40), j = ix2 p q := ⟨j 0, j 1, eq_ix2 j⟩
  have hr : t.val * 5000 + p.val < 100000 := by have := p.isLt; omega
  show k2_pay1 (iblk2 V c 0 t) (iblk2 V c 1 t) (ix2 p q) = prod (V c main_v49) (V c main_arg5) (((cfg2.win 2).blk t).view.emb (ix2 p q))
  have hout : ((cfg2.win 2).blk t).view.emb (ix2 p q) = ix2 (⟨t.val * 5000 + p.val, hr⟩ : Fin 100000) q := by
    funext a; apply Fin.ext
    match a with
    | ⟨0, _⟩ => show win2_2.index t (0 : Fin 2) * 5000 + 1 * p.val = t.val * 5000 + p.val; omega
    | ⟨1, _⟩ => show win2_2.index t (1 : Fin 2) * 40 + 1 * q.val = q.val; omega
  rw [hout, prod_apply]
  refine (block_prod (iblk2 V c 0 t) (iblk2 V c 1 t) p q).trans ?_
  refine Finset.sum_congr rfl fun k _ => ?_
  have hleft : iblk2 V c 0 t (ix2 p k) = V c main_v49 (ix2 (⟨t.val * 5000 + p.val, hr⟩ : Fin 100000) k) := by
    show V c main_v49 (((cfg2.win 0).blk t).view.emb (ix2 p k)) = _
    refine congrArg (V c main_v49) ?_
    funext a; apply Fin.ext
    match a with
    | ⟨0, _⟩ => show win2_0.index t (0 : Fin 2) * 5000 + 1 * p.val = t.val * 5000 + p.val; omega
    | ⟨1, _⟩ => show win2_0.index t (1 : Fin 2) * 64 + 1 * k.val = k.val; omega
  have hweight : iblk2 V c 1 t (ix2 k q) = V c main_arg5 (ix2 k q) := by
    show V c main_arg5 (((cfg2.win 1).blk t).view.emb (ix2 k q)) = _
    refine congrArg (V c main_arg5) ?_
    funext a; apply Fin.ext
    match a with
    | ⟨0, _⟩ => show win2_1.index t (0 : Fin 2) * 64 + 1 * k.val = k.val; omega
    | ⟨1, _⟩ => show win2_1.index t (1 : Fin 2) * 40 + 1 * q.val = q.val; omega
  rw [hleft, hweight]

/-- An index of the result array lies in point `t`'s block iff each coordinate lies in the block's range on its axis. -/
theorem mem_block (t : Fin cfg2.N) (i : S100000x40.Idx) :
    i ∈ ((cfg2.win 2).blk t).view.set ↔ ∀ a : Fin 2, win2_2.index t a * S5000x40.size a ≤ (i a).val ∧ (i a).val < win2_2.index t a * S5000x40.size a + S5000x40.size a := by
  show i ∈ ((View.whole main_v50).slice (win2_2.rect t)).set ↔ _
  rw [View.set_slice_whole, Rect.mem_set_unit]
  exact Iff.rfl

/-- The 20 blocks of 5000 rows tile the 100000 rows: row `r` lies in block `r / 5000`, and every block spans all
    40 columns. -/
theorem covered (i : S100000x40.Idx) :
    ∃ t : Fin cfg2.N, (cfg2.win 2).flush t = true ∧ i ∈ ((cfg2.win 2).blk t).view.set := by
  have hrow : (i 0).val < 100000 := (i 0).isLt
  have hcol : (i 1).val < 40 := (i 1).isLt
  have hN : (i 0).val / 5000 < cfg2.N := lt_of_lt_of_eq (by omega) N_2.symm
  refine ⟨⟨(i 0).val / 5000, hN⟩, flush2_2 _, ?_⟩
  rw [mem_block]
  obtain ⟨e0, e1, e2, e3, e4, e5⟩ := block_indices ⟨(i 0).val / 5000, hN⟩
  intro a
  match a with
  | ⟨0, _⟩ => show win2_2.index ⟨(i 0).val / 5000, hN⟩ (0 : Fin 2) * 5000 ≤ (i 0).val ∧ (i 0).val < win2_2.index ⟨(i 0).val / 5000, hN⟩ (0 : Fin 2) * 5000 + 5000; simp only [] at e4; omega
  | ⟨1, _⟩ => show win2_2.index ⟨(i 0).val / 5000, hN⟩ (1 : Fin 2) * 40 ≤ (i 1).val ∧ (i 1).val < win2_2.index ⟨(i 0).val / 5000, hN⟩ (1 : Fin 2) * 40 + 40; omega

/-- The array the region leaves: the product of the two arrays it finds. -/
theorem final2 (c : Dev nD) : (dat2 V c).arrAt 2 cfg2.N = prod (V c main_v49) (V c main_arg5) :=
  (dat2 V c).arrAt_eq_of_cover 2 (prod (V c main_v49) (V c main_arg5)) (fun t _ => flushed_eq V c t) covered

end Cert.KernelIdeal.Region2

end
-- ==== Proof.LibColumn.lean ====
/-
  Column forms of the keep-dimension layout operations, read at an index: a vector of `a` entries reshaped to
  an `[a, 1]` column holds, in row `i`, entry `i`; and an `[a, 1]` column broadcast along the second axis to
  `[a, b]` holds, at `(p, c)`, the column's entry of row `p`, whatever `c`. (The row forms `[a] → [1, a]` and
  `[1, b] → [a, b]` are the library's `shapeCast_a_1a_apply` and `broadcastTo_1b_ab_apply`.) Stated for every
  extent and every element type.
-/
import Idealize.ShloMosaic.Lib.Pipeline.Value
import Idealize.ShloMosaic.Lib.ValueIdx
import Idealize.ShloMosaic.Lib.ValueLayout

namespace Cert.LibColumn

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibColumn
-- ==== Proof.Region3.lean ====
/-
  The log-softmax of the biased rows, as ONE function of the arrays its region finds.

  The region walks the 100000 rows of `x` in 20 blocks of 5000; the bias `b` is one row of 40 entries, the same
  block at every point. At each block the body adds the bias row to every row, `z[i, j] = x[i, j] + b[0, j]`, takes
  each row's maximum `M[i]` over its 40 columns folded from the literal −∞, subtracts it, sums the exponentials
  along the row, and stores `z[i, j] − (M[i] + log (∑ k, exp (z[i, k] − M[i])))`. Every entry of row `p` of block
  `t` depends on row `5000·t + p` of `x` in all of its 40 columns and on the whole bias row; the blocks tile the
  rows, so the array the region leaves is, index by index, that log-softmax of the biased rows.
-/
import proofs.«107888_j11776800326009_1_alg».proof.Proof.Gen.KernelIdeal.Frame
import proofs.«107888_j11776800326009_1_alg».proof.Proof.LibColumn
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Region3

open Cert.KernelIdeal Cert.KernelIdeal.Gen Idealize.ShloMosaic Idealize.ShloMosaic.TcCoe Idealize.SL.Sem
open Idealize.ShloMosaic.ValueIdx

/-- Row `r`'s biased entries. -/
def zrow (x : S100000x40.Idx → EReal) (b : S1x40.Idx → EReal) (r : Fin 100000) (j : Fin 40) : EReal :=
  x (ix2 r j) + b (ix2 (0 : Fin 1) j)

/-- Row `r`'s maximum, folded from the literal −∞. -/
def rowMax (x : S100000x40.Idx → EReal) (b : S1x40.Idx → EReal) (r : Fin 100000) : EReal :=
  (Finset.univ : Finset (Fin 40)).fold max (Ideal.ofBits .f32 0xFF800000#32) (fun j => zrow x b r j)

/-- The log-softmax of every biased row: each entry less the row's maximum and the logarithm of the row's sum of
    exponentials taken after the maximum is subtracted. -/
def lsm (x : S100000x40.Idx → EReal) (b : S1x40.Idx → EReal) : S100000x40.Idx → EReal :=
  fun i => zrow x b (i 0) (i 1) - (rowMax x b (i 0) + Ideal.log (∑ k : Fin 40, Ideal.exp (zrow x b (i 0) k - rowMax x b (i 0))))

theorem lsm_apply (x : S100000x40.Idx → EReal) (b : S1x40.Idx → EReal) (r : Fin 100000) (q : Fin 40) :
    lsm x b (ix2 r q) = zrow x b r q - (rowMax x b r + Ideal.log (∑ k : Fin 40, Ideal.exp (zrow x b r k - rowMax x b r))) := rfl

/-! ## One row of 40 entries -/

/-- The maximum of a row of 40 entries, folded from the literal −∞. -/
def top (z : Fin 40 → EReal) : EReal := (Finset.univ : Finset (Fin 40)).fold max (Ideal.ofBits .f32 0xFF800000#32) z

/-- The log-softmax of a row of 40 entries at column `q`. -/
def rowLsm (z : Fin 40 → EReal) (q : Fin 40) : EReal :=
  z q - (top z + Ideal.log (∑ k : Fin 40, Ideal.exp (z k - top z)))

/-- The array's log-softmax at `(r, q)` is the row form on row `r`'s biased entries. -/
theorem lsm_row (x : S100000x40.Idx → EReal) (b : S1x40.Idx → EReal) (r : Fin 100000) (q : Fin 40) :
    lsm x b (ix2 r q) = rowLsm (zrow x b r) q := rfl

/-! ## One block, stage by stage -/

/-- The source index over row `p` with column `k` put back on the reduced axis is `(p, k)`. -/
theorem lift_row (p : Fin 5000) (k : Fin 40) : reduces_S5000x40_S5000.lift (ix1 p) k = ix2 p k := by
  funext a; apply Fin.ext
  match a with
  | ⟨0, _⟩ => rfl
  | ⟨1, _⟩ => rfl

/-- The block with the bias row added to each of its rows. -/
def biased (x0 : Vec Ideal S5000x40 .f32) (x1 : Vec Ideal S1x40 .f32) : FVec Ideal S5000x40 .f32 :=
  addf (shapeCast S5000x40 x0 shapeCasts_S5000x40_S5000x40)
    (broadcastTo S5000x40 (shapeCast S1x40 (shapeCast S1x40 x1 shapeCasts_S1x40_S1x40) shapeCasts_S1x40_S1x40) broadcasts_S1x40_S5000x40)

/-- Row `p` of the biased block, as a row of 40 entries. -/
def brow (x0 : Vec Ideal S5000x40 .f32) (x1 : Vec Ideal S1x40 .f32) (p : Fin 5000) : Fin 40 → EReal :=
  fun k => x0 (ix2 p k) + x1 (ix2 (0 : Fin 1) k)

theorem biased_apply (x0 : Vec Ideal S5000x40 .f32) (x1 : Vec Ideal S1x40 .f32) (p : Fin 5000) (k : Fin 40) :
    biased x0 x1 (ix2 p k) = brow x0 x1 p k := by
  unfold biased
  rw [shapeCast_self, shapeCast_self, shapeCast_self]
  refine (addf_apply _ _ _).trans ?_
  rw [broadcastTo_1b_ab_apply]
  rfl

/-- The maximum of each row of the biased block, as a vector of 5000 entries. -/
def maxVec (x0 : Vec Ideal S5000x40 .f32) (x1 : Vec Ideal S1x40 .f32) : FVec Ideal S5000 .f32 :=
  multiReduction .maximumf [1] S5000 (biased x0 x1) 0xFF800000#32 reduces_S5000x40_S5000 (.inl rfl) rfl

theorem maxVec_apply (x0 : Vec Ideal S5000x40 .f32) (x1 : Vec Ideal S1x40 .f32) (p : Fin 5000) :
    maxVec x0 x1 (ix1 p) = top (brow x0 x1 p) := by
  unfold maxVec
  refine (Ideal.multiReduction_maximumf_single (biased x0 x1) 0xFF800000#32 reduces_S5000x40_S5000 (.inl rfl) rfl (ix1 p)).trans ?_
  show (Finset.univ : Finset (Fin 40)).fold max (Ideal.ofBits .f32 0xFF800000#32) (biased x0 x1 ∘ reduces_S5000x40_S5000.lift (ix1 p)) = top (brow x0 x1 p)
  have rows : biased x0 x1 ∘ reduces_S5000x40_S5000.lift (ix1 p) = brow x0 x1 p :=
    funext fun (k : Fin 40) => (congrArg (biased x0 x1) (lift_row p k)).trans (biased_apply x0 x1 p k)
  rw [rows]
  rfl

/-- The row maxima as a column of 5000 rows. -/
def maxCol (x0 : Vec Ideal S5000x40 .f32) (x1 : Vec Ideal S1x40 .f32) : FVec Ideal S5000x1 .f32 :=
  shapeCast S5000x1 (maxVec x0 x1) shapeCasts_S5000_S5000x1

theorem maxCol_apply (x0 : Vec Ideal S5000x40 .f32) (x1 : Vec Ideal S1x40 .f32) (p : Fin 5000) (u : Fin 1) :
    maxCol x0 x1 (ix2 p u) = top (brow x0 x1 p) := by
  unfold maxCol
  refine (Cert.LibColumn.shapeCast_a_a1_apply (maxVec x0 x1) shapeCasts_S5000_S5000x1 p u).trans ?_
  exact maxVec_apply x0 x1 p

/-- Each entry of the biased block less its row's maximum. -/
def shifted (x0 : Vec Ideal S5000x40 .f32) (x1 : Vec Ideal S1x40 .f32) : FVec Ideal S5000x40 .f32 :=
  subf (biased x0 x1) (broadcastTo S5000x40 (maxCol x0 x1) broadcasts_S5000x1_S5000x40)

theorem shifted_apply (x0 : Vec Ideal S5000x40 .f32) (x1 : Vec Ideal S1x40 .f32) (p : Fin 5000) (k : Fin 40) :
    shifted x0 x1 (ix2 p k) = brow x0 x1 p k - top (brow x0 x1 p) := by
  unfold shifted
  refine (subf_apply _ _ _).trans ?_
  rw [biased_apply]
  refine congrArg (fun m => brow x0 x1 p k - m) ?_
  refine (Cert.LibColumn.broadcastTo_a1_ab_apply (maxCol x0 x1) broadcasts_S5000x1_S5000x40 p k).trans ?_
  exact maxCol_apply x0 x1 p 0

/-- Each row's sum of the exponentials of its shifted entries, as a vector of 5000 entries. -/
def sumVec (x0 : Vec Ideal S5000x40 .f32) (x1 : Vec Ideal S1x40 .f32) : FVec Ideal S5000 .f32 :=
  multiReduction .add [1] S5000 (exp (shifted x0 x1)) 0x00000000#32 reduces_S5000x40_S5000 (.inl rfl) rfl

theorem sumVec_apply (x0 : Vec Ideal S5000x40 .f32) (x1 : Vec Ideal S1x40 .f32) (p : Fin 5000) :
    sumVec x0 x1 (ix1 p) = ∑ k : Fin 40, Ideal.exp (brow x0 x1 p k - top (brow x0 x1 p)) := by
  unfold sumVec
  refine (Ideal.multiReduction_add_single (exp (shifted x0 x1)) 0x00000000#32 reduces_S5000x40_S5000 (.inl rfl) rfl (ix1 p)).trans ?_
  show ∑ k : Fin 40, exp (shifted x0 x1) (reduces_S5000x40_S5000.lift (ix1 p) k) = _
  refine Finset.sum_congr rfl fun k _ => ?_
  rw [lift_row]
  show Ideal.exp (shifted x0 x1 (ix2 p k)) = _
  rw [shifted_apply]

/-- The logarithm of each row's sum of exponentials, as a column. -/
def logCol (x0 : Vec Ideal S5000x40 .f32) (x1 : Vec Ideal S1x40 .f32) : FVec Ideal S5000x1 .f32 :=
  log (shapeCast S5000x1 (sumVec x0 x1) shapeCasts_S5000_S5000x1)

theorem logCol_apply (x0 : Vec Ideal S5000x40 .f32) (x1 : Vec Ideal S1x40 .f32) (p : Fin 5000) (u : Fin 1) :
    logCol x0 x1 (ix2 p u) = Ideal.log (∑ k : Fin 40, Ideal.exp (brow x0 x1 p k - top (brow x0 x1 p))) := by
  unfold logCol
  show Ideal.log (shapeCast S5000x1 (sumVec x0 x1) shapeCasts_S5000_S5000x1 (ix2 p u)) = _
  refine congrArg Ideal.log ?_
  refine (Cert.LibColumn.shapeCast_a_a1_apply (sumVec x0 x1) shapeCasts_S5000_S5000x1 p u).trans ?_
  exact sumVec_apply x0 x1 p

/-- What is taken off each row: its maximum plus the logarithm of its sum of exponentials, as a column. -/
def normCol (x0 : Vec Ideal S5000x40 .f32) (x1 : Vec Ideal S1x40 .f32) : FVec Ideal S5000x1 .f32 :=
  addf (maxCol x0 x1) (logCol x0 x1)

theorem normCol_apply (x0 : Vec Ideal S5000x40 .f32) (x1 : Vec Ideal S1x40 .f32) (p : Fin 5000) (u : Fin 1) :
    normCol x0 x1 (ix2 p u)
      = top (brow x0 x1 p) + Ideal.log (∑ k : Fin 40, Ideal.exp (brow x0 x1 p k - top (brow x0 x1 p))) := by
  unfold normCol
  refine (addf_apply _ _ _).trans ?_
  rw [maxCol_apply, logCol_apply]

/-- The body's stored value is the biased block less that column, spread over the 40 columns. -/
theorem payload_stages (x0 : Vec Ideal S5000x40 .f32) (x1 : Vec Ideal S1x40 .f32) :
    k3_pay1 x0 x1 = subf (biased x0 x1) (broadcastTo S5000x40 (normCol x0 x1) broadcasts_S5000x1_S5000x40) := rfl

/-- The body's stored value at row `p`, column `q` of the block: the log-softmax of the block's biased row `p`. -/
theorem block_lsm (x0 : Vec Ideal S5000x40 .f32) (x1 : Vec Ideal S1x40 .f32) (p : Fin 5000) (q : Fin 40) :
    k3_pay1 x0 x1 (ix2 p q) = rowLsm (brow x0 x1 p) q := by
  rw [payload_stages]
  refine (subf_apply _ _ _).trans ?_
  rw [biased_apply]
  unfold rowLsm
  refine congrArg (fun m => brow x0 x1 p q - m) ?_
  refine (Cert.LibColumn.broadcastTo_a1_ab_apply (normCol x0 x1) broadcasts_S5000x1_S5000x40 p q).trans ?_
  exact normCol_apply x0 x1 p 0

/-! ## From the blocks to the array -/

variable (V : (c : Dev nD) → (b : Ref sig .tc) → Buf (Elt Ideal) ((c : Thread nD τ).loc b))

theorem zero_offsets : (![0, 0] : Fin 2 → Nat) = fun _ => 0 := funext fun a => by fin_cases a <;> rfl

/-- The block index maps over the 20 points: the rows' block moves with the point, on the input and on the
    result alike; the bias row is always its one block. -/
theorem block_indices : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- What point `t` writes back is block `t` of the log-softmax of the arrays the region finds: row `p` of the block is
    row `5000·t + p` of the array, in all of its 40 columns, and the bias row is the same at every point. -/
theorem flushed_eq (c : Dev nD) (t : Fin cfg3.N) :
    (dat3 V c).flushed 2 t = ((cfg3.win 2).blk t).view.read (Elt Ideal) (lsm (V c main_v63) (V c main_v64)) := by
  show (cfg3.win 2).cut (grid3.coords t) ((dat3 V c).after 2 t) = _
  rw [after3_2]
  unfold out3_2
  rw [View.canon_unit_zero zero_offsets]
  simp only [View.ld_unit_zero (S := S5000x40) zero_offsets, View.ld_unit_zero (S := S1x40) zero_offsets]
  obtain ⟨e0, e1, e2, e3, e4, e5⟩ := block_indices t
  have ht : t.val < 20 := lt_of_lt_of_eq t.isLt N_3
  funext j
  obtain ⟨p, q, rfl⟩ : ∃ (p : Fin 5000) (q : Fin 40), j = ix2 p q := ⟨j 0, j 1, eq_ix2 j⟩
  have hr : t.val * 5000 + p.val < 100000 := by have := p.isLt; omega
  show k3_pay1 (iblk3 V c 0 t) (iblk3 V c 1 t) (ix2 p q) = lsm (V c main_v63) (V c main_v64) (((cfg3.win 2).blk t).view.emb (ix2 p q))
  have h2 : ((cfg3.win 2).blk t).view.emb (ix2 p q) = ix2 (⟨t.val * 5000 + p.val, hr⟩ : Fin 100000) q := by
    funext a; apply Fin.ext
    match a with
    | ⟨0, _⟩ => show win3_2.index t (0 : Fin 2) * 5000 + 1 * p.val = t.val * 5000 + p.val; omega
    | ⟨1, _⟩ => show win3_2.index t (1 : Fin 2) * 40 + 1 * q.val = q.val; omega
  rw [h2, lsm_row]
  refine (block_lsm (iblk3 V c 0 t) (iblk3 V c 1 t) p q).trans ?_
  refine congrArg (fun z => rowLsm z q) (funext fun k => ?_)
  have h0 : iblk3 V c 0 t (ix2 p k) = V c main_v63 (ix2 (⟨t.val * 5000 + p.val, hr⟩ : Fin 100000) k) := by
    show V c main_v63 (((cfg3.win 0).blk t).view.emb (ix2 p k)) = _
    refine congrArg (V c main_v63) ?_
    funext a; apply Fin.ext
    match a with
    | ⟨0, _⟩ => show win3_0.index t (0 : Fin 2) * 5000 + 1 * p.val = t.val * 5000 + p.val; omega
    | ⟨1, _⟩ => show win3_0.index t (1 : Fin 2) * 40 + 1 * k.val = k.val; omega
  have h1 : iblk3 V c 1 t (ix2 (0 : Fin 1) k) = V c main_v64 (ix2 (0 : Fin 1) k) := by
    show V c main_v64 (((cfg3.win 1).blk t).view.emb (ix2 (0 : Fin 1) k)) = _
    refine congrArg (V c main_v64) ?_
    funext a; apply Fin.ext
    match a with
    | ⟨0, _⟩ => show win3_1.index t (0 : Fin 2) * 1 + 1 * 0 = 0; omega
    | ⟨1, _⟩ => show win3_1.index t (1 : Fin 2) * 40 + 1 * k.val = k.val; omega
  show brow (iblk3 V c 0 t) (iblk3 V c 1 t) p k = zrow (V c main_v63) (V c main_v64) (⟨t.val * 5000 + p.val, hr⟩ : Fin 100000) k
  unfold brow zrow
  rw [h0, h1]

/-- An index of the array lies in point `t`'s block iff each coordinate lies in the block's range on its axis. -/
theorem mem_block (t : Fin cfg3.N) (i : S100000x40.Idx) :
    i ∈ ((cfg3.win 2).blk t).view.set ↔ ∀ a : Fin 2, win3_2.index t a * S5000x40.size a ≤ (i a).val ∧ (i a).val < win3_2.index t a * S5000x40.size a + S5000x40.size a := by
  show i ∈ ((View.whole main_v65).slice (win3_2.rect t)).set ↔ _
  rw [View.set_slice_whole, Rect.mem_set_unit]
  exact Iff.rfl

/-- The 20 blocks of 5000 rows tile the 100000 rows: row `r` lies in block `r / 5000`. -/
theorem covered (i : S100000x40.Idx) :
    ∃ t : Fin cfg3.N, (cfg3.win 2).flush t = true ∧ i ∈ ((cfg3.win 2).blk t).view.set := by
  have hi0 : (i 0).val < 100000 := (i 0).isLt
  have hi1 : (i 1).val < 40 := (i 1).isLt
  have hN : (i 0).val / 5000 < cfg3.N := lt_of_lt_of_eq (by omega) N_3.symm
  refine ⟨⟨(i 0).val / 5000, hN⟩, flush3_2 _, ?_⟩
  rw [mem_block]
  obtain ⟨e0, e1, e2, e3, e4, e5⟩ := block_indices ⟨(i 0).val / 5000, hN⟩
  intro a
  match a with
  | ⟨0, _⟩ => show win3_2.index ⟨(i 0).val / 5000, hN⟩ (0 : Fin 2) * 5000 ≤ (i 0).val ∧ (i 0).val < win3_2.index ⟨(i 0).val / 5000, hN⟩ (0 : Fin 2) * 5000 + 5000; simp only [] at e4; omega
  | ⟨1, _⟩ => show win3_2.index ⟨(i 0).val / 5000, hN⟩ (1 : Fin 2) * 40 ≤ (i 1).val ∧ (i 1).val < win3_2.index ⟨(i 0).val / 5000, hN⟩ (1 : Fin 2) * 40 + 40; omega

/-- The array the region leaves: the log-softmax of the biased rows of the arrays it finds. -/
theorem final3 (c : Dev nD) : (dat3 V c).arrAt 2 cfg3.N = lsm (V c main_v63) (V c main_v64) :=
  (dat3 V c).arrAt_eq_of_cover 2 (lsm (V c main_v63) (V c main_v64)) (fun t _ => flushed_eq V c t) covered

end Cert.KernelIdeal.Region3

end
-- ==== Proof.KChain.lean ====
/-
  The kernel program's result as one composed function of its arguments.

  @main is nine segments: three host stretches, the first dense product's region, a host stretch, the bias-and-ReLU
  region, the second product's region, a host stretch, the log-softmax region. At each boundary the buffers that a
  later segment reads are named as functions of the launch contents of the seven arguments: a host stretch by its
  reading in KStretch, a region's result by the array its 20 blocks tile (Region0 … Region3), every other buffer
  unchanged across a region (it is none of the region's three arrays) or across a stretch (no operation writes it).
-/
import proofs.«107888_j11776800326009_1_alg».proof.Proof.KStretch
import proofs.«107888_j11776800326009_1_alg».proof.Proof.Region0
import proofs.«107888_j11776800326009_1_alg».proof.Proof.Region1
import proofs.«107888_j11776800326009_1_alg».proof.Proof.Region2
import proofs.«107888_j11776800326009_1_alg».proof.Proof.Region3

set_option maxRecDepth 16384

noncomputable section

namespace Cert.KernelIdeal.KChain

open Cert.KernelIdeal Cert.KernelIdeal.Gen Idealize.ShloMosaic Idealize.ShloMosaic.TcCoe Idealize.SL.Sem Idealize.ShloMosaic.StableHlo
open Cert.KernelIdeal.KStretch

/-! ## Region 0's entry: the edge lists and the normalisation, for any float family -/

section AnyFamily

variable {F : FTy → Type} [FloatOps F]
variable (m : (ℓ : Loc nD τ sig) → Buf (Elt F) ℓ) (ρ : Dev nD → PrngReg) (c : Dev nD)

theorem entry0_src : W3 m ρ c (Proc.devRef .tc main_v3) = Cert.Spec.srcOf (m ((c : Thread nD τ).loc main_arg1)) :=
  (ops012_v3 _).trans (ops0_v3 _)
theorem entry0_dst : W3 m ρ c (Proc.devRef .tc main_v6) = Cert.Spec.dstOf (m ((c : Thread nD τ).loc main_arg1)) :=
  (ops012_v6 _).trans (ops0_v6 _)
theorem entry0_norm : W3 m ρ c (Proc.devRef .tc main_v33)
    = Cert.Spec.normOf (Cert.Spec.srcOf (m ((c : Thread nD τ).loc main_arg1))) (Cert.Spec.dstOf (m ((c : Thread nD τ).loc main_arg1))) (Cert.Spec.wtsOf (m ((c : Thread nD τ).loc main_arg2))) := by
  refine (ops012_v33 _).trans ?_
  rw [show W1 m ρ c (Proc.devRef .tc main_v13) = _ from ops0_v13 (W0 m ρ c), show W1 m ρ c (Proc.devRef .tc main_v16) = _ from ops0_v16 (W0 m ρ c),
    show W1 m ρ c (Proc.devRef .tc main_cst_3) = _ from ops0_cst3 (W0 m ρ c), show W1 m ρ c (Proc.devRef .tc main_v3) = _ from ops0_v3 (W0 m ρ c),
    show W1 m ρ c (Proc.devRef .tc main_v6) = _ from ops0_v6 (W0 m ρ c), show W1 m ρ c (Proc.devRef .tc main_v8) = _ from ops0_v8 (W0 m ρ c)]
  rfl
theorem entry0_arg0 : W3 m ρ c (Proc.devRef .tc main_arg0) = m ((c : Thread nD τ).loc main_arg0) := (ops012_arg0 _).trans (ops0_arg0 _)
theorem entry0_arg3 : W3 m ρ c (Proc.devRef .tc main_arg3) = m ((c : Thread nD τ).loc main_arg3) := (ops012_arg3 _).trans (ops0_arg3 _)
theorem entry0_arg4 : W3 m ρ c (Proc.devRef .tc main_arg4) = m ((c : Thread nD τ).loc main_arg4) := (ops012_arg4 _).trans (ops0_arg4 _)
theorem entry0_arg5 : W3 m ρ c (Proc.devRef .tc main_arg5) = m ((c : Thread nD τ).loc main_arg5) := (ops012_arg5 _).trans (ops0_arg5 _)
theorem entry0_arg6 : W3 m ρ c (Proc.devRef .tc main_arg6) = m ((c : Thread nD τ).loc main_arg6) := (ops012_arg6 _).trans (ops0_arg6 _)

end AnyFamily

/-! ## From region 0 to the result, on the extended reals -/

variable (m : (ℓ : Loc nD τ sig) → Buf (Elt Ideal) ℓ) (ρ : Dev nD → PrngReg) (c : Dev nD)

set_option quotPrecheck false

local notation "x₀" => m ((c : Thread nD τ).loc main_arg0)
local notation "e₁" => m ((c : Thread nD τ).loc main_arg1)
local notation "a₂" => m ((c : Thread nD τ).loc main_arg2)
local notation "w₃" => m ((c : Thread nD τ).loc main_arg3)
local notation "b₄" => m ((c : Thread nD τ).loc main_arg4)
local notation "w₅" => m ((c : Thread nD τ).loc main_arg5)
local notation "b₆" => m ((c : Thread nD τ).loc main_arg6)
local notation "src" => Cert.Spec.srcOf (m ((c : Thread nD τ).loc main_arg1))
local notation "dst" => Cert.Spec.dstOf (m ((c : Thread nD τ).loc main_arg1))
local notation "nrm" => Cert.Spec.normOf (F := Ideal) (Cert.Spec.srcOf (m ((c : Thread nD τ).loc main_arg1))) (Cert.Spec.dstOf (m ((c : Thread nD τ).loc main_arg1))) (Cert.Spec.wtsOf (F := Ideal) (m ((c : Thread nD τ).loc main_arg2)))

/-- After region 0: the first dense product. -/
theorem exit0_prod : W4 m ρ c (Proc.devRef .tc main_v34) = Region0.prod x₀ w₃ :=
  (W4_arr m ρ c 2).trans ((Region0.final0 (V3 m ρ) c).trans (congr (congrArg Region0.prod (entry0_arg0 m ρ c)) (entry0_arg3 m ρ c)))
theorem exit0_src : W4 m ρ c (Proc.devRef .tc main_v3) = src := (W4_of_ne m ρ c main_v3 (by decide)).trans (entry0_src m ρ c)
theorem exit0_dst : W4 m ρ c (Proc.devRef .tc main_v6) = dst := (W4_of_ne m ρ c main_v6 (by decide)).trans (entry0_dst m ρ c)
theorem exit0_norm : W4 m ρ c (Proc.devRef .tc main_v33) = nrm := (W4_of_ne m ρ c main_v33 (by decide)).trans (entry0_norm m ρ c)
theorem exit0_arg4 : W4 m ρ c (Proc.devRef .tc main_arg4) = b₄ := (W4_of_ne m ρ c main_arg4 (by decide)).trans (entry0_arg4 m ρ c)
theorem exit0_arg5 : W4 m ρ c (Proc.devRef .tc main_arg5) = w₅ := (W4_of_ne m ρ c main_arg5 (by decide)).trans (entry0_arg5 m ρ c)
theorem exit0_arg6 : W4 m ρ c (Proc.devRef .tc main_arg6) = b₆ := (W4_of_ne m ρ c main_arg6 (by decide)).trans (entry0_arg6 m ρ c)

/-- Region 1's entry: the first message pass and the bias as a row. -/
theorem entry1_pass : W5 m ρ c (Proc.devRef .tc main_v47) = Cert.Spec.pass64 (F := Ideal) (Region0.prod x₀ w₃) src dst nrm := by
  refine (ops1_v47 (W4 m ρ c)).trans ?_
  rw [exit0_prod, exit0_src, exit0_dst, exit0_norm]
theorem entry1_bias : W5 m ρ c (Proc.devRef .tc main_v48) = shapeCast S1x64 b₄ shapeCasts_S64_S1x64 := by
  refine (ops1_v48 (W4 m ρ c)).trans ?_
  rw [exit0_arg4]
theorem entry1_src : W5 m ρ c (Proc.devRef .tc main_v3) = src := (ops1_v3 (W4 m ρ c)).trans (exit0_src m ρ c)
theorem entry1_dst : W5 m ρ c (Proc.devRef .tc main_v6) = dst := (ops1_v6 (W4 m ρ c)).trans (exit0_dst m ρ c)
theorem entry1_norm : W5 m ρ c (Proc.devRef .tc main_v33) = nrm := (ops1_v33 (W4 m ρ c)).trans (exit0_norm m ρ c)
theorem entry1_arg5 : W5 m ρ c (Proc.devRef .tc main_arg5) = w₅ := (ops1_arg5 (W4 m ρ c)).trans (exit0_arg5 m ρ c)
theorem entry1_arg6 : W5 m ρ c (Proc.devRef .tc main_arg6) = b₆ := (ops1_arg6 (W4 m ρ c)).trans (exit0_arg6 m ρ c)

/-- After region 1: bias and ReLU. -/
theorem exit1_act : W6 m ρ c (Proc.devRef .tc main_v49)
    = Region1.biasRelu (Cert.Spec.pass64 (F := Ideal) (Region0.prod x₀ w₃) src dst nrm) (shapeCast S1x64 b₄ shapeCasts_S64_S1x64) :=
  (W6_arr m ρ c 2).trans ((Region1.final1 (V5 m ρ) c).trans (congr (congrArg Region1.biasRelu (entry1_pass m ρ c)) (entry1_bias m ρ c)))
theorem exit1_src : W6 m ρ c (Proc.devRef .tc main_v3) = src := (W6_of_ne m ρ c main_v3 (by decide)).trans (entry1_src m ρ c)
theorem exit1_dst : W6 m ρ c (Proc.devRef .tc main_v6) = dst := (W6_of_ne m ρ c main_v6 (by decide)).trans (entry1_dst m ρ c)
theorem exit1_norm : W6 m ρ c (Proc.devRef .tc main_v33) = nrm := (W6_of_ne m ρ c main_v33 (by decide)).trans (entry1_norm m ρ c)
theorem exit1_arg5 : W6 m ρ c (Proc.devRef .tc main_arg5) = w₅ := (W6_of_ne m ρ c main_arg5 (by decide)).trans (entry1_arg5 m ρ c)
theorem exit1_arg6 : W6 m ρ c (Proc.devRef .tc main_arg6) = b₆ := (W6_of_ne m ρ c main_arg6 (by decide)).trans (entry1_arg6 m ρ c)

/-- After region 2: the second dense product. -/
theorem exit2_prod : W7 m ρ c (Proc.devRef .tc main_v50)
    = Region2.prod (Region1.biasRelu (Cert.Spec.pass64 (F := Ideal) (Region0.prod x₀ w₃) src dst nrm) (shapeCast S1x64 b₄ shapeCasts_S64_S1x64)) w₅ :=
  (W7_arr m ρ c 2).trans ((Region2.final2 (V6 m ρ) c).trans (congr (congrArg Region2.prod (exit1_act m ρ c)) (exit1_arg5 m ρ c)))
theorem exit2_src : W7 m ρ c (Proc.devRef .tc main_v3) = src := (W7_of_ne m ρ c main_v3 (by decide)).trans (exit1_src m ρ c)
theorem exit2_dst : W7 m ρ c (Proc.devRef .tc main_v6) = dst := (W7_of_ne m ρ c main_v6 (by decide)).trans (exit1_dst m ρ c)
theorem exit2_norm : W7 m ρ c (Proc.devRef .tc main_v33) = nrm := (W7_of_ne m ρ c main_v33 (by decide)).trans (exit1_norm m ρ c)
theorem exit2_arg6 : W7 m ρ c (Proc.devRef .tc main_arg6) = b₆ := (W7_of_ne m ρ c main_arg6 (by decide)).trans (exit1_arg6 m ρ c)

/-- Region 3's entry: the second message pass and the bias as a row. -/
theorem entry3_pass : W8 m ρ c (Proc.devRef .tc main_v63)
    = Cert.Spec.pass40 (F := Ideal) (Region2.prod (Region1.biasRelu (Cert.Spec.pass64 (F := Ideal) (Region0.prod x₀ w₃) src dst nrm) (shapeCast S1x64 b₄ shapeCasts_S64_S1x64)) w₅) src dst nrm := by
  refine (ops3_v63 (W7 m ρ c)).trans ?_
  rw [exit2_prod, exit2_src, exit2_dst, exit2_norm]
theorem entry3_bias : W8 m ρ c (Proc.devRef .tc main_v64) = shapeCast S1x40 b₆ shapeCasts_S40_S1x40 := by
  refine (ops3_v64 (W7 m ρ c)).trans ?_
  rw [exit2_arg6]

/-- THE RESULT: what the last region leaves in the result buffer, as one function of the seven arguments. -/
theorem result_eq : W9 m ρ c (Proc.devRef .tc main_v65)
    = Region3.lsm (Cert.Spec.pass40 (F := Ideal) (Region2.prod (Region1.biasRelu (Cert.Spec.pass64 (F := Ideal) (Region0.prod x₀ w₃) src dst nrm) (shapeCast S1x64 b₄ shapeCasts_S64_S1x64)) w₅) src dst nrm)
        (shapeCast S1x40 b₆ shapeCasts_S40_S1x40) :=
  (W9_arr m ρ c 2).trans ((Region3.final3 (V8 m ρ) c).trans (congr (congrArg Region3.lsm (entry3_pass m ρ c)) (entry3_bias m ρ c)))

end Cert.KernelIdeal.KChain

end
-- ==== Proof.SpecTail.lean ====
/-
  The reference's dense stages as named functions of whole arrays: the bias row added to every row, the ReLU as
  a maximum with the zero array, and the log-softmax of a 100000 × 40 array along its rows in the reference's own
  arrangement — the row maximum (taken from −∞ and once more against −∞), the shifted entries, the logarithm of the
  sum of their exponentials (the sum started from the literal zero), subtracted from the shifted entries.
-/
import proofs.«107888_j11776800326009_1_alg».proof.Proof.Gen.ReferenceIdeal

noncomputable section

namespace Cert.Spec

open Cert.ReferenceIdeal Cert.ReferenceIdeal.Gen Idealize.ShloMosaic

variable {F : FTy → Type} [FloatOps F]

/-- A 64-entry bias as the 100000 × 64 array whose every row it is. -/
def bias64 (b : FVec F S64 .f32) : FVec F S100000x64 .f32 :=
  broadcastInDim S100000x64 ![0, 1] bcast_S1x64_S100000x64_0_1 (broadcastInDim S1x64 ![1] bcast_S64_S1x64_1 b)

/-- A 40-entry bias as the 100000 × 40 array whose every row it is. -/
def bias40 (b : FVec F S40 .f32) : FVec F S100000x40 .f32 :=
  broadcastInDim S100000x40 ![0, 1] bcast_S1x40_S100000x40_0_1 (broadcastInDim S1x40 ![1] bcast_S40_S1x40_1 b)

/-- The ReLU of a 100000 × 64 array: its maximum with the zero array. -/
def relu64 (z : FVec F S100000x64 .f32) : FVec F S100000x64 .f32 :=
  maximumf z (broadcastInDim S100000x64 ![] bcast_S_S100000x64 (constant S_ .f32 0x00000000#32))

/-- The rows' maxima, as the reference takes them. -/
def rowMaxRef (z : FVec F S100000x40 .f32) : FVec F S100000 .f32 :=
  maximumf (broadcastInDim S100000 ![] bcast_S_S100000 (constant S_ .f32 0xFF800000#32))
    (Host.reduce FloatOps.maximumf z (constant S_ .f32 0xFF800000#32) reducesTo_S100000x40_S100000_d1 h_S_)

/-- Every entry less its row's maximum. -/
def shiftRef (z : FVec F S100000x40 .f32) : FVec F S100000x40 .f32 :=
  subf z (broadcastInDim S100000x40 ![0, 1] bcast_S100000x1_S100000x40_0_1 (broadcastInDim S100000x1 ![0] bcast_S100000_S100000x1_0 (rowMaxRef z)))

/-- The reference's log-softmax along the rows. -/
def lsmRef (z : FVec F S100000x40 .f32) : FVec F S100000x40 .f32 :=
  subf (shiftRef z)
    (broadcastInDim S100000x40 ![0, 1] bcast_S100000x1_S100000x40_0_1
      (Host.log (broadcastInDim S100000x1 ![0] bcast_S100000_S100000x1_0
        (Host.reduceAdd (Host.exp (shiftRef z)) (constant S_ .f32 0x00000000#32) reducesTo_S100000x40_S100000_d1 h_S_))))

end Cert.Spec

end
-- ==== Proof.RefChain.lean ====
/-
  The reference program's result as one composed function of its arguments.

  The program's operations are read in two stretches. The first 22 build the edge lists with one self-loop per
  node appended (sources, targets, weights), the degrees, the comparison `deg > 0` and the inverse square roots.
  From their results as given values, the other 81 compute: the normalisation of every edge; the first dense
  product; a gather–scale–scatter pass; bias and ReLU; the second dense product; the second pass; bias and the
  log-softmax along the rows. Composing the two readings, the result buffer holds the named functions of Spec
  and SpecTail applied to the launch contents of the seven arguments.
-/
import proofs.«107888_j11776800326009_1_alg».proof.Proof.RefRun
import proofs.«107888_j11776800326009_1_alg».proof.Proof.Spec
import proofs.«107888_j11776800326009_1_alg».proof.Proof.SpecTail
import Idealize.ShloMosaic.Lib.Pipeline.Frame

noncomputable section

namespace Cert.ReferenceIdeal.RefChain

open Cert.ReferenceIdeal Cert.ReferenceIdeal.Gen Cert.ReferenceIdeal.ValueP Idealize.ShloMosaic Idealize.ShloMosaic.TcCoe Idealize.SL.Sem Idealize.ShloMosaic.StableHlo
open Cert.Spec

variable {F : FTy → Type} [FloatOps F]

/-- The whole network as one function of the seven arguments: two rounds of (dense product, message pass over the
    normalised graph, bias), a ReLU between them, the log-softmax along the rows at the end. -/
def network (x : FVec F S100000x256 .f32) (e : IVec S2x1600000 32) (a : FVec F S1600000 .f32) (w1 : FVec F S256x64 .f32)
    (b1 : FVec F S64 .f32) (w2 : FVec F S64x40 .f32) (b2 : FVec F S40 .f32) : FVec F S100000x40 .f32 :=
  lsmRef (addf (pass40 (Host.dotGeneral dot_S100000x64_S64x40_S100000x40_1_0_0_1_n_n none
      (relu64 (addf (pass64 (Host.dotGeneral dot_S100000x256_S256x64_S100000x64_1_0_0_1_n_n none x w1)
          (srcOf e) (dstOf e) (normOf (srcOf e) (dstOf e) (wtsOf a))) (bias64 b1))) w2)
    (srcOf e) (dstOf e) (normOf (srcOf e) (dstOf e) (wtsOf a))) (bias40 b2))

variable (W : Valuation τ sig (Elt F))

/-! ## The first 22 operations, from any contents -/

set_option maxRecDepth 16384 in
theorem head_src : after opsHead W (Proc.devRef .tc main_v3) = srcOf (W (Proc.devRef .tc main_arg1)) := by
  dsimp only [opsHead]; after_results; rfl
set_option maxRecDepth 16384 in
theorem head_dst : after opsHead W (Proc.devRef .tc main_v6) = dstOf (W (Proc.devRef .tc main_arg1)) := by
  dsimp only [opsHead]; after_results; rfl
set_option maxRecDepth 16384 in
theorem head_wts : after opsHead W (Proc.devRef .tc main_v8) = wtsOf (W (Proc.devRef .tc main_arg2)) := by
  dsimp only [opsHead]; after_results; rfl
set_option maxRecDepth 16384 in
set_option maxHeartbeats 2000000 in
theorem head_pos : after opsHead W (Proc.devRef .tc main_v13)
    = cmpf .ogt (degOf (dstOf (W (Proc.devRef .tc main_arg1))) (wtsOf (W (Proc.devRef .tc main_arg2)))) (broadcastInDim S100000 ![] bcast_S_S100000 (constant S_ .f32 0x00000000#32)) := by
  dsimp only [opsHead]; after_results; rfl
set_option maxRecDepth 16384 in
set_option maxHeartbeats 2000000 in
theorem head_rsqrt : after opsHead W (Proc.devRef .tc main_v16)
    = Host.rsqrt (maximumf (degOf (dstOf (W (Proc.devRef .tc main_arg1))) (wtsOf (W (Proc.devRef .tc main_arg2)))) (broadcastInDim S100000 ![] bcast_S_S100000 (constant S_ .f32 0x0DA24260#32))) := by
  dsimp only [opsHead]; after_results; rfl
set_option maxRecDepth 16384 in
theorem head_zero : after opsHead W (Proc.devRef .tc main_cst_3) = constant S_ .f32 0x00000000#32 := by
  dsimp only [opsHead]; after_results
set_option maxRecDepth 16384 in
theorem head_arg0 : after opsHead W (Proc.devRef .tc main_arg0) = W (Proc.devRef .tc main_arg0) := by
  dsimp only [opsHead]; after_results_simp
set_option maxRecDepth 16384 in
theorem head_arg3 : after opsHead W (Proc.devRef .tc main_arg3) = W (Proc.devRef .tc main_arg3) := by
  dsimp only [opsHead]; after_results_simp
set_option maxRecDepth 16384 in
theorem head_arg4 : after opsHead W (Proc.devRef .tc main_arg4) = W (Proc.devRef .tc main_arg4) := by
  dsimp only [opsHead]; after_results_simp
set_option maxRecDepth 16384 in
theorem head_arg5 : after opsHead W (Proc.devRef .tc main_arg5) = W (Proc.devRef .tc main_arg5) := by
  dsimp only [opsHead]; after_results_simp
set_option maxRecDepth 16384 in
theorem head_arg6 : after opsHead W (Proc.devRef .tc main_arg6) = W (Proc.devRef .tc main_arg6) := by
  dsimp only [opsHead]; after_results_simp

/-! ## The normalisation's 23 operations, from any contents -/

/-- The normalisation as computed from the head's results. -/
def normFrom (pos : IVec S100000 1) (rs : FVec F S100000 .f32) (z : FVec F S_ .f32) (s d : IVec S1700000 32) (w : FVec F S1700000 .f32) : FVec F S1700000 .f32 :=
  mulf (mulf (Host.gather gather_S100000_S1700000x1_S1700000_n_0_n_n_0_1_1 (select pos rs (broadcastInDim S100000 ![] bcast_S_S100000 (id z))) (wrapCol s)) w)
    (Host.gather gather_S100000_S1700000x1_S1700000_n_0_n_n_0_1_1 (select pos rs (broadcastInDim S100000 ![] bcast_S_S100000 (id z))) (wrapCol d))

set_option maxRecDepth 16384 in
set_option maxHeartbeats 2000000 in
theorem norm_out : after opsNorm W (Proc.devRef .tc main_v33)
    = normFrom (W (Proc.devRef .tc main_v13)) (W (Proc.devRef .tc main_v16)) (W (Proc.devRef .tc main_cst_3)) (W (Proc.devRef .tc main_v3)) (W (Proc.devRef .tc main_v6)) (W (Proc.devRef .tc main_v8)) := by
  dsimp only [opsNorm]; after_results_simp; rfl
set_option maxRecDepth 16384 in
theorem norm_v3 : after opsNorm W (Proc.devRef .tc main_v3) = W (Proc.devRef .tc main_v3) := by
  dsimp only [opsNorm]; after_results_simp
set_option maxRecDepth 16384 in
theorem norm_v6 : after opsNorm W (Proc.devRef .tc main_v6) = W (Proc.devRef .tc main_v6) := by
  dsimp only [opsNorm]; after_results_simp
set_option maxRecDepth 16384 in
theorem norm_arg0 : after opsNorm W (Proc.devRef .tc main_arg0) = W (Proc.devRef .tc main_arg0) := by
  dsimp only [opsNorm]; after_results_simp
set_option maxRecDepth 16384 in
theorem norm_arg3 : after opsNorm W (Proc.devRef .tc main_arg3) = W (Proc.devRef .tc main_arg3) := by
  dsimp only [opsNorm]; after_results_simp
set_option maxRecDepth 16384 in
theorem norm_arg4 : after opsNorm W (Proc.devRef .tc main_arg4) = W (Proc.devRef .tc main_arg4) := by
  dsimp only [opsNorm]; after_results_simp
set_option maxRecDepth 16384 in
theorem norm_arg5 : after opsNorm W (Proc.devRef .tc main_arg5) = W (Proc.devRef .tc main_arg5) := by
  dsimp only [opsNorm]; after_results_simp
set_option maxRecDepth 16384 in
theorem norm_arg6 : after opsNorm W (Proc.devRef .tc main_arg6) = W (Proc.devRef .tc main_arg6) := by
  dsimp only [opsNorm]; after_results_simp

/-! ## The first layer's 24 operations, from any contents -/

set_option maxRecDepth 16384 in
set_option maxHeartbeats 2000000 in
theorem layer1_out : after opsLayer1 W (Proc.devRef .tc main_v52)
    = Host.dotGeneral dot_S100000x64_S64x40_S100000x40_1_0_0_1_n_n none
        (relu64 (addf (pass64 (Host.dotGeneral dot_S100000x256_S256x64_S100000x64_1_0_0_1_n_n none (W (Proc.devRef .tc main_arg0)) (W (Proc.devRef .tc main_arg3)))
            (W (Proc.devRef .tc main_v3)) (W (Proc.devRef .tc main_v6)) (W (Proc.devRef .tc main_v33))) (bias64 (W (Proc.devRef .tc main_arg4))))) (W (Proc.devRef .tc main_arg5)) := by
  dsimp only [opsLayer1]; after_results_simp; rfl
set_option maxRecDepth 16384 in
theorem layer1_v3 : after opsLayer1 W (Proc.devRef .tc main_v3) = W (Proc.devRef .tc main_v3) := by
  dsimp only [opsLayer1]; after_results_simp
set_option maxRecDepth 16384 in
theorem layer1_v6 : after opsLayer1 W (Proc.devRef .tc main_v6) = W (Proc.devRef .tc main_v6) := by
  dsimp only [opsLayer1]; after_results_simp
set_option maxRecDepth 16384 in
theorem layer1_v33 : after opsLayer1 W (Proc.devRef .tc main_v33) = W (Proc.devRef .tc main_v33) := by
  dsimp only [opsLayer1]; after_results_simp
set_option maxRecDepth 16384 in
theorem layer1_arg6 : after opsLayer1 W (Proc.devRef .tc main_arg6) = W (Proc.devRef .tc main_arg6) := by
  dsimp only [opsLayer1]; after_results_simp

/-! ## The second layer's 19 operations, from any contents -/

set_option maxRecDepth 16384 in
set_option maxHeartbeats 2000000 in
theorem layer2_out : after opsLayer2 W (Proc.devRef .tc main_v68)
    = addf (pass40 (W (Proc.devRef .tc main_v52)) (W (Proc.devRef .tc main_v3)) (W (Proc.devRef .tc main_v6)) (W (Proc.devRef .tc main_v33))) (bias40 (W (Proc.devRef .tc main_arg6))) := by
  dsimp only [opsLayer2]; after_results_simp; rfl

/-! ## The log-softmax's 15 operations, from any contents -/

/-- Contents carried to a buffer's own type and back are the contents. -/
theorem ofBuf_toBuf {T : BufTy} (x : TRef sig T) (v : T.Contents (Elt F)) : x.ofBuf (x.toBuf v) = v := by
  show cast _ (cast _ v) = v
  rw [cast_cast, cast_eq]

set_option maxRecDepth 65536 in
set_option maxHeartbeats 2000000 in
theorem softmax_out : after opsSoftmax W (Proc.devRef .tc main_v69) = lsmRef (W (Proc.devRef .tc main_v68)) := by
  dsimp only [opsSoftmax]; after_results_simp
  simp only [ofBuf_toBuf]
  rfl

/-! ## The whole program -/

/-- With the head's results put in, the normalisation is that of the edge lists. -/
theorem normFrom_head (e : IVec S2x1600000 32) (a : FVec F S1600000 .f32) :
    normFrom (cmpf .ogt (degOf (dstOf e) (wtsOf a)) (broadcastInDim S100000 ![] bcast_S_S100000 (constant S_ .f32 0x00000000#32)))
        (Host.rsqrt (maximumf (degOf (dstOf e) (wtsOf a)) (broadcastInDim S100000 ![] bcast_S_S100000 (constant S_ .f32 0x0DA24260#32))))
        (constant S_ .f32 0x00000000#32) (srcOf e) (dstOf e) (wtsOf a)
      = normOf (srcOf e) (dstOf e) (wtsOf a) := rfl

/-- THE RESULT: after all 103 operations the result buffer holds the network of the arguments' contents. -/
theorem out_eq : after (ops (F := F)) W (Proc.devRef .tc main_v69)
    = network (W (Proc.devRef .tc main_arg0)) (W (Proc.devRef .tc main_arg1)) (W (Proc.devRef .tc main_arg2)) (W (Proc.devRef .tc main_arg3))
        (W (Proc.devRef .tc main_arg4)) (W (Proc.devRef .tc main_arg5)) (W (Proc.devRef .tc main_arg6)) := by
  rw [ops_split, StableHlo.after_append, StableHlo.after_append, StableHlo.after_append, StableHlo.after_append, softmax_out, layer2_out,
    layer1_out, layer1_v3, layer1_v6, layer1_v33, layer1_arg6,
    norm_out, norm_v3, norm_v6, norm_arg0, norm_arg3, norm_arg4, norm_arg5, norm_arg6,
    head_src, head_dst, head_wts, head_pos, head_rsqrt, head_zero, head_arg0, head_arg3, head_arg4, head_arg5, head_arg6, normFrom_head]
  rfl

/-! ## The arguments: no operation writes one -/

set_option maxRecDepth 65536 in
set_option maxHeartbeats 2000000 in
theorem kept_arg0 : after (ops (F := F)) W (Proc.devRef .tc main_arg0) = W (Proc.devRef .tc main_arg0) := by
  rw [ops_split, StableHlo.after_append, StableHlo.after_append, StableHlo.after_append, StableHlo.after_append]
  dsimp only [opsHead, opsNorm, opsLayer1, opsLayer2, opsSoftmax]; after_results_simp
set_option maxRecDepth 65536 in
set_option maxHeartbeats 2000000 in
theorem kept_arg1 : after (ops (F := F)) W (Proc.devRef .tc main_arg1) = W (Proc.devRef .tc main_arg1) := by
  rw [ops_split, StableHlo.after_append, StableHlo.after_append, StableHlo.after_append, StableHlo.after_append]
  dsimp only [opsHead, opsNorm, opsLayer1, opsLayer2, opsSoftmax]; after_results_simp
set_option maxRecDepth 65536 in
set_option maxHeartbeats 2000000 in
theorem kept_arg2 : after (ops (F := F)) W (Proc.devRef .tc main_arg2) = W (Proc.devRef .tc main_arg2) := by
  rw [ops_split, StableHlo.after_append, StableHlo.after_append, StableHlo.after_append, StableHlo.after_append]
  dsimp only [opsHead, opsNorm, opsLayer1, opsLayer2, opsSoftmax]; after_results_simp
set_option maxRecDepth 65536 in
set_option maxHeartbeats 2000000 in
theorem kept_arg3 : after (ops (F := F)) W (Proc.devRef .tc main_arg3) = W (Proc.devRef .tc main_arg3) := by
  rw [ops_split, StableHlo.after_append, StableHlo.after_append, StableHlo.after_append, StableHlo.after_append]
  dsimp only [opsHead, opsNorm, opsLayer1, opsLayer2, opsSoftmax]; after_results_simp
set_option maxRecDepth 65536 in
set_option maxHeartbeats 2000000 in
theorem kept_arg4 : after (ops (F := F)) W (Proc.devRef .tc main_arg4) = W (Proc.devRef .tc main_arg4) := by
  rw [ops_split, StableHlo.after_append, StableHlo.after_append, StableHlo.after_append, StableHlo.after_append]
  dsimp only [opsHead, opsNorm, opsLayer1, opsLayer2, opsSoftmax]; after_results_simp
set_option maxRecDepth 65536 in
set_option maxHeartbeats 2000000 in
theorem kept_arg5 : after (ops (F := F)) W (Proc.devRef .tc main_arg5) = W (Proc.devRef .tc main_arg5) := by
  rw [ops_split, StableHlo.after_append, StableHlo.after_append, StableHlo.after_append, StableHlo.after_append]
  dsimp only [opsHead, opsNorm, opsLayer1, opsLayer2, opsSoftmax]; after_results_simp
set_option maxRecDepth 65536 in
set_option maxHeartbeats 2000000 in
theorem kept_arg6 : after (ops (F := F)) W (Proc.devRef .tc main_arg6) = W (Proc.devRef .tc main_arg6) := by
  rw [ops_split, StableHlo.after_append, StableHlo.after_append, StableHlo.after_append, StableHlo.after_append]
  dsimp only [opsHead, opsNorm, opsLayer1, opsLayer2, opsSoftmax]; after_results_simp

end Cert.ReferenceIdeal.RefChain

end
-- ==== Proof.RefDot.lean ====
/-
  The reference's two dense products on the host, read at an index, for arbitrary operands.

  Each is a contraction of axis 1 of the left operand with axis 0 of the right one, with no batch axis: the result's
  axis 0 is the left operand's free axis 0 and its axis 1 the right operand's free axis 1. On extended reals such a
  product is the plain sum over the contracted axis, with no accumulator. So at result index `(r, q)` and contracted
  position `k` the left operand is read at `(r, k)` and the right one at `(k, q)`, and
  `(x · w)[r, q] = ∑ k, x[r, k] · w[k, q]`: over 256 positions for the first product (100000 × 256 by 256 × 64)
  and over 64 for the second (100000 × 64 by 64 × 40).
-/
import proofs.«107888_j11776800326009_1_alg».proof.Proof.Gen.ReferenceIdeal
import Idealize.ShloMosaic.Lib.ValueIdx
import Idealize.ShloMosaic.PureOps.Ideal.Laws

set_option maxRecDepth 16384

noncomputable section

namespace Cert.RefDot

open Cert.ReferenceIdeal Cert.ReferenceIdeal.Gen Idealize.ShloMosaic Idealize.ShloMosaic.ValueIdx

/-! ## The first product: 100000 × 256 by 256 × 64, contracted over 256 positions -/

/-- Left operand, row coordinate: the result's row. -/
theorem left_row256 (i : S100000x64.Idx) (s : dot_S100000x256_S256x64_S100000x64_1_0_0_1_n_n.contr.Idx) :
    (dot_S100000x256_S256x64_S100000x64_1_0_0_1_n_n.lhsIdx i s 0).val = (i 0).val := by
  unfold DotDims.lhsIdx
  rw [dif_neg (show ¬(0 : Fin S100000x256.rank) ∈ dot_S100000x256_S256x64_S100000x64_1_0_0_1_n_n.lhsBatch by decide), dif_pos (show (0 : Fin S100000x256.rank) ∈ dot_S100000x256_S256x64_S100000x64_1_0_0_1_n_n.lhsNonContracting by decide)]
  rfl
/-- Left operand, column coordinate: the contracted position. -/
theorem left_col256 (i : S100000x64.Idx) (s : dot_S100000x256_S256x64_S100000x64_1_0_0_1_n_n.contr.Idx) :
    (dot_S100000x256_S256x64_S100000x64_1_0_0_1_n_n.lhsIdx i s 1).val = (s ⟨0, by decide⟩).val :=
  dot_S100000x256_S256x64_S100000x64_1_0_0_1_n_n.lhsIdx_val_of_single rfl i s
/-- Right operand, row coordinate: the contracted position. -/
theorem right_row256 (i : S100000x64.Idx) (s : dot_S100000x256_S256x64_S100000x64_1_0_0_1_n_n.contr.Idx) :
    (dot_S100000x256_S256x64_S100000x64_1_0_0_1_n_n.rhsIdx i s 0).val = (s ⟨0, by decide⟩).val :=
  dot_S100000x256_S256x64_S100000x64_1_0_0_1_n_n.rhsIdx_val_of_single rfl i s
/-- Right operand, column coordinate: the result's column. -/
theorem right_col256 (i : S100000x64.Idx) (s : dot_S100000x256_S256x64_S100000x64_1_0_0_1_n_n.contr.Idx) :
    (dot_S100000x256_S256x64_S100000x64_1_0_0_1_n_n.rhsIdx i s 1).val = (i 1).val := by
  unfold DotDims.rhsIdx
  rw [dif_neg (show ¬(1 : Fin S256x64.rank) ∈ dot_S100000x256_S256x64_S100000x64_1_0_0_1_n_n.rhsBatch by decide), dif_pos (show (1 : Fin S256x64.rank) ∈ dot_S100000x256_S256x64_S100000x64_1_0_0_1_n_n.rhsNonContracting by decide)]
  rfl

/-- The first product at row `r`, column `q`: the inner product, over the 256 contracted positions, of the left
    operand's row `r` with the right operand's column `q`. -/
theorem dot256_apply (x : FVec Ideal S100000x256 .f32) (w : FVec Ideal S256x64 .f32) (r : Fin 100000) (q : Fin 64) :
    Host.dotGeneral dot_S100000x256_S256x64_S100000x64_1_0_0_1_n_n none x w (ix2 r q) = ∑ k : Fin 256, x (ix2 r k) * w (ix2 k q) := by
  refine (Ideal.dotGeneral_apply dot_S100000x256_S256x64_S100000x64_1_0_0_1_n_n none HostSchedule.single x w (ix2 r q)).trans ?_
  rw [← Equiv.sum_comp (ValueIdx.contrEquiv1 dot_S100000x256_S256x64_S100000x64_1_0_0_1_n_n 256 rfl rfl).symm]
  refine Finset.sum_congr rfl fun k _ => ?_
  have hk := ValueIdx.contrEquiv1_symm_val dot_S100000x256_S256x64_S100000x64_1_0_0_1_n_n 256 rfl rfl k
  have eleft : dot_S100000x256_S256x64_S100000x64_1_0_0_1_n_n.lhsIdx (ix2 r q) ((ValueIdx.contrEquiv1 dot_S100000x256_S256x64_S100000x64_1_0_0_1_n_n 256 rfl rfl).symm k) = ix2 r k := funext fun a => Fin.ext (by
    match a with
    | ⟨0, _⟩ => exact left_row256 _ _
    | ⟨1, _⟩ => exact (left_col256 _ _).trans hk)
  have eright : dot_S100000x256_S256x64_S100000x64_1_0_0_1_n_n.rhsIdx (ix2 r q) ((ValueIdx.contrEquiv1 dot_S100000x256_S256x64_S100000x64_1_0_0_1_n_n 256 rfl rfl).symm k) = ix2 k q := funext fun a => Fin.ext (by
    match a with
    | ⟨0, _⟩ => exact (right_row256 _ _).trans hk
    | ⟨1, _⟩ => exact right_col256 _ _)
  rw [eleft, eright]

/-! ## The second product: 100000 × 64 by 64 × 40, contracted over 64 positions -/

/-- Left operand, row coordinate: the result's row. -/
theorem left_row64 (i : S100000x40.Idx) (s : dot_S100000x64_S64x40_S100000x40_1_0_0_1_n_n.contr.Idx) :
    (dot_S100000x64_S64x40_S100000x40_1_0_0_1_n_n.lhsIdx i s 0).val = (i 0).val := by
  unfold DotDims.lhsIdx
  rw [dif_neg (show ¬(0 : Fin S100000x64.rank) ∈ dot_S100000x64_S64x40_S100000x40_1_0_0_1_n_n.lhsBatch by decide), dif_pos (show (0 : Fin S100000x64.rank) ∈ dot_S100000x64_S64x40_S100000x40_1_0_0_1_n_n.lhsNonContracting by decide)]
  rfl
/-- Left operand, column coordinate: the contracted position. -/
theorem left_col64 (i : S100000x40.Idx) (s : dot_S100000x64_S64x40_S100000x40_1_0_0_1_n_n.contr.Idx) :
    (dot_S100000x64_S64x40_S100000x40_1_0_0_1_n_n.lhsIdx i s 1).val = (s ⟨0, by decide⟩).val :=
  dot_S100000x64_S64x40_S100000x40_1_0_0_1_n_n.lhsIdx_val_of_single rfl i s
/-- Right operand, row coordinate: the contracted position. -/
theorem right_row64 (i : S100000x40.Idx) (s : dot_S100000x64_S64x40_S100000x40_1_0_0_1_n_n.contr.Idx) :
    (dot_S100000x64_S64x40_S100000x40_1_0_0_1_n_n.rhsIdx i s 0).val = (s ⟨0, by decide⟩).val :=
  dot_S100000x64_S64x40_S100000x40_1_0_0_1_n_n.rhsIdx_val_of_single rfl i s
/-- Right operand, column coordinate: the result's column. -/
theorem right_col64 (i : S100000x40.Idx) (s : dot_S100000x64_S64x40_S100000x40_1_0_0_1_n_n.contr.Idx) :
    (dot_S100000x64_S64x40_S100000x40_1_0_0_1_n_n.rhsIdx i s 1).val = (i 1).val := by
  unfold DotDims.rhsIdx
  rw [dif_neg (show ¬(1 : Fin S64x40.rank) ∈ dot_S100000x64_S64x40_S100000x40_1_0_0_1_n_n.rhsBatch by decide), dif_pos (show (1 : Fin S64x40.rank) ∈ dot_S100000x64_S64x40_S100000x40_1_0_0_1_n_n.rhsNonContracting by decide)]
  rfl

/-- The second product at row `r`, column `q`: the inner product, over the 64 contracted positions, of the left
    operand's row `r` with the right operand's column `q`. -/
theorem dot64_apply (x : FVec Ideal S100000x64 .f32) (w : FVec Ideal S64x40 .f32) (r : Fin 100000) (q : Fin 40) :
    Host.dotGeneral dot_S100000x64_S64x40_S100000x40_1_0_0_1_n_n none x w (ix2 r q) = ∑ k : Fin 64, x (ix2 r k) * w (ix2 k q) := by
  refine (Ideal.dotGeneral_apply dot_S100000x64_S64x40_S100000x40_1_0_0_1_n_n none HostSchedule.single x w (ix2 r q)).trans ?_
  rw [← Equiv.sum_comp (ValueIdx.contrEquiv1 dot_S100000x64_S64x40_S100000x40_1_0_0_1_n_n 64 rfl rfl).symm]
  refine Finset.sum_congr rfl fun k _ => ?_
  have hk := ValueIdx.contrEquiv1_symm_val dot_S100000x64_S64x40_S100000x40_1_0_0_1_n_n 64 rfl rfl k
  have eleft : dot_S100000x64_S64x40_S100000x40_1_0_0_1_n_n.lhsIdx (ix2 r q) ((ValueIdx.contrEquiv1 dot_S100000x64_S64x40_S100000x40_1_0_0_1_n_n 64 rfl rfl).symm k) = ix2 r k := funext fun a => Fin.ext (by
    match a with
    | ⟨0, _⟩ => exact left_row64 _ _
    | ⟨1, _⟩ => exact (left_col64 _ _).trans hk)
  have eright : dot_S100000x64_S64x40_S100000x40_1_0_0_1_n_n.rhsIdx (ix2 r q) ((ValueIdx.contrEquiv1 dot_S100000x64_S64x40_S100000x40_1_0_0_1_n_n 64 rfl rfl).symm k) = ix2 k q := funext fun a => Fin.ext (by
    match a with
    | ⟨0, _⟩ => exact (right_row64 _ _).trans hk
    | ⟨1, _⟩ => exact right_col64 _ _)
  rw [eleft, eright]

end Cert.RefDot

end
-- ==== Proof.RefTail.lean ====
/-
  The reference's dense tail read at an index, at the extended reals.

  A bias row spread over the rows reads the bias's entry of the column. The rectifier reads the maximum of the
  entry with the zero the all-zero word encodes. The log-softmax along a row `r`, in the reference's own
  arrangement: the row's maximum is the fold of `max` over the 40 entries of row `r` started from the word of
  −∞, taken once more against that same word; every entry of the row has this maximum subtracted; the
  exponentials of the 40 shifted entries are summed from the literal zero; and the logarithm of that sum is
  subtracted from the shifted entry. Each broadcast reads its operand at the index that keeps the mapped axes
  (zero on a unit axis), and each reduction along the columns reads the row with the column put back.
-/
import proofs.«107888_j11776800326009_1_alg».proof.Proof.SpecTail
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.RefTail

open Cert.ReferenceIdeal Cert.ReferenceIdeal.Gen Idealize.ShloMosaic Idealize.ShloMosaic.ValueIdx

/-! ## The bias rows -/

/-- The 64-entry bias spread over the 100000 rows reads, at `(r, q)`, the bias's entry `q`: first the vector
    becomes the one row of a 1 × 64 array (column `q` keeps entry `q`), then that row is repeated down the rows
    (the unit axis reads 0, the column is kept). -/
theorem bias64_apply (b : FVec Ideal S64 .f32) (r : Fin 100000) (q : Fin 64) : Cert.Spec.bias64 b (ix2 r q) = b (ix1 q) := by
  unfold Cert.Spec.bias64
  refine (broadcastInDim_apply _ _ _ (ix2 r q) (ix2 (0 : Fin 1) q) fun a => ?_).trans ?_
  · match a with
    | ⟨0, _⟩ => rfl
    | ⟨1, _⟩ => rfl
  · refine broadcastInDim_apply _ _ _ (ix2 (0 : Fin 1) q) (ix1 q) fun a => ?_
    match a with
    | ⟨0, _⟩ => rfl

/-- The 40-entry bias spread over the 100000 rows reads, at `(r, q)`, the bias's entry `q`. -/
theorem bias40_apply (b : FVec Ideal S40 .f32) (r : Fin 100000) (q : Fin 40) : Cert.Spec.bias40 b (ix2 r q) = b (ix1 q) := by
  unfold Cert.Spec.bias40
  refine (broadcastInDim_apply _ _ _ (ix2 r q) (ix2 (0 : Fin 1) q) fun a => ?_).trans ?_
  · match a with
    | ⟨0, _⟩ => rfl
    | ⟨1, _⟩ => rfl
  · refine broadcastInDim_apply _ _ _ (ix2 (0 : Fin 1) q) (ix1 q) fun a => ?_
    match a with
    | ⟨0, _⟩ => rfl

/-! ## A scalar spread over a shape, and the rectifier -/

/-- A rank-0 array spread over any shape reads its one entry everywhere: there is no axis to map. -/
theorem splat_apply {T : Shape} {α : Type} (h : S_.BroadcastsInDim T ![]) (x : S_.Idx → α) (j : T.Idx) :
    broadcastInDim T ![] h x j = x ix0 :=
  broadcastInDim_apply ![] h x j ix0 fun a => a.elim0

/-- The rectifier at an index: the entry's maximum with the zero scalar. -/
theorem relu64_apply (z : FVec Ideal S100000x64 .f32) (i : S100000x64.Idx) :
    Cert.Spec.relu64 z i = max (z i) (Ideal.ofBits .f32 0x00000000#32) := by
  unfold Cert.Spec.relu64
  refine (maximumf_apply _ _ i).trans ?_
  refine congrArg₂ max rfl ?_
  exact (splat_apply _ _ i).trans (constant_apply _ _)

/-! ## The row's maximum -/

/-- Dropping the column axis of a 100000 × 40 array leaves the 100000 rows. -/
theorem reduces_row : S100000x40.Reduces [1] S100000 := by decide

/-- Row `r` with column `k` put back is the index `(r, k)`. -/
theorem lift_row (r : Fin 100000) (k : Fin 40) : reduces_row.lift (ix1 r) k = ix2 r k := by
  funext c; apply Fin.ext
  match c with
  | ⟨0, _⟩ => rfl
  | ⟨1, _⟩ => rfl

/-- The reference's maximum of row `r`: the fold of `max` over the row's 40 entries from the word of −∞ (maximum is
    commutative and associative, so the reduction's order does not matter), then once more against that word. -/
theorem rowMaxRef_apply (z : FVec Ideal S100000x40 .f32) (r : Fin 100000) :
    Cert.Spec.rowMaxRef z (ix1 r)
      = max (Ideal.ofBits .f32 0xFF800000#32) ((Finset.univ : Finset (Fin 40)).fold max (Ideal.ofBits .f32 0xFF800000#32) (fun k => z (ix2 r k))) := by
  unfold Cert.Spec.rowMaxRef
  refine (maximumf_apply _ _ (ix1 r)).trans ?_
  refine congrArg₂ max ?_ ?_
  · exact (splat_apply _ _ (ix1 r)).trans (constant_apply _ _)
  · refine (Host.reduce_eq_fold_single FloatOps.maximumf z _ reducesTo_S100000x40_S100000_d1 reduces_row h_S_ (ix1 r)).trans ?_
    show (Finset.univ : Finset (Fin 40)).fold max (Ideal.ofBits .f32 0xFF800000#32) (z ∘ reduces_row.lift (ix1 r)) = _
    exact Finset.fold_congr fun k _ => congrArg z (lift_row r k)

/-! ## A column of row values spread back over the row -/

/-- A 100000 × 1 column repeated along the 40 columns reads, at `(r, q)`, the column's entry of row `r`: the row
    axis is kept, the unit column axis reads 0. -/
theorem colSpread_apply (c : FVec Ideal S100000x1 .f32) (r : Fin 100000) (q : Fin 40) :
    broadcastInDim S100000x40 ![0, 1] bcast_S100000x1_S100000x40_0_1 c (ix2 r q) = c (ix2 r (0 : Fin 1)) := by
  refine broadcastInDim_apply _ _ _ (ix2 r q) (ix2 r (0 : Fin 1)) fun a => ?_
  match a with
  | ⟨0, _⟩ => rfl
  | ⟨1, _⟩ => rfl

/-- A 100000-entry vector made a 100000 × 1 column reads, at `(r, 0)`, the vector's entry `r`. -/
theorem asColumn_apply (m : FVec Ideal S100000 .f32) (r : Fin 100000) :
    broadcastInDim S100000x1 ![0] bcast_S100000_S100000x1_0 m (ix2 r (0 : Fin 1)) = m (ix1 r) := by
  refine broadcastInDim_apply _ _ _ (ix2 r (0 : Fin 1)) (ix1 r) fun a => ?_
  match a with
  | ⟨0, _⟩ => rfl

/-! ## The shifted entries -/

/-- Every entry less its row's maximum, at `(r, q)`. -/
theorem shiftRef_apply (z : FVec Ideal S100000x40 .f32) (r : Fin 100000) (q : Fin 40) :
    Cert.Spec.shiftRef z (ix2 r q) = z (ix2 r q) - Cert.Spec.rowMaxRef z (ix1 r) := by
  unfold Cert.Spec.shiftRef
  refine (subf_apply _ _ (ix2 r q)).trans ?_
  exact congrArg (z (ix2 r q) - ·) ((colSpread_apply _ r q).trans (asColumn_apply (Cert.Spec.rowMaxRef z) r))

/-! ## The sum of the exponentials along a row -/

/-- The reference's sum along row `r` of the exponentials of an array's entries, started from the literal zero:
    that zero plus the sum over the 40 columns of the exponential of the entry at `(r, k)`. -/
theorem sumExp_apply (y : FVec Ideal S100000x40 .f32) (r : Fin 100000) :
    Host.reduceAdd (Host.exp y) (constant S_ .f32 0x00000000#32) reducesTo_S100000x40_S100000_d1 h_S_ (ix1 r)
      = Ideal.ofBits .f32 0x00000000#32 + ∑ k : Fin 40, Ideal.exp (y (ix2 r k)) := by
  show Ideal.hostReduceAdd reducesTo_S100000x40_S100000_d1 (Host.exp y) (Ideal.ofBits .f32 0x00000000#32) (ix1 r) = _
  refine (Ideal.hostReduceAdd_single reducesTo_S100000x40_S100000_d1 reduces_row (Host.exp y) _ (ix1 r)).trans ?_
  refine congrArg (Ideal.ofBits .f32 0x00000000#32 + ·) ?_
  show ∑ k : Fin 40, Host.exp y (reduces_row.lift (ix1 r) k) = _
  refine Finset.sum_congr rfl fun k _ => ?_
  show Ideal.exp (y (reduces_row.lift (ix1 r) k)) = _
  exact congrArg (fun i => Ideal.exp (y i)) (lift_row r k)

/-! ## The log-softmax -/

/-- The reference's logarithm at an index is the logarithm of the entry. -/
theorem hostLog_apply {s : Shape} (x : FVec Ideal s .f32) (i : s.Idx) : Host.log x i = Ideal.log (x i) := rfl

/-- The reference's log-softmax at `(r, q)` over the shifted entries and the row maximum by name: the shifted
    entry less the logarithm of the row's sum of exponentials of shifted entries. -/
theorem lsmRef_shift (z : FVec Ideal S100000x40 .f32) (r : Fin 100000) (q : Fin 40) :
    Cert.Spec.lsmRef z (ix2 r q)
      = (z (ix2 r q) - Cert.Spec.rowMaxRef z (ix1 r))
        - Ideal.log (Ideal.ofBits .f32 0x00000000#32 + ∑ k : Fin 40, Ideal.exp (z (ix2 r k) - Cert.Spec.rowMaxRef z (ix1 r))) := by
  unfold Cert.Spec.lsmRef
  refine (subf_apply _ _ (ix2 r q)).trans ?_
  refine congrArg₂ (· - ·) (shiftRef_apply z r q) ?_
  refine (colSpread_apply _ r q).trans ?_
  refine (hostLog_apply _ (ix2 r (0 : Fin 1))).trans ?_
  refine congrArg Ideal.log ?_
  refine (asColumn_apply _ r).trans ?_
  refine (sumExp_apply (Cert.Spec.shiftRef z) r).trans ?_
  refine congrArg (Ideal.ofBits .f32 0x00000000#32 + ·) ?_
  exact Finset.sum_congr rfl fun k _ => congrArg Ideal.exp (shiftRef_apply z r k)

/-- The reference's log-softmax at `(r, q)`, the row maximum spelt out. -/
theorem lsmRef_apply (z : FVec Ideal S100000x40 .f32) (r : Fin 100000) (q : Fin 40) :
    Cert.Spec.lsmRef z (ix2 r q)
      = (z (ix2 r q) - max (Ideal.ofBits .f32 0xFF800000#32) ((Finset.univ : Finset (Fin 40)).fold max (Ideal.ofBits .f32 0xFF800000#32) (fun k => z (ix2 r k))))
        - Ideal.log (Ideal.ofBits .f32 0x00000000#32 + ∑ k : Fin 40, Ideal.exp (z (ix2 r k) - max (Ideal.ofBits .f32 0xFF800000#32) ((Finset.univ : Finset (Fin 40)).fold max (Ideal.ofBits .f32 0xFF800000#32) (fun k => z (ix2 r k))))) := by
  refine (lsmRef_shift z r q).trans ?_
  rw [rowMaxRef_apply z r]

end Cert.RefTail

end
-- ==== Proof.LogSoftmaxRow.lean ====
/-
  One row of a log-softmax, written in two arrangements, on the extended reals.

  Let x be a row of 40 entries, M the running maximum of the row started from −∞, and
  S(c) = ∑ k, exp (x k − c).  The first arrangement subtracts M + log (S M) from an entry at once.
  The second subtracts M' = max (−∞) M first and log (0 + S M') afterwards.

  On the extended reals the two differ when M = +∞ (then z − (M + l) and (z − M) − l need not agree),
  so the row's entries are assumed real.  Then M is one of the entries, hence real; max (−∞) M = M;
  0 + S = S; each exp (x k − M) is the real exponential of a real, so S M is a real and, being a sum of
  40 positive terms, positive; its logarithm is therefore the real logarithm; and what is left is the identity
  z − (m + l) = (z − m) − l between real numbers.
-/
import Idealize.ShloMosaic.PureOps.Ideal
import Idealize.ShloMosaic.PureOps.Ideal.Laws
import Mathlib.Data.EReal.Basic
import Mathlib.Data.Finset.Fold
import Mathlib.Algebra.Order.BigOperators.Group.Finset
import Mathlib.Analysis.SpecialFunctions.Exp

noncomputable section

namespace Cert.LogSoftmaxRow

open Idealize.ShloMosaic
open scoped BigOperators

/-- The pattern with sign set, exponent field all ones and fraction zero denotes −∞. -/
theorem ofBits_neg_inf : Ideal.ofBits .f32 0xFF800000#32 = (⊥ : EReal) := by
  simp [Ideal.ofBits, Ideal.ieee]

/-- The maximum of two extended reals that are both real numbers is a real number: it is one of the two. -/
theorem max_real {a b : EReal} (ha : ∃ r : ℝ, a = r) (hb : ∃ r : ℝ, b = r) : ∃ r : ℝ, max a b = r := by
  rcases max_choice a b with h | h
  · rw [h]; exact ha
  · rw [h]; exact hb

/-- Over a nonempty finite index set, the fold of max from −∞ over real entries is real: over one entry it is
    that entry (max y ⊥ = y), and one more entry takes the maximum of two reals. -/
theorem fold_max_real_of_nonempty {ι : Type} (s : Finset ι) (hs : s.Nonempty) (x : ι → EReal)
    (hx : ∀ j, ∃ r : ℝ, x j = r) : ∃ r : ℝ, s.fold max (⊥ : EReal) x = r := by
  induction hs using Finset.Nonempty.cons_induction with
  | singleton a =>
    rw [Finset.fold_singleton, max_eq_left bot_le]
    exact hx a
  | cons a s ha hs ih =>
    rw [Finset.fold_cons]
    exact max_real (hx a) ih

/-- the fold of max from −∞ over 40 real entries is real -/
theorem fold_max_real (x : Fin 40 → EReal) (hx : ∀ j, ∃ r : ℝ, x j = r) :
    ∃ r : ℝ, (Finset.univ : Finset (Fin 40)).fold max (Ideal.ofBits .f32 0xFF800000#32) x = r := by
  rw [ofBits_neg_inf]
  exact fold_max_real_of_nonempty Finset.univ Finset.univ_nonempty x hx

/-- A finite sum of real numbers, each read as an extended real, is their real sum read as an extended real. -/
theorem coe_sum {ι : Type} (s : Finset ι) (f : ι → ℝ) :
    ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- The logarithm of a positive real, read on the extended reals, is the real logarithm. -/
theorem log_of_pos {s : ℝ} (hs : 0 < s) : Ideal.log (s : EReal) = (Real.log s : EReal) := by
  rw [Ideal.log_coe, if_neg (not_le.mpr hs)]

theorem row (x : Fin 40 → EReal) (hx : ∀ j, ∃ r : ℝ, x j = r) (q : Fin 40) :
    x q - ((Finset.univ : Finset (Fin 40)).fold max (Ideal.ofBits .f32 0xFF800000#32) x
            + Ideal.log (∑ k : Fin 40, Ideal.exp (x k - (Finset.univ : Finset (Fin 40)).fold max (Ideal.ofBits .f32 0xFF800000#32) x)))
    = (x q - max (Ideal.ofBits .f32 0xFF800000#32) ((Finset.univ : Finset (Fin 40)).fold max (Ideal.ofBits .f32 0xFF800000#32) x))
        - Ideal.log (Ideal.ofBits .f32 0x00000000#32 + ∑ k : Fin 40, Ideal.exp (x k - max (Ideal.ofBits .f32 0xFF800000#32) ((Finset.univ : Finset (Fin 40)).fold max (Ideal.ofBits .f32 0xFF800000#32) x))) := by
  -- the maximum of the row is a real m
  obtain ⟨m, hm⟩ := fold_max_real x hx
  rw [hm]
  -- the entries are reals r k
  choose r hr using hx
  -- taking the maximum with −∞ once more changes nothing, and neither does adding the sum to zero
  rw [ofBits_neg_inf, max_eq_right (bot_le : (⊥ : EReal) ≤ (m : EReal)), Ideal.ofBits_zero_f32, zero_add]
  -- each exponential is the real exponential of r k - m, so the sum is a real, and a positive one
  have hterm : ∀ k : Fin 40, Ideal.exp (x k - (m : EReal)) = ((Real.exp (r k - m) : ℝ) : EReal) := by
    intro k
    rw [hr k, ← EReal.coe_sub, Ideal.exp_coe]
  have hsum : ∑ k : Fin 40, Ideal.exp (x k - (m : EReal)) = ((∑ k : Fin 40, Real.exp (r k - m) : ℝ) : EReal) := by
    rw [Finset.sum_congr rfl (fun k _ => hterm k), coe_sum]
  have hpos : 0 < ∑ k : Fin 40, Real.exp (r k - m) :=
    Finset.sum_pos (fun k _ => Real.exp_pos _) Finset.univ_nonempty
  -- so its logarithm is the real logarithm, and the rest is arithmetic of reals
  rw [hsum, log_of_pos hpos, hr q, ← EReal.coe_add, ← EReal.coe_sub, ← EReal.coe_sub, ← EReal.coe_sub]
  congr 1
  ring

end Cert.LogSoftmaxRow
-- ==== Proof.Bridge.lean ====
/-
  The four kernel regions against the reference's dense stages, array by array, on the extended reals.

  A region leaves a function of the arrays it finds (the products of Region0 and Region2, the bias-and-maximum of
  Region1, the row-wise log-softmax of Region3); the reference applies a host operation to the same arrays. Read
  at an index both are the same expression: a product is the sum over the contracted position of the pairwise
  products; the bias is the one row added to every row, whether it arrives as a 1 × n row or as a broadcast; the
  ReLU is the maximum with the literal zero. The log-softmax is the one place where the two differ as written —
  the kernel subtracts (row maximum + log of the sum of exponentials) at once, the reference subtracts the maximum
  first and the logarithm after — and they agree when the row's entries are real numbers (LogSoftmaxRow.row).
-/
import proofs.«107888_j11776800326009_1_alg».proof.Proof.Region0
import proofs.«107888_j11776800326009_1_alg».proof.Proof.Region1
import proofs.«107888_j11776800326009_1_alg».proof.Proof.Region2
import proofs.«107888_j11776800326009_1_alg».proof.Proof.Region3
import proofs.«107888_j11776800326009_1_alg».proof.Proof.RefDot
import proofs.«107888_j11776800326009_1_alg».proof.Proof.RefTail
import proofs.«107888_j11776800326009_1_alg».proof.Proof.LogSoftmaxRow
import Idealize.ShloMosaic.Lib.ValueLayout

noncomputable section

namespace Cert.Bridge

open Cert.ReferenceIdeal Cert.ReferenceIdeal.Gen Idealize.ShloMosaic Idealize.ShloMosaic.ValueIdx
open Cert.Spec

/-- The first region's product is the host's contraction of the same two arrays. -/
theorem prod256_eq (x : FVec Ideal S100000x256 .f32) (w : FVec Ideal S256x64 .f32) :
    Cert.KernelIdeal.Region0.prod x w = Host.dotGeneral dot_S100000x256_S256x64_S100000x64_1_0_0_1_n_n none x w := by
  funext i
  obtain ⟨r, q, rfl⟩ : ∃ (r : Fin 100000) (q : Fin 64), i = ix2 r q := ⟨i 0, i 1, eq_ix2 i⟩
  rw [Cert.KernelIdeal.Region0.prod_apply, Cert.RefDot.dot256_apply]

/-- The third region's product is the host's contraction of the same two arrays. -/
theorem prod64_eq (y : FVec Ideal S100000x64 .f32) (w : FVec Ideal S64x40 .f32) :
    Cert.KernelIdeal.Region2.prod y w = Host.dotGeneral dot_S100000x64_S64x40_S100000x40_1_0_0_1_n_n none y w := by
  funext i
  obtain ⟨r, q, rfl⟩ : ∃ (r : Fin 100000) (q : Fin 40), i = ix2 r q := ⟨i 0, i 1, eq_ix2 i⟩
  rw [Cert.KernelIdeal.Region2.prod_apply, Cert.RefDot.dot64_apply]

/-- The second region, given the bias as a 1 × 64 row, is the reference's bias broadcast, sum and ReLU. -/
theorem biasRelu_eq (z : FVec Ideal S100000x64 .f32) (b : FVec Ideal S64 .f32) (h : S64.ShapeCasts S1x64) :
    Cert.KernelIdeal.Region1.biasRelu z (shapeCast S1x64 b h) = relu64 (addf z (bias64 b)) := by
  funext i
  obtain ⟨r, q, rfl⟩ : ∃ (r : Fin 100000) (q : Fin 64), i = ix2 r q := ⟨i 0, i 1, eq_ix2 i⟩
  rw [Cert.KernelIdeal.Region1.biasRelu_apply, Cert.RefTail.relu64_apply, addf_apply, Cert.RefTail.bias64_apply,
    shapeCast_a_1a_apply]

/-- The fourth region, given the bias as a 1 × 40 row, is the reference's log-softmax of the biased array, provided
    that array's entries are real numbers. -/
theorem lsm_eq (x : FVec Ideal S100000x40 .f32) (b : FVec Ideal S40 .f32) (h : S40.ShapeCasts S1x40)
    (hreal : ∀ i, ∃ r : ℝ, addf x (bias40 b) i = r) :
    Cert.KernelIdeal.Region3.lsm x (shapeCast S1x40 b h) = lsmRef (addf x (bias40 b)) := by
  funext i
  obtain ⟨r, q, rfl⟩ : ∃ (r : Fin 100000) (q : Fin 40), i = ix2 r q := ⟨i 0, i 1, eq_ix2 i⟩
  have hx : ∀ k : Fin 40, Cert.KernelIdeal.Region3.zrow x (shapeCast S1x40 b h) r k = addf x (bias40 b) (ix2 r k) := fun k => by
    unfold Cert.KernelIdeal.Region3.zrow
    rw [addf_apply, Cert.RefTail.bias40_apply, shapeCast_a_1a_apply]
  rw [Cert.KernelIdeal.Region3.lsm_apply, Cert.RefTail.lsmRef_apply]
  unfold Cert.KernelIdeal.Region3.rowMax
  simp only [hx]
  exact Cert.LogSoftmaxRow.row (fun k => addf x (bias40 b) (ix2 r k)) (fun k => hreal _) q

end Cert.Bridge

end
-- ==== Proof.LibRealValued.lean ====
/-
  Arrays over the extended reals all of whose entries are real numbers, and the operations that keep them so.

  An extended real is a real number or one of the two infinities. Sums, differences, products and maxima of
  real numbers are real numbers, so an array with only real entries stays such under the entrywise arithmetic
  operations; a selection, a broadcast, a reshape, a gather or a concatenation only re-reads entries of its
  operands; a scatter with an additive body and a general dot product add finitely many products of entries; and
  the reciprocal square root of a positive real number is a real number. Every statement is for all shapes.
-/
import Idealize.ShloMosaic.Lib.Pipeline.Value
import Idealize.ShloMosaic.Lib.ValueIdx
import Idealize.ShloMosaic.PureOps.Ideal.Laws

noncomputable section

namespace Cert.LibRealValued

open Idealize.ShloMosaic
open scoped BigOperators

/-- Every entry is a real number (neither infinity). -/
def RealValued {ι : Type} (v : ι → EReal) : Prop := ∀ i, ∃ r : ℝ, v i = (r : EReal)

/-! ## Scalars -/

/-- The sum of two real numbers is a real number. -/
theorem real_add {x y : EReal} (hx : ∃ r : ℝ, x = r) (hy : ∃ r : ℝ, y = r) : ∃ r : ℝ, x + y = r := by
  obtain ⟨a, rfl⟩ := hx
  obtain ⟨b, rfl⟩ := hy
  exact ⟨a + b, (EReal.coe_add a b).symm⟩

/-- The difference of two real numbers is a real number. -/
theorem real_sub {x y : EReal} (hx : ∃ r : ℝ, x = r) (hy : ∃ r : ℝ, y = r) : ∃ r : ℝ, x - y = r := by
  obtain ⟨a, rfl⟩ := hx
  obtain ⟨b, rfl⟩ := hy
  exact ⟨a - b, (EReal.coe_sub a b).symm⟩

/-- The product of two real numbers is a real number. -/
theorem real_mul {x y : EReal} (hx : ∃ r : ℝ, x = r) (hy : ∃ r : ℝ, y = r) : ∃ r : ℝ, x * y = r := by
  obtain ⟨a, rfl⟩ := hx
  obtain ⟨b, rfl⟩ := hy
  exact ⟨a * b, (EReal.coe_mul a b).symm⟩

/-- The greater of two real numbers is one of the two, hence a real number. -/
theorem real_max {x y : EReal} (hx : ∃ r : ℝ, x = r) (hy : ∃ r : ℝ, y = r) : ∃ r : ℝ, max x y = r := by
  rcases max_choice x y with h | h
  · rw [h]; exact hx
  · rw [h]; exact hy

/-- A finite sum of real numbers is a real number (induction on the index set: the empty sum is zero, and
    one more term is one more addition of two real numbers). -/
theorem real_sum {ι : Type} (s : Finset ι) (f : ι → EReal) (h : ∀ i ∈ s, ∃ r : ℝ, f i = r) :
    ∃ r : ℝ, ∑ i ∈ s, f i = r := by
  classical
  induction s using Finset.induction_on with
  | empty => exact ⟨0, by rw [Finset.sum_empty, EReal.coe_zero]⟩
  | insert a s ha ih =>
    rw [Finset.sum_insert ha]
    exact real_add (h a (Finset.mem_insert_self a s)) (ih fun i hi => h i (Finset.mem_insert_of_mem hi))

/-- A finite sum of products of real numbers is a real number. -/
theorem sum_mul {ι : Type} [Fintype ι] (f g : ι → EReal) (hf : ∀ k, ∃ r : ℝ, f k = r) (hg : ∀ k, ∃ r : ℝ, g k = r) :
    ∃ r : ℝ, ∑ k, f k * g k = r :=
  real_sum Finset.univ (fun k => f k * g k) fun k _ => real_mul (hf k) (hg k)

/-! ## Entrywise arithmetic, selection, constants -/

section Pointwise
variable {s : Shape} {φ : FTy}

/-- An entrywise sum of two arrays of real numbers has only real entries. -/
theorem addf (a b : FVec Ideal s φ) (ha : RealValued a) (hb : RealValued b) :
    RealValued (Idealize.ShloMosaic.addf a b) := fun i => real_add (ha i) (hb i)

/-- An entrywise difference of two arrays of real numbers has only real entries. -/
theorem subf (a b : FVec Ideal s φ) (ha : RealValued a) (hb : RealValued b) :
    RealValued (Idealize.ShloMosaic.subf a b) := fun i => real_sub (ha i) (hb i)

/-- An entrywise product of two arrays of real numbers has only real entries. -/
theorem mulf (a b : FVec Ideal s φ) (ha : RealValued a) (hb : RealValued b) :
    RealValued (Idealize.ShloMosaic.mulf a b) := fun i => real_mul (ha i) (hb i)

/-- An entrywise maximum of two arrays of real numbers has only real entries. -/
theorem maximumf (a b : FVec Ideal s φ) (ha : RealValued a) (hb : RealValued b) :
    RealValued (Idealize.ShloMosaic.maximumf a b) := fun i => real_max (ha i) (hb i)

/-- A selection reads, at each index, the entry of one of its two operands there. -/
theorem select (c : IVec s 1) (a b : s.Idx → EReal) (ha : RealValued a) (hb : RealValued b) :
    RealValued (Idealize.ShloMosaic.select c a b) := fun i => by
  show ∃ r : ℝ, (if c i = 1 then a i else b i) = r
  split
  · exact ha i
  · exact hb i

/-- A splat constant whose word denotes a real number has only real entries: every entry is that number. -/
theorem constant (bits : BitVec 32) (h : ∃ r : ℝ, Ideal.ofBits .f32 bits = r) :
    RealValued (Idealize.ShloMosaic.constant (F := Ideal) s .f32 bits) := fun _ => h

end Pointwise

/-- The all-zero word denotes the real number zero. -/
theorem ofBits_zero : ∃ r : ℝ, Ideal.ofBits .f32 0x00000000#32 = r :=
  ⟨0, Ideal.ofBits_zero_f32.trans EReal.coe_zero.symm⟩

/-- The word of the number one (sign 0, exponent field 127, fraction 0) denotes a real number. -/
theorem ofBits_one : ∃ r : ℝ, Ideal.ofBits .f32 0x3F800000#32 = r := by
  have hex : ((0x3F800000#32 : BitVec 32).extractLsb' 23 8).toNat = 127 := by decide
  show ∃ r : ℝ, Ideal.ieee 8 23 (0x3F800000#32 : BitVec 32) = r
  unfold Ideal.ieee
  simp only [hex]
  rw [if_neg (by norm_num), if_neg (by norm_num)]
  exact ⟨_, rfl⟩

/-- The word of the literal 1e-30 (sign 0, exponent field 27: neither all ones nor zero) denotes a POSITIVE real
    number: a positive sign times a positive significand times a power of two. -/
theorem ofBits_tiny_pos : ∃ r : ℝ, 0 < r ∧ Ideal.ofBits .f32 0x0DA24260#32 = r := by
  have hex : ((0x0DA24260#32 : BitVec 32).extractLsb' 23 8).toNat = 27 := by decide
  have hneg : ((0x0DA24260#32 : BitVec 32).extractLsb' (8 + 23) 1 == 1#1) = false := by decide
  show ∃ r : ℝ, 0 < r ∧ Ideal.ieee 8 23 (0x0DA24260#32 : BitVec 32) = r
  unfold Ideal.ieee
  simp only [hex, hneg]
  rw [if_neg (by norm_num), if_neg (by norm_num)]
  refine ⟨_, ?_, rfl⟩
  simp only [Bool.false_eq_true, if_false]
  positivity

/-! ## Re-indexings: every entry of the result is an entry of the operand -/

/-- A broadcast along named axes reads, at each index, one entry of its operand. -/
theorem broadcastInDim {s t : Shape} (dims : Fin s.rank → Fin t.rank) (h : s.BroadcastsInDim t dims)
    (x : s.Idx → EReal) (hx : RealValued x) : RealValued (Idealize.ShloMosaic.broadcastInDim t dims h x) :=
  fun _ => hx _

/-- A reshape reads, at each index, the operand's entry of the same row-major position. -/
theorem shapeCast {s t : Shape} (x : s.Idx → EReal) (h : s.ShapeCasts t) (hx : RealValued x) :
    RealValued (Idealize.ShloMosaic.shapeCast t x h) := fun _ => hx _

/-- A gather reads, at each index, the operand's entry at the operand index its start indices name. -/
theorem gather {s si t : Shape} {w : Nat} (d : GatherDims s si t) (x : s.Idx → EReal) (idx : IVec si w)
    (hx : RealValued x) : RealValued (Host.gather d x idx) := fun _ => hx _

/-! ## Finite sums: a scatter with an additive body, a general dot product -/

/-- A scatter that adds: each entry is the operand's entry plus the finite sum of the updates that land on it. -/
theorem scatterAdd {s si u : Shape} {w : Nat} {φ : FTy} (d : ScatterDims s si u) (x : FVec Ideal s φ)
    (idx : IVec si w) (upd : FVec Ideal u φ) (hx : RealValued x) (hu : RealValued upd) :
    RealValued (Host.scatterAdd d x idx upd) := fun i =>
  real_add (hx i) (real_sum _ _ fun j _ => hu j)

/-- A general dot product: each entry is the sum, over the contraction index, of products of one entry of each
    operand. -/
theorem dotGeneral {sl sr so : Shape} {φ₁ φ₂ : FTy} (D : DotDims sl sr so) (x : FVec Ideal sl φ₁)
    (y : FVec Ideal sr φ₂) (hx : RealValued x) (hy : RealValued y) : RealValued (Host.dotGeneral D none x y) :=
  fun j => by
    rw [show Host.dotGeneral D none x y j = ∑ k : D.contr.Idx, x (D.lhsIdx j k) * y (D.rhsIdx j k) from
      Ideal.dotGeneral_apply D none .single x y j]
    exact sum_mul _ _ (fun k => hx _) (fun k => hy _)

/-! ## A positive lower bound, and the reciprocal square root above it -/

/-- The greater of a real number and a positive real number is a positive real number. -/
theorem real_max_pos {x y : EReal} (hx : ∃ r : ℝ, x = r) (hy : ∃ r : ℝ, 0 < r ∧ y = r) :
    ∃ r : ℝ, 0 < r ∧ max x y = r := by
  obtain ⟨a, rfl⟩ := hx
  obtain ⟨b, hb, rfl⟩ := hy
  rcases le_total (a : EReal) (b : EReal) with h | h
  · exact ⟨b, hb, max_eq_right h⟩
  · exact ⟨a, lt_of_lt_of_le hb (EReal.coe_le_coe_iff.1 h), max_eq_left h⟩

/-- An entrywise maximum with an array of positive real numbers has only positive real entries. -/
theorem maximumf_pos {s : Shape} {φ : FTy} (a b : FVec Ideal s φ) (ha : RealValued a)
    (hb : ∀ i, ∃ r : ℝ, 0 < r ∧ b i = r) : ∀ i, ∃ r : ℝ, 0 < r ∧ Idealize.ShloMosaic.maximumf a b i = r :=
  fun i => real_max_pos (ha i) (hb i)

/-- The reciprocal square root of a positive real number is the real number one over its square root. -/
theorem real_rsqrt_pos {x : EReal} (hx : ∃ r : ℝ, 0 < r ∧ x = r) : ∃ r : ℝ, Ideal.rsqrt x = r := by
  obtain ⟨a, ha, rfl⟩ := hx
  exact ⟨(Real.sqrt a)⁻¹, by rw [Ideal.rsqrt_coe, if_neg (not_lt.2 ha.le), if_neg ha.ne']⟩

/-- An entrywise reciprocal square root of an array of positive real numbers has only real entries. -/
theorem rsqrt_of_pos {s : Shape} {φ : FTy} (x : FVec Ideal s φ) (hx : ∀ i, ∃ r : ℝ, 0 < r ∧ x i = r) :
    RealValued (Host.rsqrt x) := fun i => real_rsqrt_pos (hx i)

/-! ## Concatenation: every entry of the result is an entry of one piece -/

/-- A concatenation read at an index is one of its pieces read at some index of that piece: the piece in whose
    span along the axis the index falls. -/
theorem concatenate_entry {α : Type} {t : Shape} (a : Fin t.rank) (xs : List ((s : Shape) × (s.Idx → α)))
    (h : Shape.Concatenates (xs.map (·.1)) t a) (j : t.Idx) :
    ∃ p ∈ xs, ∃ i : p.1.Idx, Idealize.ShloMosaic.concatenate t a xs h j = p.2 i := by
  unfold Idealize.ShloMosaic.concatenate
  exact ⟨_, List.getElem_mem _, _, rfl⟩

/-- A concatenation of two arrays of real numbers has only real entries. -/
theorem concatenate_pair {t s₁ s₂ : Shape} (a : Fin t.rank) (x₁ : s₁.Idx → EReal) (x₂ : s₂.Idx → EReal)
    (h : Shape.Concatenates [s₁, s₂] t a) (h₁ : RealValued x₁) (h₂ : RealValued x₂) :
    RealValued (Idealize.ShloMosaic.concatenate t a [⟨s₁, x₁⟩, ⟨s₂, x₂⟩] h) := fun j => by
  obtain ⟨p, hp, i, e⟩ := concatenate_entry a [⟨s₁, x₁⟩, ⟨s₂, x₂⟩] h j
  rw [e]
  rcases List.mem_cons.1 hp with rfl | hp
  · exact h₁ i
  · rcases List.mem_singleton.1 hp with rfl
    exact h₂ i

end Cert.LibRealValued

end
-- ==== Proof.SpecReal.lean ====
/-
  The finiteness chain: every host stage the two programs share maps arrays of real numbers to arrays of
  real numbers.

  An extended real is a real number or one of the two infinities. Each shared stage is built from operations that
  keep an array's entries real: a concatenation, broadcast or gather only re-reads entries of its operands (a gather
  reads SOME entry whatever its index, so the integer index arrays are arbitrary); a scatter-add and a dot product
  add finitely many entries or products of entries (whatever the scatter's indices); a product, sum or maximum of
  reals is real; and the one reciprocal square root is taken of the maximum of a real degree with a positive
  literal, a positive real, while the other branch of its selection is the zero literal. Stage by stage this gives
  the weights, the degrees, their inverse square roots, the edges' normalisation, both message-passing steps, the
  biases, the ReLU and both dense products, and, composed, the array the final log-softmax is applied to.
-/
import proofs.«107888_j11776800326009_1_alg».proof.Proof.Spec
import proofs.«107888_j11776800326009_1_alg».proof.Proof.SpecTail
import proofs.«107888_j11776800326009_1_alg».proof.Proof.LibRealValued

noncomputable section

namespace Cert.SpecReal

open Cert.ReferenceIdeal Cert.ReferenceIdeal.Gen Idealize.ShloMosaic Cert.LibRealValued Cert.Spec

/-- The zero literal broadcast to any shape has only real entries. -/
theorem zeros_real {t : Shape} (h : S_.BroadcastsInDim t (![] : Fin 0 → Fin t.rank)) :
    RealValued (Idealize.ShloMosaic.broadcastInDim t ![] h (Idealize.ShloMosaic.constant (F := Ideal) S_ .f32 0x00000000#32)) :=
  LibRealValued.broadcastInDim _ _ _ (LibRealValued.constant _ ofBits_zero)

/-- The weights: the edge weights followed by the literal one, once per node. -/
theorem wtsOf_real (a : FVec Ideal S1600000 .f32) : RealValued a → RealValued (wtsOf a) := by
  intro ha
  unfold wtsOf
  exact LibRealValued.concatenate_pair _ _ _ _ ha
    (LibRealValued.broadcastInDim _ _ _ (LibRealValued.constant _ ofBits_one))

/-- The degrees: zero plus, at each node, the finite sum of the weights whose target it is; the targets are
    arbitrary. -/
theorem degOf_real (d : IVec S1700000 32) (w : FVec Ideal S1700000 .f32) : RealValued w → RealValued (degOf d w) := by
  intro hw
  unfold degOf
  exact LibRealValued.scatterAdd _ _ _ _ (zeros_real _) hw

/-- The inverse square roots: where the degree is positive, the maximum of the degree and the positive literal is a
    positive real, whose reciprocal square root is real; elsewhere the entry is the zero literal. -/
theorem dinvOf_real (g : FVec Ideal S100000 .f32) : RealValued g → RealValued (dinvOf g) := by
  intro hg
  unfold dinvOf
  exact LibRealValued.select _ _ _
    (LibRealValued.rsqrt_of_pos _ (LibRealValued.maximumf_pos g _ hg fun _ => ofBits_tiny_pos))
    (zeros_real _)

/-- The normalisation: a product of three reals, two of them entries of the inverse square roots read at arbitrary
    indices. -/
theorem normOf_real (s d : IVec S1700000 32) (w : FVec Ideal S1700000 .f32) : RealValued w → RealValued (normOf s d w) := by
  intro hw
  have hD : RealValued (dinvOf (degOf d w)) := dinvOf_real _ (degOf_real d w hw)
  unfold normOf
  exact LibRealValued.mulf _ _ (LibRealValued.mulf _ _ (LibRealValued.gather _ _ _ hD) hw) (LibRealValued.gather _ _ _ hD)

/-- One message-passing step on 64 columns: zero plus finite sums of products of a gathered entry and an edge's
    normalisation. -/
theorem pass64_real (h : FVec Ideal S100000x64 .f32) (s d : IVec S1700000 32) (n : FVec Ideal S1700000 .f32) :
    RealValued h → RealValued n → RealValued (pass64 h s d n) := by
  intro hh hn
  unfold pass64
  exact LibRealValued.scatterAdd _ _ _ _ (zeros_real _)
    (LibRealValued.mulf _ _ (LibRealValued.gather _ _ _ hh)
      (LibRealValued.broadcastInDim _ _ _ (LibRealValued.broadcastInDim _ _ _ hn)))

/-- The same step on 40 columns. -/
theorem pass40_real (h : FVec Ideal S100000x40 .f32) (s d : IVec S1700000 32) (n : FVec Ideal S1700000 .f32) :
    RealValued h → RealValued n → RealValued (pass40 h s d n) := by
  intro hh hn
  unfold pass40
  exact LibRealValued.scatterAdd _ _ _ _ (zeros_real _)
    (LibRealValued.mulf _ _ (LibRealValued.gather _ _ _ hh)
      (LibRealValued.broadcastInDim _ _ _ (LibRealValued.broadcastInDim _ _ _ hn)))

/-- A bias repeated along the rows: every entry is an entry of the bias. -/
theorem bias64_real (b : FVec Ideal S64 .f32) : RealValued b → RealValued (bias64 b) := by
  intro hb
  unfold bias64
  exact LibRealValued.broadcastInDim _ _ _ (LibRealValued.broadcastInDim _ _ _ hb)

theorem bias40_real (b : FVec Ideal S40 .f32) : RealValued b → RealValued (bias40 b) := by
  intro hb
  unfold bias40
  exact LibRealValued.broadcastInDim _ _ _ (LibRealValued.broadcastInDim _ _ _ hb)

/-- The ReLU: the maximum of a real and zero. -/
theorem relu64_real (z : FVec Ideal S100000x64 .f32) : RealValued z → RealValued (relu64 z) := by
  intro hz
  unfold relu64
  exact LibRealValued.maximumf _ _ hz (zeros_real _)

/-- The first dense product: each entry is a sum of 256 products of reals. -/
theorem dot256_real (x : FVec Ideal S100000x256 .f32) (w : FVec Ideal S256x64 .f32) :
    RealValued x → RealValued w → RealValued (Host.dotGeneral dot_S100000x256_S256x64_S100000x64_1_0_0_1_n_n none x w) :=
  fun hx hw => LibRealValued.dotGeneral _ x w hx hw

/-- The second dense product: each entry is a sum of 64 products of reals. -/
theorem dot64_real (x : FVec Ideal S100000x64 .f32) (w : FVec Ideal S64x40 .f32) :
    RealValued x → RealValued w → RealValued (Host.dotGeneral dot_S100000x64_S64x40_S100000x40_1_0_0_1_n_n none x w) :=
  fun hx hw => LibRealValued.dotGeneral _ x w hx hw

/-- the whole chain: the array the last stage's log-softmax is applied to -/
theorem logits_real (x : FVec Ideal S100000x256 .f32) (e : IVec S2x1600000 32) (a : FVec Ideal S1600000 .f32) (w1 : FVec Ideal S256x64 .f32) (b1 : FVec Ideal S64 .f32) (w2 : FVec Ideal S64x40 .f32) (b2 : FVec Ideal S40 .f32) :
    RealValued x → RealValued a → RealValued w1 → RealValued b1 → RealValued w2 → RealValued b2 →
    RealValued (addf (pass40 (Host.dotGeneral dot_S100000x64_S64x40_S100000x40_1_0_0_1_n_n none (relu64 (addf (pass64 (Host.dotGeneral dot_S100000x256_S256x64_S100000x64_1_0_0_1_n_n none x w1) (srcOf e) (dstOf e) (normOf (srcOf e) (dstOf e) (wtsOf a))) (bias64 b1))) w2) (srcOf e) (dstOf e) (normOf (srcOf e) (dstOf e) (wtsOf a))) (bias40 b2)) := by
  intro hx ha hw1 hb1 hw2 hb2
  -- the edges' normalisation, shared by both message-passing steps
  have hn : RealValued (normOf (srcOf e) (dstOf e) (wtsOf a)) := normOf_real _ _ _ (wtsOf_real a ha)
  -- the first layer: product, message passing, bias, ReLU
  have h1 := relu64_real _ (LibRealValued.addf _ _ (pass64_real _ (srcOf e) (dstOf e) _ (dot256_real x w1 hx hw1) hn) (bias64_real b1 hb1))
  -- the second layer: product, message passing, bias
  exact LibRealValued.addf _ _ (pass40_real _ (srcOf e) (dstOf e) _ (dot64_real _ w2 h1 hw2) hn) (bias40_real b2 hb2)

end Cert.SpecReal

end
-- ==== Proof.PreReal.lean ====
/-
  The precondition decoded: every entry of every float input is a real number.

  The predicate is, for each of the six float inputs x, the conjunction over all entries of
  |x| < +∞, the six conjunctions and-ed together into one bit.  If that bit is set, each of the six is set;
  a conjunction over all entries that is set has a set bit at every entry; a set bit at an entry says
  max x (−x) < +∞ on the extended reals; and of the three kinds of extended real, −∞ and +∞ both have
  max x (−x) = +∞, so the entry is a real number.  The integer input takes no part.
-/
import proofs.«107888_j11776800326009_1_alg».proof.Pre_finite_inputs
import Idealize.ShloMosaic.PureOps.Ideal
import Idealize.ShloMosaic.Lib.ReduceAll
import Idealize.ShloMosaic.Lib.ValueIdx

noncomputable section

namespace Cert.PreReal

open Idealize.ShloMosaic Cert.Pre_finite_inputs

/-- The shape of rank 0 has exactly one index: an index is a function out of the empty type of axes. -/
theorem subsingleton_S_ : Subsingleton S_.Idx := ⟨fun a b => funext fun d => d.elim0⟩

/-- The pattern with sign clear, exponent field all ones and fraction zero denotes +∞. -/
theorem ofBits_pos_inf : Ideal.ofBits .f32 0x7F800000#32 = (⊤ : EReal) := by
  simp [Ideal.ofBits, Ideal.ieee]

/-- An ordered less-than on the extended reals that reads as the set bit is the strict order. -/
theorem lt_of_cmp_olt {x y : EReal} (h : Ideal.cmp .olt x y = 1#1) : x < y := by
  by_contra hn
  have h0 : Ideal.cmp .olt x y = 0#1 := by simp [Ideal.cmp, hn]
  rw [h0] at h
  exact absurd h (by decide)

/-- An extended real whose absolute value max x (−x) is below +∞ is a real number: at −∞ and at +∞ one of
    x, −x is +∞. -/
theorem real_of_abs_lt_top (x : EReal) (h : max x (-x) < ⊤) : ∃ r : ℝ, x = r := by
  induction x using EReal.rec with
  | bot => simp at h
  | coe r => exact ⟨r, rfl⟩
  | top => simp at h

/-- One input: if the conjunction over ALL entries of |a| < +∞ (the bound a scalar +∞ broadcast to a's shape,
    the conjunction started from the set bit and reduced into the one-index shape) is set, every entry of a is real. -/
theorem all_real {s : Shape} {axes : List (Fin s.rank)} (a : FVec Ideal s .f32)
    (hb : S_.BroadcastsInDim s (![] : Fin 0 → Fin s.rank)) (hr : s.ReducesTo axes S_) (hu : 0 < S_.numel)
    (e : Host.reduce IntOp.andi (cmpf .olt (Host.absf a) (broadcastInDim s ![] hb (constant S_ .f32 0x7F800000#32)))
          (constantI S_ 1 1#1) hr hu ValueIdx.ix0 = 1#1) :
    ∀ i, ∃ r : ℝ, a i = r := by
  intro i
  haveI := subsingleton_S_
  -- the bit at entry i is set
  have hi := Host.reduce_andi_all _ _ hr hu ValueIdx.ix0 e i
  -- that bit compares max (a i) (−a i) with the broadcast scalar, which reads +∞ at every index
  change Ideal.cmp .olt (max (a i) (-(a i))) (Ideal.ofBits .f32 0x7F800000#32) = 1#1 at hi
  have hlt := lt_of_cmp_olt hi
  rw [ofBits_pos_inf] at hlt
  exact real_of_abs_lt_top _ hlt

theorem reals [Cert.Pre_finite_inputs.Facts] (a0 : FVec Ideal S100000x256 .f32) (a1 : IVec S2x1600000 32) (a2 : FVec Ideal S1600000 .f32) (a3 : FVec Ideal S256x64 .f32) (a4 : FVec Ideal S64 .f32) (a5 : FVec Ideal S64x40 .f32) (a6 : FVec Ideal S40 .f32)
    (h : Cert.Pre_finite_inputs.fn (F := Ideal) a0 a1 a2 a3 a4 a5 a6 = fun _ => 1#1) :
    (∀ i, ∃ r : ℝ, a0 i = r) ∧ (∀ i, ∃ r : ℝ, a2 i = r) ∧ (∀ i, ∃ r : ℝ, a3 i = r) ∧ (∀ i, ∃ r : ℝ, a4 i = r) ∧ (∀ i, ∃ r : ℝ, a5 i = r) ∧ (∀ i, ∃ r : ℝ, a6 i = r) := by
  -- the predicate's one bit, read at its one index
  have h0 := congrFun h ValueIdx.ix0
  -- the predicate is the and of six conjunctions-over-all-entries, nested to the left
  dsimp only [fn, fn_part1] at h0
  -- an and of bits is set exactly when both are
  simp only [andi, IntOp.andi_eq_one] at h0
  obtain ⟨⟨⟨⟨⟨e0, e2⟩, e3⟩, e4⟩, e5⟩, e6⟩ := h0
  exact ⟨all_real a0 _ _ _ e0, all_real a2 _ _ _ e2, all_real a3 _ _ _ e3, all_real a4 _ _ _ e4,
    all_real a5 _ _ _ e5, all_real a6 _ _ _ e6⟩

end Cert.PreReal
-- ==== Proof.lean ====
/-
  The certificate of a two-layer graph convolution with a log-softmax head: the kernel's program — two dense
  products, a bias-and-ReLU and a bias-and-log-softmax as four tiled regions, the degree normalisation and the two
  gather–scale–scatter message passes on the host — against the plain reference.

  The frames of the kernel's two programs are the generated ones; the reference's frame is its run with the
  results dropped. The idealization rewrote no operation, so `preserves` is trivial. The value claim: the kernel's
  result buffer holds (KChain) the last region's row-wise log-softmax of the second message pass of the second
  product of the ReLU of the biased first message pass of the first product; the reference's result buffer holds
  (RefChain) the same network with host operations in the regions' places. Region by region the two agree on the
  extended reals (Bridge): products and the bias-and-ReLU unconditionally, the log-softmax — where the kernel
  subtracts `max + log ∑ exp` at once and the reference in two steps — because the array it is applied to has only
  real entries, which the finiteness of the float inputs gives through every stage (PreReal, SpecReal).
-/
import proofs.«107888_j11776800326009_1_alg».proof.Defs
import proofs.«107888_j11776800326009_1_alg».proof.Proof.Gen.Kernel
import proofs.«107888_j11776800326009_1_alg».proof.Proof.Gen.Kernel.Skeleton
import proofs.«107888_j11776800326009_1_alg».proof.Proof.Gen.Kernel.Launch
import proofs.«107888_j11776800326009_1_alg».proof.Proof.Gen.Kernel.Points
import proofs.«107888_j11776800326009_1_alg».proof.Proof.Gen.Kernel.Frame
import proofs.«107888_j11776800326009_1_alg».proof.Proof.Gen.KernelIdeal
import proofs.«107888_j11776800326009_1_alg».proof.Proof.Gen.KernelIdeal.Skeleton
import proofs.«107888_j11776800326009_1_alg».proof.Proof.Gen.KernelIdeal.Launch
import proofs.«107888_j11776800326009_1_alg».proof.Proof.Gen.KernelIdeal.Points
import proofs.«107888_j11776800326009_1_alg».proof.Proof.Gen.KernelIdeal.Frame
import proofs.«107888_j11776800326009_1_alg».proof.Proof.Gen.ReferenceIdeal
import proofs.«107888_j11776800326009_1_alg».proof.Proof.Gen.Pre_finite_inputs
import proofs.«107888_j11776800326009_1_alg».proof.Proof.KRun
import proofs.«107888_j11776800326009_1_alg».proof.Proof.KChain
import proofs.«107888_j11776800326009_1_alg».proof.Proof.RefChain
import proofs.«107888_j11776800326009_1_alg».proof.Proof.Bridge
import proofs.«107888_j11776800326009_1_alg».proof.Proof.SpecReal
import proofs.«107888_j11776800326009_1_alg».proof.Proof.PreReal
import Idealize.ShloMosaic.Adequacy
import Idealize.ShloMosaic.Init

set_option maxRecDepth 16384

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference is host operations only: its run ends with every buffer at the fold of the operations, and no
    operation writes an argument. -/
theorem frame_referenceIdeal : Cert.frame_ReferenceIdeal := fun m ρ _ =>
  (θ_run Cert.ReferenceIdeal.defs _ _).mono
    (fun _ h c => ⟨(h c _).trans (Cert.ReferenceIdeal.RefChain.kept_arg0 _), (h c _).trans (Cert.ReferenceIdeal.RefChain.kept_arg1 _),
      (h c _).trans (Cert.ReferenceIdeal.RefChain.kept_arg2 _), (h c _).trans (Cert.ReferenceIdeal.RefChain.kept_arg3 _),
      (h c _).trans (Cert.ReferenceIdeal.RefChain.kept_arg4 _), (h c _).trans (Cert.ReferenceIdeal.RefChain.kept_arg5 _),
      (h c _).trans (Cert.ReferenceIdeal.RefChain.kept_arg6 _)⟩)
    (Cert.ReferenceIdeal.ValueP.run_after (F := Ideal) m ρ)

theorem preserves : Cert.preserves_Kernel_KernelIdeal := trivial

/-- On finite inputs the kernel's network and the reference's are one function of the seven arguments. -/
theorem network_eq (x : FVec Ideal Cert.ReferenceIdeal.S100000x256 .f32) (e : IVec Cert.ReferenceIdeal.S2x1600000 32)
    (a : FVec Ideal Cert.ReferenceIdeal.S1600000 .f32) (w1 : FVec Ideal Cert.ReferenceIdeal.S256x64 .f32)
    (b1 : FVec Ideal Cert.ReferenceIdeal.S64 .f32) (w2 : FVec Ideal Cert.ReferenceIdeal.S64x40 .f32) (b2 : FVec Ideal Cert.ReferenceIdeal.S40 .f32)
    (h1 : Cert.ReferenceIdeal.S64.ShapeCasts Cert.ReferenceIdeal.S1x64) (h2 : Cert.ReferenceIdeal.S40.ShapeCasts Cert.ReferenceIdeal.S1x40)
    (hx : ∀ i, ∃ r : ℝ, x i = r) (ha : ∀ i, ∃ r : ℝ, a i = r) (hw1 : ∀ i, ∃ r : ℝ, w1 i = r) (hb1 : ∀ i, ∃ r : ℝ, b1 i = r)
    (hw2 : ∀ i, ∃ r : ℝ, w2 i = r) (hb2 : ∀ i, ∃ r : ℝ, b2 i = r) :
    Cert.KernelIdeal.Region3.lsm
        (Cert.Spec.pass40 (Cert.KernelIdeal.Region2.prod (Cert.KernelIdeal.Region1.biasRelu
            (Cert.Spec.pass64 (Cert.KernelIdeal.Region0.prod x w1) (Cert.Spec.srcOf e) (Cert.Spec.dstOf e) (Cert.Spec.normOf (Cert.Spec.srcOf e) (Cert.Spec.dstOf e) (Cert.Spec.wtsOf a)))
            (shapeCast Cert.ReferenceIdeal.S1x64 b1 h1)) w2)
          (Cert.Spec.srcOf e) (Cert.Spec.dstOf e) (Cert.Spec.normOf (Cert.Spec.srcOf e) (Cert.Spec.dstOf e) (Cert.Spec.wtsOf a)))
        (shapeCast Cert.ReferenceIdeal.S1x40 b2 h2)
      = Cert.ReferenceIdeal.RefChain.network x e a w1 b1 w2 b2 := by
  rw [Cert.Bridge.prod256_eq, Cert.Bridge.biasRelu_eq, Cert.Bridge.prod64_eq,
    Cert.Bridge.lsm_eq _ _ _ (Cert.SpecReal.logits_real x e a w1 b1 w2 b2 hx ha hw1 hb1 hw2 hb2)]
  rfl

set_option maxHeartbeats 1000000 in
theorem algebraic : Cert.algebraic_KernelIdeal_ReferenceIdeal := by
  intro m ρ m' ρ' hpre hagree
  refine ⟨fun c => Cert.KernelIdeal.Gen.W9 m ρ c (Proc.devRef .tc Cert.KernelIdeal.main_v65), Cert.KernelIdeal.GenP.run_value m ρ, ?_⟩
  refine (θ_run Cert.ReferenceIdeal.defs _ _).mono (fun _ h c => ⟨(h c Cert.ReferenceIdeal.main_v69).trans ?_,
      (h c Cert.ReferenceIdeal.main_arg0).trans (Cert.ReferenceIdeal.RefChain.kept_arg0 _), (h c Cert.ReferenceIdeal.main_arg1).trans (Cert.ReferenceIdeal.RefChain.kept_arg1 _),
      (h c Cert.ReferenceIdeal.main_arg2).trans (Cert.ReferenceIdeal.RefChain.kept_arg2 _), (h c Cert.ReferenceIdeal.main_arg3).trans (Cert.ReferenceIdeal.RefChain.kept_arg3 _),
      (h c Cert.ReferenceIdeal.main_arg4).trans (Cert.ReferenceIdeal.RefChain.kept_arg4 _), (h c Cert.ReferenceIdeal.main_arg5).trans (Cert.ReferenceIdeal.RefChain.kept_arg5 _),
      (h c Cert.ReferenceIdeal.main_arg6).trans (Cert.ReferenceIdeal.RefChain.kept_arg6 _)⟩)
    (Cert.ReferenceIdeal.ValueP.run_after (F := Ideal) m' ρ')
  obtain ⟨g0, g1, g2, g3, g4, g5, g6⟩ := hagree c
  obtain ⟨r0, r2, r3, r4, r5, r6⟩ := Cert.PreReal.reals _ _ _ _ _ _ _ (hpre c)
  have e : Cert.ReferenceIdeal.RefChain.network (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6))
      = Cert.KernelIdeal.Gen.W9 m ρ c (Proc.devRef .tc Cert.KernelIdeal.main_v65) := by
    rw [g0, g1, g2, g3, g4, g5, g6, Cert.KernelIdeal.KChain.result_eq m ρ c]
    exact (network_eq _ _ _ _ _ _ _ _ _ r0 r2 r3 r4 r5 r6).symm
  exact (Cert.ReferenceIdeal.RefChain.out_eq _).trans e

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
